-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1000000x64 : Shape := ⟨2, ![1000000, 64]⟩
abbrev S1000000x1 : Shape := ⟨2, ![1000000, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg0 : IVec S16384 32) (main_arg1 : IVec S16384 32) (main_v32 : IVec S_ 1) (main_c_12 : IVec S_ 32) : IVec S_ 1 :=
  let main_v33 : IVec S16384 32 := broadcastInDim S16384 ![] bcast_S_S16384 main_c_12
  let main_v34 : IVec S16384 1 := cmpi .slt main_arg0 main_v33
  let main_c_13 : IVec S_ 1 := constantI S_ 1 1#1
  let main_v35 : IVec S_ 1 := (fun x v => Host.reduce IntOp.andi x v reducesTo_S16384_S_d0 h_S_) main_v34 main_c_13
  let main_v36 : IVec S_ 1 := andi main_v32 main_v35
  let main_c_14 : IVec S_ 32 := constantI S_ 32 0#32
  let main_v37 : IVec S16384 32 := broadcastInDim S16384 ![] bcast_S_S16384 main_c_14
  let main_v38 : IVec S16384 1 := cmpi .sge main_arg1 main_v37
  let main_c_15 : IVec S_ 1 := constantI S_ 1 1#1
  let main_v39 : IVec S_ 1 := (fun x v => Host.reduce IntOp.andi x v reducesTo_S16384_S_d0 h_S_) main_v38 main_c_15
  let main_v40 : IVec S_ 1 := andi main_v36 main_v39
  let main_c_16 : IVec S_ 32 := constantI S_ 32 1000000#32
  let main_v41 : IVec S16384 32 := broadcastInDim S16384 ![] bcast_S_S16384 main_c_16
  let main_v42 : IVec S16384 1 := cmpi .slt main_arg1 main_v41
  let main_c_17 : IVec S_ 1 := constantI S_ 1 1#1
  let main_v43 : IVec S_ 1 := (fun x v => Host.reduce IntOp.andi x v reducesTo_S16384_S_d0 h_S_) main_v42 main_c_17
  let main_v44 : IVec S_ 1 := andi main_v40 main_v43
  main_v44

def fn_part1 {F : FTy → Type} [FloatOps F] (main_arg0 : IVec S16384 32) (main_arg1 : IVec S16384 32) (main_arg6 : FVec F S1 .f32) (main_arg7 : FVec F S1000000x64 .f32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1000000x64 .f32 := Host.absf main_arg7
  let main_cst_8 : FVec F S_ .f32 := constant S_ .f32 0x7F800000#32
  let main_v25 : FVec F S1000000x64 .f32 := broadcastInDim S1000000x64 ![] bcast_S_S1000000x64 main_cst_8
  let main_v26 : IVec S1000000x64 1 := cmpf .olt main_v24 main_v25
  let main_c_9 : IVec S_ 1 := constantI S_ 1 1#1
  let main_v27 : IVec S_ 1 := (fun x v => Host.reduce IntOp.andi x v reducesTo_S1000000x64_S_d0_1 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg0 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v28 main_v31
  let main_c_12 : IVec S_ 32 := constantI S_ 32 1000000#32
  fn_part2 (F := F) main_arg0 main_arg1 main_v32 main_c_12

def fn {F : FTy → Type} [FloatOps F] (main_arg0 : IVec S16384 32) (main_arg1 : IVec S16384 32) (main_arg2 : FVec F S1000000x64 .f32) (main_arg3 : FVec F S1000000x64 .f32) (main_arg4 : FVec F S1000000x1 .f32) (main_arg5 : FVec F S1000000x1 .f32) (main_arg6 : FVec F S1 .f32) (main_arg7 : FVec F S1000000x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S1000000x1 .f32 := Host.absf main_arg5
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg0 main_arg1 main_arg6 main_arg7 main_v13 main_v16
-- ==== Kernel.lean ====
abbrev S16384 : Shape := ⟨1, ![16384]⟩
abbrev S1000000x64 : Shape := ⟨2, ![1000000, 64]⟩
abbrev S1000000x1 : Shape := ⟨2, ![1000000, 1]⟩
abbrev S1 : Shape := ⟨1, ![1]⟩
abbrev S1x1 : Shape := ⟨2, ![1, 1]⟩
abbrev S16384x1 : Shape := ⟨2, ![16384, 1]⟩
abbrev S64x1 : Shape := ⟨2, ![64, 1]⟩
abbrev S1x64 : Shape := ⟨2, ![1, 64]⟩
abbrev S_ : Shape := ⟨0, ![]⟩

abbrev nBuf : Space → Nat
  | .hbm => 9
  | .vmem => 8
  | .smem => 2
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x1, .f32⟩
  | .hbm, ⟨3, _⟩ => ⟨S1000000x1, .f32⟩
  | .hbm, ⟨4, _⟩ => ⟨S1, .f32⟩
  | .hbm, ⟨5, _⟩ => ⟨S1000000x64, .f32⟩
  | .hbm, ⟨6, _⟩ => ⟨S1x1, .f32⟩
  | .hbm, ⟨7, _⟩ => ⟨S16384x1, .f32⟩
  | .hbm, ⟨8, _⟩ => ⟨S16384, .f32⟩
  | .local _ .vmem, ⟨0, _⟩ => ⟨S1x1, .f32⟩
  | .local _ .vmem, ⟨1, _⟩ => ⟨S64x1, .f32⟩
  | .local _ .vmem, ⟨2, _⟩ => ⟨S64x1, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S1x1, .f32⟩
  | .local _ .smem, ⟨0, _⟩ => ⟨S16384, .i32⟩
  | .local _ .smem, ⟨1, _⟩ => ⟨S16384, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v3 : BitVec 32 := Scalar.addi v0 c0_i32
  let v4 : Index := Scalar.indexCast v3
  ![v4.toNat]
def k0_off2 (v5 : BitVec 32) : Fin 2 → Nat :=
  let c0_i32_1 : BitVec 32 := 0#32
  ![v5.toNat, 0]

def k0_off3 (v7 : BitVec 32) : Fin 2 → Nat :=
  let c0_i32_2 : BitVec 32 := 0#32
  ![v7.toNat, 0]

def k0_off4 (v5 : BitVec 32) : Fin 2 → Nat :=
  let c0_i32_3 : BitVec 32 := 0#32
  ![v5.toNat, 0]
def k0_off5 (v5 : BitVec 32) : Fin 2 → Nat :=
  let c0_i32_4 : BitVec 32 := 0#32
  ![v5.toNat, 0]

def k0_chk1 (v5 : BitVec 32) : Prop :=
  (∀ a, (k0_off2 v5) a + S1x64.size a ≤ S1000000x64.size a) ∧
  (∀ a, (k0_off4 v5) a + S1x64.size a ≤ S1000000x64.size a) ∧
  (∀ a, (k0_off5 v5) a + S1x1.size a ≤ S1000000x1.size a)
instance k0_chk1.dec : ∀ (v5 : BitVec 32), Decidable (k0_chk1 v5) := fun v5 => decidable_of_iff' _ (Iff.of_eq (k0_chk1.eq_1 v5))
theorem k0_off2_inb : ∀ (v5 : BitVec 32) (k0_hw1 : k0_chk1 v5), ∀ a, (k0_off2 v5) a + S1x64.size a ≤ S1000000x64.size a := fun v5 k0_hw1 => k0_hw1.1
theorem k0_off4_inb : ∀ (v5 : BitVec 32) (k0_hw1 : k0_chk1 v5), ∀ a, (k0_off4 v5) a + S1x64.size a ≤ S1000000x64.size a := fun v5 k0_hw1 => k0_hw1.2.1
theorem k0_off5_inb : ∀ (v5 : BitVec 32) (k0_hw1 : k0_chk1 v5), ∀ a, (k0_off5 v5) a + S1x1.size a ≤ S1000000x1.size a := fun v5 k0_hw1 => k0_hw1.2.2

def k0_off6 (v7 : BitVec 32) : Fin 2 → Nat :=
  let c0_i32_5 : BitVec 32 := 0#32
  ![v7.toNat, 0]

def k0_chk2 (v7 : BitVec 32) : Prop :=
  (∀ a, (k0_off3 v7) a + S1x64.size a ≤ S1000000x64.size a) ∧
  (∀ a, (k0_off6 v7) a + S1x1.size a ≤ S1000000x1.size a)
instance k0_chk2.dec : ∀ (v7 : BitVec 32), Decidable (k0_chk2 v7) := fun v7 => decidable_of_iff' _ (Iff.of_eq (k0_chk2.eq_1 v7))
theorem k0_off3_inb : ∀ (v7 : BitVec 32) (k0_hw2 : k0_chk2 v7), ∀ a, (k0_off3 v7) a + S1x64.size a ≤ S1000000x64.size a := fun v7 k0_hw2 => k0_hw2.1
theorem k0_off6_inb : ∀ (v7 : BitVec 32) (k0_hw2 : k0_chk2 v7), ∀ a, (k0_off6 v7) a + S1x1.size a ≤ S1000000x1.size a := fun v7 k0_hw2 => k0_hw2.2

def k0_off7 (i : grid0.Coords) : Fin 1 → Nat :=
  let arg0 : BitVec 32 := BitVec.ofNat 32 (i 0).val
  let c64_i32 : BitVec 32 := 64#32
  let v0 : BitVec 32 := Scalar.muli arg0 c64_i32
  let c1_i32 : BitVec 32 := 1#32
  let v31 : BitVec 32 := Scalar.addi v0 c1_i32
  let v32 : Index := Scalar.indexCast v31
  ![v32.toNat]
def k0_off8 (v33 : BitVec 32) : Fin 2 → Nat :=
  let c0_i32_23 : BitVec 32 := 0#32
  ![v33.toNat, 0]

def k0_off9 (v35 : BitVec 32) : Fin 2 → Nat :=
  let c0_i32_24 : BitVec 32 := 0#32
  ![v35.toNat, 0]

def k0_off10 (v33 : BitVec 32) : Fin 2 → Nat :=
  let c0_i32_25 : BitVec 32 := 0#32
  ![v33.toNat, 0]
def k0_off11 (v33 : BitVec 32) : Fin 2 → Nat :=
  let c0_i32_26 : BitVec 32 := 0#32
  ![v33.toNat, 0]

def k0_chk3 (v33 : BitVec 32) : Prop :=
  (∀ a, (k0_off8 v33) a + S1x64.size a ≤ S1000000x64.size a) ∧
  (∀ a, (k0_off10 v33) a + S1x64.size a ≤ S1000000x64.size a) ∧
  (∀ a, (k0_off11 v33) a + S1x1.size a ≤ S1000000x1.size a)
instance k0_chk3.dec : ∀ (v33 : BitVec 32), Decidable (k0_chk3 v33) := fun v33 => decidable_of_iff' _ (Iff.of_eq (k0_chk3.eq_1 v33))
theorem k0_off8_inb : ∀ (v33 : BitVec 32) (k0_hw3 : k0_chk3 v33), ∀ a, (k0_off8 v33) a + S1x64.size a ≤ S1000000x64.size a := fun v33 k0_hw3 => k0_hw3.1
theorem k0_off10_inb : ∀ (v33 : BitVec 32) (k0_hw3 : k0_chk3 v33), ∀ a, (k0_off10 v33) a + S1x64.size a ≤ S1000000x64.size a := fun v33 k0_hw3 => k0_hw3.2.1
theorem k0_off11_inb : ∀ (v33 : BitVec 32) (k0_hw3 : k0_chk3 v33), ∀ a, (k0_off11 v33) a + S1x1.size a ≤ S1000000x1.size a := fun v33 k0_hw3 => k0_hw3.2.2

def k0_off12 (v35 : BitVec 32) : Fin 2 → Nat :=
  let c0_i32_27 : BitVec 32 := 0#32
  ![v35.toNat, 0]

def k0_chk4 (v35 : BitVec 32) : Prop :=
  (∀ a, (k0_off9 v35) a + S1x64.size a ≤ S1000000x64.size a) ∧
  (∀ a, (k0_off12 v35) a + S1x1.size a ≤ S1000000x1.size a)
instance k0_chk4.dec : ∀ (v35 : BitVec 32), Decidable (k0_chk4 v35) := fun v35 => decidable_of_iff' _ (Iff.of_eq (k0_chk4.eq_1 v35))
theorem k0_off9_inb : ∀ (v35 : BitVec 32) (k0_hw4 : k0_chk4 v35), ∀ a, (k0_off9 v35) a + S1x64.size a ≤ S1000000x64.size a := fun v35 k0_hw4 => k0_hw4.1
theorem k0_off12_inb : ∀ (v35 : BitVec 32) (k0_hw4 : k0_chk4 v35), ∀ a, (k0_off12 v35) a + S1x1.size a ≤ S1000000x1.size a := fun v35 k0_hw4 => k0_hw4.2

def k0_off13 (i : grid0.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v59 : BitVec 32 := Scalar.addi v0 c2_i32
  let v60 : Index := Scalar.indexCast v59
  ![v60.toNat]
def k0_off14 (v61 : BitVec 32) : Fin 2 → Nat :=
  let c0_i32_45 : BitVec 32 := 0#32
  ![v61.toNat, 0]

def k0_off15 (v63 : BitVec 32) : Fin 2 → Nat :=
  let c0_i32_46 : BitVec 32 := 0#32
  ![v63.toNat, 0]

def k0_off16 (v61 : BitVec 32) : Fin 2 → Nat :=
  let c0_i32_47 : BitVec 32 := 0#32
  ![v61.toNat, 0]
def k0_off17 (v61 : BitVec 32) : Fin 2 → Nat :=
  let c0_i32_48 : BitVec 32 := 0#32
  ![v61.toNat, 0]

def k0_chk5 (v61 : BitVec 32) : Prop :=
  (∀ a, (k0_off14 v61) a + S1x64.size a ≤ S1000000x64.size a) ∧
  (∀ a, (k0_off16 v61) a + S1x64.size a ≤ S1000000x64.size a) ∧
  (∀ a, (k0_off17 v61) a + S1x1.size a ≤ S1000000x1.size a)
instance k0_chk5.dec : ∀ (v61 : BitVec 32), Decidable (k0_chk5 v61) := fun v61 => decidable_of_iff' _ (Iff.of_eq (k0_chk5.eq_1 v61))
theorem k0_off14_inb : ∀ (v61 : BitVec 32) (k0_hw5 : k0_chk5 v61), ∀ a, (k0_off14 v61) a + S1x64.size a ≤ S1000000x64.size a := fun v61 k0_hw5 => k0_hw5.1
theorem k0_off16_inb : ∀ (v61 : BitVec 32) (k0_hw5 : k0_chk5 v61), ∀ a, (k0_off16 v61) a + S1x64.size a ≤ S1000000x64.size a := fun v61 k0_hw5 => k0_hw5.2.1
theorem k0_off17_inb : ∀ (v61 : BitVec 32) (k0_hw5 : k0_chk5 v61), ∀ a, (k0_off17 v61) a + S1x1.size a ≤ S1000000x1.size a := fun v61 k0_hw5 => k0_hw5.2.2

def k0_off18 (v63 : BitVec 32) : Fin 2 → Nat :=
  let c0_i32_49 : BitVec 32 := 0#32
  ![v63.toNat, 0]

def k0_chk6 (v63 : BitVec 32) : Prop :=
  (∀ a, (k0_off15 v63) a + S1x64.size a ≤ S1000000x64.size a) ∧
  (∀ a, (k0_off18 v63) a + S1x1.size a ≤ S1000000x1.size a)
instance k0_chk6.dec : ∀ (v63 : BitVec 32), Decidable (k0_chk6 v63) := fun v63 => decidable_of_iff' _ (Iff.of_eq (k0_chk6.eq_1 v63))
theorem k0_off15_inb : ∀ (v63 : BitVec 32) (k0_hw6 : k0_chk6 v63), ∀ a, (k0_off15 v63) a + S1x64.size a ≤ S1000000x64.size a := fun v63 k0_hw6 => k0_hw6.1
theorem k0_off18_inb : ∀ (v63 : BitVec 32) (k0_hw6 : k0_chk6 v63), ∀ a, (k0_off18 v63) a + S1x1.size a ≤ S1000000x1.size a := fun v63 k0_hw6 => k0_hw6.2

def k0_off19 (i : grid0.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v87 : BitVec 32 := Scalar.addi v0 c3_i32
  let v88 : Index := Scalar.indexCast v87
  ![v88.toNat]
def k0_off20 (v89 : BitVec 32) : Fin 2 → Nat :=
  let c0_i32_67 : BitVec 32 := 0#32
  ![v89.toNat, 0]

def k0_off21 (v91 : BitVec 32) : Fin 2 → Nat :=
  let c0_i32_68 : BitVec 32 := 0#32
  ![v91.toNat, 0]

def k0_off22 (v89 : BitVec 32) : Fin 2 → Nat :=
  let c0_i32_69 : BitVec 32 := 0#32
  ![v89.toNat, 0]
def k0_off23 (v89 : BitVec 32) : Fin 2 → Nat :=
  let c0_i32_70 : BitVec 32 := 0#32
  ![v89.toNat, 0]

def k0_chk7 (v89 : BitVec 32) : Prop :=
  (∀ a, (k0_off20 v89) a + S1x64.size a ≤ S1000000x64.size a) ∧
  (∀ a, (k0_off22 v89) a + S1x64.size a ≤ S1000000x64.size a) ∧
  (∀ a, (k0_off23 v89) a + S1x1.size a ≤ S1000000x1.size a)
instance k0_chk7.dec : ∀ (v89 : BitVec 32), Decidable (k0_chk7 v89) := fun v89 => decidable_of_iff' _ (Iff.of_eq (k0_chk7.eq_1 v89))
theorem k0_off20_inb : ∀ (v89 : BitVec 32) (k0_hw7 : k0_chk7 v89), ∀ a, (k0_off20 v89) a + S1x64.size a ≤ S1000000x64.size a := fun v89 k0_hw7 => k0_hw7.1
theorem k0_off22_inb : ∀ (v89 : BitVec 32) (k0_hw7 : k0_chk7 v89), ∀ a, (k0_off22 v89) a + S1x64.size a ≤ S1000000x64.size a := fun v89 k0_hw7 => k0_hw7.2.1
theorem k0_off23_inb : ∀ (v89 : BitVec 32) (k0_hw7 : k0_chk7 v89), ∀ a, (k0_off23 v89) a + S1x1.size a ≤ S1000000x1.size a := fun v89 k0_hw7 => k0_hw7.2.2

def k0_off24 (v91 : BitVec 32) : Fin 2 → Nat :=
  let c0_i32_71 : BitVec 32 := 0#32
  ![v91.toNat, 0]

def k0_chk8 (v91 : BitVec 32) : Prop :=
  (∀ a, (k0_off21 v91) a + S1x64.size a ≤ S1000000x64.size a) ∧
  (∀ a, (k0_off24 v91) a + S1x1.size a ≤ S1000000x1.size a)
instance k0_chk8.dec : ∀ (v91 : BitVec 32), Decidable (k0_chk8 v91) := fun v91 => decidable_of_iff' _ (Iff.of_eq (k0_chk8.eq_1 v91))
theorem k0_off21_inb : ∀ (v91 : BitVec 32) (k0_hw8 : k0_chk8 v91), ∀ a, (k0_off21 v91) a + S1x64.size a ≤ S1000000x64.size a := fun v91 k0_hw8 => k0_hw8.1
theorem k0_off24_inb : ∀ (v91 : BitVec 32) (k0_hw8 : k0_chk8 v91), ∀ a, (k0_off24 v91) a + S1x1.size a ≤ S1000000x1.size a := fun v91 k0_hw8 => k0_hw8.2

def k0_off25 (i : grid0.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v115 : BitVec 32 := Scalar.addi v0 c4_i32
  let v116 : Index := Scalar.indexCast v115
  ![v116.toNat]
def k0_off26 (v117 : BitVec 32) : Fin 2 → Nat :=
  let c0_i32_89 : BitVec 32 := 0#32
  ![v117.toNat, 0]

def k0_off27 (v119 : BitVec 32) : Fin 2 → Nat :=
  let c0_i32_90 : BitVec 32 := 0#32
  ![v119.toNat, 0]

def k0_off28 (v117 : BitVec 32) : Fin 2 → Nat :=
  let c0_i32_91 : BitVec 32 := 0#32
  ![v117.toNat, 0]
def k0_off29 (v117 : BitVec 32) : Fin 2 → Nat :=
  let c0_i32_92 : BitVec 32 := 0#32
  ![v117.toNat, 0]

def k0_chk9 (v117 : BitVec 32) : Prop :=
  (∀ a, (k0_off26 v117) a + S1x64.size a ≤ S1000000x64.size a) ∧
  (∀ a, (k0_off28 v117) a + S1x64.size a ≤ S1000000x64.size a) ∧
  (∀ a, (k0_off29 v117) a + S1x1.size a ≤ S1000000x1.size a)
instance k0_chk9.dec : ∀ (v117 : BitVec 32), Decidable (k0_chk9 v117) := fun v117 => decidable_of_iff' _ (Iff.of_eq (k0_chk9.eq_1 v117))
theorem k0_off26_inb : ∀ (v117 : BitVec 32) (k0_hw9 : k0_chk9 v117), ∀ a, (k0_off26 v117) a + S1x64.size a ≤ S1000000x64.size a := fun v117 k0_hw9 => k0_hw9.1
theorem k0_off28_inb : ∀ (v117 : BitVec 32) (k0_hw9 : k0_chk9 v117), ∀ a, (k0_off28 v117) a + S1x64.size a ≤ S1000000x64.size a := fun v117 k0_hw9 => k0_hw9.2.1
theorem k0_off29_inb : ∀ (v117 : BitVec 32) (k0_hw9 : k0_chk9 v117), ∀ a, (k0_off29 v117) a + S1x1.size a ≤ S1000000x1.size a := fun v117 k0_hw9 => k0_hw9.2.2

def k0_off30 (v119 : BitVec 32) : Fin 2 → Nat :=
  let c0_i32_93 : BitVec 32 := 0#32
  ![v119.toNat, 0]

def k0_chk10 (v119 : BitVec 32) : Prop :=
  (∀ a, (k0_off27 v119) a + S1x64.size a ≤ S1000000x64.size a) ∧
  (∀ a, (k0_off30 v119) a + S1x1.size a ≤ S1000000x1.size a)
instance k0_chk10.dec : ∀ (v119 : BitVec 32), Decidable (k0_chk10 v119) := fun v119 => decidable_of_iff' _ (Iff.of_eq (k0_chk10.eq_1 v119))
theorem k0_off27_inb : ∀ (v119 : BitVec 32) (k0_hw10 : k0_chk10 v119), ∀ a, (k0_off27 v119) a + S1x64.size a ≤ S1000000x64.size a := fun v119 k0_hw10 => k0_hw10.1
theorem k0_off30_inb : ∀ (v119 : BitVec 32) (k0_hw10 : k0_chk10 v119), ∀ a, (k0_off30 v119) a + S1x1.size a ≤ S1000000x1.size a := fun v119 k0_hw10 => k0_hw10.2

def k0_off31 (i : grid0.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v143 : BitVec 32 := Scalar.addi v0 c5_i32
  let v144 : Index := Scalar.indexCast v143
  ![v144.toNat]
def k0_off32 (v145 : BitVec 32) : Fin 2 → Nat :=
  let c0_i32_111 : BitVec 32 := 0#32
  ![v145.toNat, 0]

def k0_off33 (v147 : BitVec 32) : Fin 2 → Nat :=
  let c0_i32_112 : BitVec 32 := 0#32
  ![v147.toNat, 0]

def k0_off34 (v145 : BitVec 32) : Fin 2 → Nat :=
  let c0_i32_113 : BitVec 32 := 0#32
  ![v145.toNat, 0]
def k0_off35 (v145 : BitVec 32) : Fin 2 → Nat :=
  let c0_i32_114 : BitVec 32 := 0#32
  ![v145.toNat, 0]

def k0_chk11 (v145 : BitVec 32) : Prop :=
  (∀ a, (k0_off32 v145) a + S1x64.size a ≤ S1000000x64.size a) ∧
  (∀ a, (k0_off34 v145) a + S1x64.size a ≤ S1000000x64.size a) ∧
  (∀ a, (k0_off35 v145) a + S1x1.size a ≤ S1000000x1.size a)
instance k0_chk11.dec : ∀ (v145 : BitVec 32), Decidable (k0_chk11 v145) := fun v145 => decidable_of_iff' _ (Iff.of_eq (k0_chk11.eq_1 v145))
theorem k0_off32_inb : ∀ (v145 : BitVec 32) (k0_hw11 : k0_chk11 v145), ∀ a, (k0_off32 v145) a + S1x64.size a ≤ S1000000x64.size a := fun v145 k0_hw11 => k0_hw11.1
theorem k0_off34_inb : ∀ (v145 : BitVec 32) (k0_hw11 : k0_chk11 v145), ∀ a, (k0_off34 v145) a + S1x64.size a ≤ S1000000x64.size a := fun v145 k0_hw11 => k0_hw11.2.1
theorem k0_off35_inb : ∀ (v145 : BitVec 32) (k0_hw11 : k0_chk11 v145), ∀ a, (k0_off35 v145) a + S1x1.size a ≤ S1000000x1.size a := fun v145 k0_hw11 => k0_hw11.2.2

def k0_off36 (v147 : BitVec 32) : Fin 2 → Nat :=
  let c0_i32_115 : BitVec 32 := 0#32
  ![v147.toNat, 0]

def k0_chk12 (v147 : BitVec 32) : Prop :=
  (∀ a, (k0_off33 v147) a + S1x64.size a ≤ S1000000x64.size a) ∧
  (∀ a, (k0_off36 v147) a + S1x1.size a ≤ S1000000x1.size a)
instance k0_chk12.dec : ∀ (v147 : BitVec 32), Decidable (k0_chk12 v147) := fun v147 => decidable_of_iff' _ (Iff.of_eq (k0_chk12.eq_1 v147))
theorem k0_off33_inb : ∀ (v147 : BitVec 32) (k0_hw12 : k0_chk12 v147), ∀ a, (k0_off33 v147) a + S1x64.size a ≤ S1000000x64.size a := fun v147 k0_hw12 => k0_hw12.1
theorem k0_off36_inb : ∀ (v147 : BitVec 32) (k0_hw12 : k0_chk12 v147), ∀ a, (k0_off36 v147) a + S1x1.size a ≤ S1000000x1.size a := fun v147 k0_hw12 => k0_hw12.2

def k0_off37 (i : grid0.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v171 : BitVec 32 := Scalar.addi v0 c6_i32
  let v172 : Index := Scalar.indexCast v171
  ![v172.toNat]
def k0_off38 (v173 : BitVec 32) : Fin 2 → Nat :=
  let c0_i32_133 : BitVec 32 := 0#32
  ![v173.toNat, 0]

def k0_off39 (v175 : BitVec 32) : Fin 2 → Nat :=
  let c0_i32_134 : BitVec 32 := 0#32
  ![v175.toNat, 0]

def k0_off40 (v173 : BitVec 32) : Fin 2 → Nat :=
  let c0_i32_135 : BitVec 32 := 0#32
  ![v173.toNat, 0]
def k0_off41 (v173 : BitVec 32) : Fin 2 → Nat :=
  let c0_i32_136 : BitVec 32 := 0#32
  ![v173.toNat, 0]

def k0_chk13 (v173 : BitVec 32) : Prop :=
  (∀ a, (k0_off38 v173) a + S1x64.size a ≤ S1000000x64.size a) ∧
  (∀ a, (k0_off40 v173) a + S1x64.size a ≤ S1000000x64.size a) ∧
  (∀ a, (k0_off41 v173) a + S1x1.size a ≤ S1000000x1.size a)
instance k0_chk13.dec : ∀ (v173 : BitVec 32), Decidable (k0_chk13 v173) := fun v173 => decidable_of_iff' _ (Iff.of_eq (k0_chk13.eq_1 v173))
theorem k0_off38_inb : ∀ (v173 : BitVec 32) (k0_hw13 : k0_chk13 v173), ∀ a, (k0_off38 v173) a + S1x64.size a ≤ S1000000x64.size a := fun v173 k0_hw13 => k0_hw13.1
theorem k0_off40_inb : ∀ (v173 : BitVec 32) (k0_hw13 : k0_chk13 v173), ∀ a, (k0_off40 v173) a + S1x64.size a ≤ S1000000x64.size a := fun v173 k0_hw13 => k0_hw13.2.1
theorem k0_off41_inb : ∀ (v173 : BitVec 32) (k0_hw13 : k0_chk13 v173), ∀ a, (k0_off41 v173) a + S1x1.size a ≤ S1000000x1.size a := fun v173 k0_hw13 => k0_hw13.2.2

def k0_off42 (v175 : BitVec 32) : Fin 2 → Nat :=
  let c0_i32_137 : BitVec 32 := 0#32
  ![v175.toNat, 0]

def k0_chk14 (v175 : BitVec 32) : Prop :=
  (∀ a, (k0_off39 v175) a + S1x64.size a ≤ S1000000x64.size a) ∧
  (∀ a, (k0_off42 v175) a + S1x1.size a ≤ S1000000x1.size a)
instance k0_chk14.dec : ∀ (v175 : BitVec 32), Decidable (k0_chk14 v175) := fun v175 => decidable_of_iff' _ (Iff.of_eq (k0_chk14.eq_1 v175))
theorem k0_off39_inb : ∀ (v175 : BitVec 32) (k0_hw14 : k0_chk14 v175), ∀ a, (k0_off39 v175) a + S1x64.size a ≤ S1000000x64.size a := fun v175 k0_hw14 => k0_hw14.1
theorem k0_off42_inb : ∀ (v175 : BitVec 32) (k0_hw14 : k0_chk14 v175), ∀ a, (k0_off42 v175) a + S1x1.size a ≤ S1000000x1.size a := fun v175 k0_hw14 => k0_hw14.2

def k0_off43 (i : grid0.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v199 : BitVec 32 := Scalar.addi v0 c7_i32
  let v200 : Index := Scalar.indexCast v199
  ![v200.toNat]
def k0_off44 (v201 : BitVec 32) : Fin 2 → Nat :=
  let c0_i32_155 : BitVec 32 := 0#32
  ![v201.toNat, 0]

def k0_off45 (v203 : BitVec 32) : Fin 2 → Nat :=
  let c0_i32_156 : BitVec 32 := 0#32
  ![v203.toNat, 0]

def k0_off46 (v201 : BitVec 32) : Fin 2 → Nat :=
  let c0_i32_157 : BitVec 32 := 0#32
  ![v201.toNat, 0]
def k0_off47 (v201 : BitVec 32) : Fin 2 → Nat :=
  let c0_i32_158 : BitVec 32 := 0#32
  ![v201.toNat, 0]

def k0_chk15 (v201 : BitVec 32) : Prop :=
  (∀ a, (k0_off44 v201) a + S1x64.size a ≤ S1000000x64.size a) ∧
  (∀ a, (k0_off46 v201) a + S1x64.size a ≤ S1000000x64.size a) ∧
  (∀ a, (k0_off47 v201) a + S1x1.size a ≤ S1000000x1.size a)
instance k0_chk15.dec : ∀ (v201 : BitVec 32), Decidable (k0_chk15 v201) := fun v201 => decidable_of_iff' _ (Iff.of_eq (k0_chk15.eq_1 v201))
theorem k0_off44_inb : ∀ (v201 : BitVec 32) (k0_hw15 : k0_chk15 v201), ∀ a, (k0_off44 v201) a + S1x64.size a ≤ S1000000x64.size a := fun v201 k0_hw15 => k0_hw15.1
theorem k0_off46_inb : ∀ (v201 : BitVec 32) (k0_hw15 : k0_chk15 v201), ∀ a, (k0_off46 v201) a + S1x64.size a ≤ S1000000x64.size a := fun v201 k0_hw15 => k0_hw15.2.1
theorem k0_off47_inb : ∀ (v201 : BitVec 32) (k0_hw15 : k0_chk15 v201), ∀ a, (k0_off47 v201) a + S1x1.size a ≤ S1000000x1.size a := fun v201 k0_hw15 => k0_hw15.2.2

def k0_off48 (v203 : BitVec 32) : Fin 2 → Nat :=
  let c0_i32_159 : BitVec 32 := 0#32
  ![v203.toNat, 0]

def k0_chk16 (v203 : BitVec 32) : Prop :=
  (∀ a, (k0_off45 v203) a + S1x64.size a ≤ S1000000x64.size a) ∧
  (∀ a, (k0_off48 v203) a + S1x1.size a ≤ S1000000x1.size a)
instance k0_chk16.dec : ∀ (v203 : BitVec 32), Decidable (k0_chk16 v203) := fun v203 => decidable_of_iff' _ (Iff.of_eq (k0_chk16.eq_1 v203))
theorem k0_off45_inb : ∀ (v203 : BitVec 32) (k0_hw16 : k0_chk16 v203), ∀ a, (k0_off45 v203) a + S1x64.size a ≤ S1000000x64.size a := fun v203 k0_hw16 => k0_hw16.1
theorem k0_off48_inb : ∀ (v203 : BitVec 32) (k0_hw16 : k0_chk16 v203), ∀ a, (k0_off48 v203) a + S1x1.size a ≤ S1000000x1.size a := fun v203 k0_hw16 => k0_hw16.2

def k0_off49 (i : grid0.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v227 : BitVec 32 := Scalar.addi v0 c8_i32
  let v228 : Index := Scalar.indexCast v227
  ![v228.toNat]
def k0_off50 (v229 : BitVec 32) : Fin 2 → Nat :=
  let c0_i32_177 : BitVec 32 := 0#32
  ![v229.toNat, 0]

def k0_off51 (v231 : BitVec 32) : Fin 2 → Nat :=
  let c0_i32_178 : BitVec 32 := 0#32
  ![v231.toNat, 0]

def k0_off52 (v229 : BitVec 32) : Fin 2 → Nat :=
  let c0_i32_179 : BitVec 32 := 0#32
  ![v229.toNat, 0]
def k0_off53 (v229 : BitVec 32) : Fin 2 → Nat :=
  let c0_i32_180 : BitVec 32 := 0#32
  ![v229.toNat, 0]

def k0_chk17 (v229 : BitVec 32) : Prop :=
  (∀ a, (k0_off50 v229) a + S1x64.size a ≤ S1000000x64.size a) ∧
  (∀ a, (k0_off52 v229) a + S1x64.size a ≤ S1000000x64.size a) ∧
  (∀ a, (k0_off53 v229) a + S1x1.size a ≤ S1000000x1.size a)
instance k0_chk17.dec : ∀ (v229 : BitVec 32), Decidable (k0_chk17 v229) := fun v229 => decidable_of_iff' _ (Iff.of_eq (k0_chk17.eq_1 v229))
theorem k0_off50_inb : ∀ (v229 : BitVec 32) (k0_hw17 : k0_chk17 v229), ∀ a, (k0_off50 v229) a + S1x64.size a ≤ S1000000x64.size a := fun v229 k0_hw17 => k0_hw17.1
theorem k0_off52_inb : ∀ (v229 : BitVec 32) (k0_hw17 : k0_chk17 v229), ∀ a, (k0_off52 v229) a + S1x64.size a ≤ S1000000x64.size a := fun v229 k0_hw17 => k0_hw17.2.1
theorem k0_off53_inb : ∀ (v229 : BitVec 32) (k0_hw17 : k0_chk17 v229), ∀ a, (k0_off53 v229) a + S1x1.size a ≤ S1000000x1.size a := fun v229 k0_hw17 => k0_hw17.2.2

def k0_off54 (v231 : BitVec 32) : Fin 2 → Nat :=
  let c0_i32_181 : BitVec 32 := 0#32
  ![v231.toNat, 0]

def k0_chk18 (v231 : BitVec 32) : Prop :=
  (∀ a, (k0_off51 v231) a + S1x64.size a ≤ S1000000x64.size a) ∧
  (∀ a, (k0_off54 v231) a + S1x1.size a ≤ S1000000x1.size a)
instance k0_chk18.dec : ∀ (v231 : BitVec 32), Decidable (k0_chk18 v231) := fun v231 => decidable_of_iff' _ (Iff.of_eq (k0_chk18.eq_1 v231))
theorem k0_off51_inb : ∀ (v231 : BitVec 32) (k0_hw18 : k0_chk18 v231), ∀ a, (k0_off51 v231) a + S1x64.size a ≤ S1000000x64.size a := fun v231 k0_hw18 => k0_hw18.1
theorem k0_off54_inb : ∀ (v231 : BitVec 32) (k0_hw18 : k0_chk18 v231), ∀ a, (k0_off54 v231) a + S1x1.size a ≤ S1000000x1.size a := fun v231 k0_hw18 => k0_hw18.2

def k0_off55 (i : grid0.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v255 : BitVec 32 := Scalar.addi v0 c9_i32
  let v256 : Index := Scalar.indexCast v255
  ![v256.toNat]
def k0_off56 (v257 : BitVec 32) : Fin 2 → Nat :=
  let c0_i32_199 : BitVec 32 := 0#32
  ![v257.toNat, 0]

def k0_off57 (v259 : BitVec 32) : Fin 2 → Nat :=
  let c0_i32_200 : BitVec 32 := 0#32
  ![v259.toNat, 0]

def k0_off58 (v257 : BitVec 32) : Fin 2 → Nat :=
  let c0_i32_201 : BitVec 32 := 0#32
  ![v257.toNat, 0]
def k0_off59 (v257 : BitVec 32) : Fin 2 → Nat :=
  let c0_i32_202 : BitVec 32 := 0#32
  ![v257.toNat, 0]

def k0_chk19 (v257 : BitVec 32) : Prop :=
  (∀ a, (k0_off56 v257) a + S1x64.size a ≤ S1000000x64.size a) ∧
  (∀ a, (k0_off58 v257) a + S1x64.size a ≤ S1000000x64.size a) ∧
  (∀ a, (k0_off59 v257) a + S1x1.size a ≤ S1000000x1.size a)
instance k0_chk19.dec : ∀ (v257 : BitVec 32), Decidable (k0_chk19 v257) := fun v257 => decidable_of_iff' _ (Iff.of_eq (k0_chk19.eq_1 v257))
theorem k0_off56_inb : ∀ (v257 : BitVec 32) (k0_hw19 : k0_chk19 v257), ∀ a, (k0_off56 v257) a + S1x64.size a ≤ S1000000x64.size a := fun v257 k0_hw19 => k0_hw19.1
theorem k0_off58_inb : ∀ (v257 : BitVec 32) (k0_hw19 : k0_chk19 v257), ∀ a, (k0_off58 v257) a + S1x64.size a ≤ S1000000x64.size a := fun v257 k0_hw19 => k0_hw19.2.1
theorem k0_off59_inb : ∀ (v257 : BitVec 32) (k0_hw19 : k0_chk19 v257), ∀ a, (k0_off59 v257) a + S1x1.size a ≤ S1000000x1.size a := fun v257 k0_hw19 => k0_hw19.2.2

def k0_off60 (v259 : BitVec 32) : Fin 2 → Nat :=
  let c0_i32_203 : BitVec 32 := 0#32
  ![v259.toNat, 0]

def k0_chk20 (v259 : BitVec 32) : Prop :=
  (∀ a, (k0_off57 v259) a + S1x64.size a ≤ S1000000x64.size a) ∧
  (∀ a, (k0_off60 v259) a + S1x1.size a ≤ S1000000x1.size a)
instance k0_chk20.dec : ∀ (v259 : BitVec 32), Decidable (k0_chk20 v259) := fun v259 => decidable_of_iff' _ (Iff.of_eq (k0_chk20.eq_1 v259))
theorem k0_off57_inb : ∀ (v259 : BitVec 32) (k0_hw20 : k0_chk20 v259), ∀ a, (k0_off57 v259) a + S1x64.size a ≤ S1000000x64.size a := fun v259 k0_hw20 => k0_hw20.1
theorem k0_off60_inb : ∀ (v259 : BitVec 32) (k0_hw20 : k0_chk20 v259), ∀ a, (k0_off60 v259) a + S1x1.size a ≤ S1000000x1.size a := fun v259 k0_hw20 => k0_hw20.2

def k0_off61 (i : grid0.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v283 : BitVec 32 := Scalar.addi v0 c10_i32
  let v284 : Index := Scalar.indexCast v283
  ![v284.toNat]
def k0_off62 (v285 : BitVec 32) : Fin 2 → Nat :=
  let c0_i32_221 : BitVec 32 := 0#32
  ![v285.toNat, 0]

def k0_off63 (v287 : BitVec 32) : Fin 2 → Nat :=
  let c0_i32_222 : BitVec 32 := 0#32
  ![v287.toNat, 0]

def k0_off64 (v285 : BitVec 32) : Fin 2 → Nat :=
  let c0_i32_223 : BitVec 32 := 0#32
  ![v285.toNat, 0]
def k0_off65 (v285 : BitVec 32) : Fin 2 → Nat :=
  let c0_i32_224 : BitVec 32 := 0#32
  ![v285.toNat, 0]

def k0_chk21 (v285 : BitVec 32) : Prop :=
  (∀ a, (k0_off62 v285) a + S1x64.size a ≤ S1000000x64.size a) ∧
  (∀ a, (k0_off64 v285) a + S1x64.size a ≤ S1000000x64.size a) ∧
  (∀ a, (k0_off65 v285) a + S1x1.size a ≤ S1000000x1.size a)
instance k0_chk21.dec : ∀ (v285 : BitVec 32), Decidable (k0_chk21 v285) := fun v285 => decidable_of_iff' _ (Iff.of_eq (k0_chk21.eq_1 v285))
theorem k0_off62_inb : ∀ (v285 : BitVec 32) (k0_hw21 : k0_chk21 v285), ∀ a, (k0_off62 v285) a + S1x64.size a ≤ S1000000x64.size a := fun v285 k0_hw21 => k0_hw21.1
theorem k0_off64_inb : ∀ (v285 : BitVec 32) (k0_hw21 : k0_chk21 v285), ∀ a, (k0_off64 v285) a + S1x64.size a ≤ S1000000x64.size a := fun v285 k0_hw21 => k0_hw21.2.1
theorem k0_off65_inb : ∀ (v285 : BitVec 32) (k0_hw21 : k0_chk21 v285), ∀ a, (k0_off65 v285) a + S1x1.size a ≤ S1000000x1.size a := fun v285 k0_hw21 => k0_hw21.2.2

def k0_off66 (v287 : BitVec 32) : Fin 2 → Nat :=
  let c0_i32_225 : BitVec 32 := 0#32
  ![v287.toNat, 0]

def k0_chk22 (v287 : BitVec 32) : Prop :=
  (∀ a, (k0_off63 v287) a + S1x64.size a ≤ S1000000x64.size a) ∧
  (∀ a, (k0_off66 v287) a + S1x1.size a ≤ S1000000x1.size a)
instance k0_chk22.dec : ∀ (v287 : BitVec 32), Decidable (k0_chk22 v287) := fun v287 => decidable_of_iff' _ (Iff.of_eq (k0_chk22.eq_1 v287))
theorem k0_off63_inb : ∀ (v287 : BitVec 32) (k0_hw22 : k0_chk22 v287), ∀ a, (k0_off63 v287) a + S1x64.size a ≤ S1000000x64.size a := fun v287 k0_hw22 => k0_hw22.1
theorem k0_off66_inb : ∀ (v287 : BitVec 32) (k0_hw22 : k0_chk22 v287), ∀ a, (k0_off66 v287) a + S1x1.size a ≤ S1000000x1.size a := fun v287 k0_hw22 => k0_hw22.2

def k0_off67 (i : grid0.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v311 : BitVec 32 := Scalar.addi v0 c11_i32
  let v312 : Index := Scalar.indexCast v311
  ![v312.toNat]
def k0_off68 (v313 : BitVec 32) : Fin 2 → Nat :=
  let c0_i32_243 : BitVec 32 := 0#32
  ![v313.toNat, 0]

def k0_off69 (v315 : BitVec 32) : Fin 2 → Nat :=
  let c0_i32_244 : BitVec 32 := 0#32
  ![v315.toNat, 0]

def k0_off70 (v313 : BitVec 32) : Fin 2 → Nat :=
  let c0_i32_245 : BitVec 32 := 0#32
  ![v313.toNat, 0]
def k0_off71 (v313 : BitVec 32) : Fin 2 → Nat :=
  let c0_i32_246 : BitVec 32 := 0#32
  ![v313.toNat, 0]

def k0_chk23 (v313 : BitVec 32) : Prop :=
  (∀ a, (k0_off68 v313) a + S1x64.size a ≤ S1000000x64.size a) ∧
  (∀ a, (k0_off70 v313) a + S1x64.size a ≤ S1000000x64.size a) ∧
  (∀ a, (k0_off71 v313) a + S1x1.size a ≤ S1000000x1.size a)
instance k0_chk23.dec : ∀ (v313 : BitVec 32), Decidable (k0_chk23 v313) := fun v313 => decidable_of_iff' _ (Iff.of_eq (k0_chk23.eq_1 v313))
theorem k0_off68_inb : ∀ (v313 : BitVec 32) (k0_hw23 : k0_chk23 v313), ∀ a, (k0_off68 v313) a + S1x64.size a ≤ S1000000x64.size a := fun v313 k0_hw23 => k0_hw23.1
theorem k0_off70_inb : ∀ (v313 : BitVec 32) (k0_hw23 : k0_chk23 v313), ∀ a, (k0_off70 v313) a + S1x64.size a ≤ S1000000x64.size a := fun v313 k0_hw23 => k0_hw23.2.1
theorem k0_off71_inb : ∀ (v313 : BitVec 32) (k0_hw23 : k0_chk23 v313), ∀ a, (k0_off71 v313) a + S1x1.size a ≤ S1000000x1.size a := fun v313 k0_hw23 => k0_hw23.2.2

def k0_off72 (v315 : BitVec 32) : Fin 2 → Nat :=
  let c0_i32_247 : BitVec 32 := 0#32
  ![v315.toNat, 0]

def k0_chk24 (v315 : BitVec 32) : Prop :=
  (∀ a, (k0_off69 v315) a + S1x64.size a ≤ S1000000x64.size a) ∧
  (∀ a, (k0_off72 v315) a + S1x1.size a ≤ S1000000x1.size a)
instance k0_chk24.dec : ∀ (v315 : BitVec 32), Decidable (k0_chk24 v315) := fun v315 => decidable_of_iff' _ (Iff.of_eq (k0_chk24.eq_1 v315))
theorem k0_off69_inb : ∀ (v315 : BitVec 32) (k0_hw24 : k0_chk24 v315), ∀ a, (k0_off69 v315) a + S1x64.size a ≤ S1000000x64.size a := fun v315 k0_hw24 => k0_hw24.1
theorem k0_off72_inb : ∀ (v315 : BitVec 32) (k0_hw24 : k0_chk24 v315), ∀ a, (k0_off72 v315) a + S1x1.size a ≤ S1000000x1.size a := fun v315 k0_hw24 => k0_hw24.2

def k0_off73 (i : grid0.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v339 : BitVec 32 := Scalar.addi v0 c12_i32
  let v340 : Index := Scalar.indexCast v339
  ![v340.toNat]
def k0_off74 (v341 : BitVec 32) : Fin 2 → Nat :=
  let c0_i32_265 : BitVec 32 := 0#32
  ![v341.toNat, 0]

def k0_off75 (v343 : BitVec 32) : Fin 2 → Nat :=
  let c0_i32_266 : BitVec 32 := 0#32
  ![v343.toNat, 0]

def k0_off76 (v341 : BitVec 32) : Fin 2 → Nat :=
  let c0_i32_267 : BitVec 32 := 0#32
  ![v341.toNat, 0]
def k0_off77 (v341 : BitVec 32) : Fin 2 → Nat :=
  let c0_i32_268 : BitVec 32 := 0#32
  ![v341.toNat, 0]

def k0_chk25 (v341 : BitVec 32) : Prop :=
  (∀ a, (k0_off74 v341) a + S1x64.size a ≤ S1000000x64.size a) ∧
  (∀ a, (k0_off76 v341) a + S1x64.size a ≤ S1000000x64.size a) ∧
  (∀ a, (k0_off77 v341) a + S1x1.size a ≤ S1000000x1.size a)
instance k0_chk25.dec : ∀ (v341 : BitVec 32), Decidable (k0_chk25 v341) := fun v341 => decidable_of_iff' _ (Iff.of_eq (k0_chk25.eq_1 v341))
theorem k0_off74_inb : ∀ (v341 : BitVec 32) (k0_hw25 : k0_chk25 v341), ∀ a, (k0_off74 v341) a + S1x64.size a ≤ S1000000x64.size a := fun v341 k0_hw25 => k0_hw25.1
theorem k0_off76_inb : ∀ (v341 : BitVec 32) (k0_hw25 : k0_chk25 v341), ∀ a, (k0_off76 v341) a + S1x64.size a ≤ S1000000x64.size a := fun v341 k0_hw25 => k0_hw25.2.1
theorem k0_off77_inb : ∀ (v341 : BitVec 32) (k0_hw25 : k0_chk25 v341), ∀ a, (k0_off77 v341) a + S1x1.size a ≤ S1000000x1.size a := fun v341 k0_hw25 => k0_hw25.2.2

def k0_off78 (v343 : BitVec 32) : Fin 2 → Nat :=
  let c0_i32_269 : BitVec 32 := 0#32
  ![v343.toNat, 0]

def k0_chk26 (v343 : BitVec 32) : Prop :=
  (∀ a, (k0_off75 v343) a + S1x64.size a ≤ S1000000x64.size a) ∧
  (∀ a, (k0_off78 v343) a + S1x1.size a ≤ S1000000x1.size a)
instance k0_chk26.dec : ∀ (v343 : BitVec 32), Decidable (k0_chk26 v343) := fun v343 => decidable_of_iff' _ (Iff.of_eq (k0_chk26.eq_1 v343))
theorem k0_off75_inb : ∀ (v343 : BitVec 32) (k0_hw26 : k0_chk26 v343), ∀ a, (k0_off75 v343) a + S1x64.size a ≤ S1000000x64.size a := fun v343 k0_hw26 => k0_hw26.1
theorem k0_off78_inb : ∀ (v343 : BitVec 32) (k0_hw26 : k0_chk26 v343), ∀ a, (k0_off78 v343) a + S1x1.size a ≤ S1000000x1.size a := fun v343 k0_hw26 => k0_hw26.2

def k0_off79 (i : grid0.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v367 : BitVec 32 := Scalar.addi v0 c13_i32
  let v368 : Index := Scalar.indexCast v367
  ![v368.toNat]
def k0_off80 (v369 : BitVec 32) : Fin 2 → Nat :=
  let c0_i32_287 : BitVec 32 := 0#32
  ![v369.toNat, 0]

def k0_off81 (v371 : BitVec 32) : Fin 2 → Nat :=
  let c0_i32_288 : BitVec 32 := 0#32
  ![v371.toNat, 0]

def k0_off82 (v369 : BitVec 32) : Fin 2 → Nat :=
  let c0_i32_289 : BitVec 32 := 0#32
  ![v369.toNat, 0]
def k0_off83 (v369 : BitVec 32) : Fin 2 → Nat :=
  let c0_i32_290 : BitVec 32 := 0#32
  ![v369.toNat, 0]

def k0_chk27 (v369 : BitVec 32) : Prop :=
  (∀ a, (k0_off80 v369) a + S1x64.size a ≤ S1000000x64.size a) ∧
  (∀ a, (k0_off82 v369) a + S1x64.size a ≤ S1000000x64.size a) ∧
  (∀ a, (k0_off83 v369) a + S1x1.size a ≤ S1000000x1.size a)
instance k0_chk27.dec : ∀ (v369 : BitVec 32), Decidable (k0_chk27 v369) := fun v369 => decidable_of_iff' _ (Iff.of_eq (k0_chk27.eq_1 v369))
theorem k0_off80_inb : ∀ (v369 : BitVec 32) (k0_hw27 : k0_chk27 v369), ∀ a, (k0_off80 v369) a + S1x64.size a ≤ S1000000x64.size a := fun v369 k0_hw27 => k0_hw27.1
theorem k0_off82_inb : ∀ (v369 : BitVec 32) (k0_hw27 : k0_chk27 v369), ∀ a, (k0_off82 v369) a + S1x64.size a ≤ S1000000x64.size a := fun v369 k0_hw27 => k0_hw27.2.1
theorem k0_off83_inb : ∀ (v369 : BitVec 32) (k0_hw27 : k0_chk27 v369), ∀ a, (k0_off83 v369) a + S1x1.size a ≤ S1000000x1.size a := fun v369 k0_hw27 => k0_hw27.2.2

def k0_off84 (v371 : BitVec 32) : Fin 2 → Nat :=
  let c0_i32_291 : BitVec 32 := 0#32
  ![v371.toNat, 0]

def k0_chk28 (v371 : BitVec 32) : Prop :=
  (∀ a, (k0_off81 v371) a + S1x64.size a ≤ S1000000x64.size a) ∧
  (∀ a, (k0_off84 v371) a + S1x1.size a ≤ S1000000x1.size a)
instance k0_chk28.dec : ∀ (v371 : BitVec 32), Decidable (k0_chk28 v371) := fun v371 => decidable_of_iff' _ (Iff.of_eq (k0_chk28.eq_1 v371))
theorem k0_off81_inb : ∀ (v371 : BitVec 32) (k0_hw28 : k0_chk28 v371), ∀ a, (k0_off81 v371) a + S1x64.size a ≤ S1000000x64.size a := fun v371 k0_hw28 => k0_hw28.1
theorem k0_off84_inb : ∀ (v371 : BitVec 32) (k0_hw28 : k0_chk28 v371), ∀ a, (k0_off84 v371) a + S1x1.size a ≤ S1000000x1.size a := fun v371 k0_hw28 => k0_hw28.2

def k0_off85 (i : grid0.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v395 : BitVec 32 := Scalar.addi v0 c14_i32
  let v396 : Index := Scalar.indexCast v395
  ![v396.toNat]
def k0_off86 (v397 : BitVec 32) : Fin 2 → Nat :=
  let c0_i32_309 : BitVec 32 := 0#32
  ![v397.toNat, 0]

def k0_off87 (v399 : BitVec 32) : Fin 2 → Nat :=
  let c0_i32_310 : BitVec 32 := 0#32
  ![v399.toNat, 0]

def k0_off88 (v397 : BitVec 32) : Fin 2 → Nat :=
  let c0_i32_311 : BitVec 32 := 0#32
  ![v397.toNat, 0]
def k0_off89 (v397 : BitVec 32) : Fin 2 → Nat :=
  let c0_i32_312 : BitVec 32 := 0#32
  ![v397.toNat, 0]

def k0_chk29 (v397 : BitVec 32) : Prop :=
  (∀ a, (k0_off86 v397) a + S1x64.size a ≤ S1000000x64.size a) ∧
  (∀ a, (k0_off88 v397) a + S1x64.size a ≤ S1000000x64.size a) ∧
  (∀ a, (k0_off89 v397) a + S1x1.size a ≤ S1000000x1.size a)
instance k0_chk29.dec : ∀ (v397 : BitVec 32), Decidable (k0_chk29 v397) := fun v397 => decidable_of_iff' _ (Iff.of_eq (k0_chk29.eq_1 v397))
theorem k0_off86_inb : ∀ (v397 : BitVec 32) (k0_hw29 : k0_chk29 v397), ∀ a, (k0_off86 v397) a + S1x64.size a ≤ S1000000x64.size a := fun v397 k0_hw29 => k0_hw29.1
theorem k0_off88_inb : ∀ (v397 : BitVec 32) (k0_hw29 : k0_chk29 v397), ∀ a, (k0_off88 v397) a + S1x64.size a ≤ S1000000x64.size a := fun v397 k0_hw29 => k0_hw29.2.1
theorem k0_off89_inb : ∀ (v397 : BitVec 32) (k0_hw29 : k0_chk29 v397), ∀ a, (k0_off89 v397) a + S1x1.size a ≤ S1000000x1.size a := fun v397 k0_hw29 => k0_hw29.2.2

def k0_off90 (v399 : BitVec 32) : Fin 2 → Nat :=
  let c0_i32_313 : BitVec 32 := 0#32
  ![v399.toNat, 0]

def k0_chk30 (v399 : BitVec 32) : Prop :=
  (∀ a, (k0_off87 v399) a + S1x64.size a ≤ S1000000x64.size a) ∧
  (∀ a, (k0_off90 v399) a + S1x1.size a ≤ S1000000x1.size a)
instance k0_chk30.dec : ∀ (v399 : BitVec 32), Decidable (k0_chk30 v399) := fun v399 => decidable_of_iff' _ (Iff.of_eq (k0_chk30.eq_1 v399))
theorem k0_off87_inb : ∀ (v399 : BitVec 32) (k0_hw30 : k0_chk30 v399), ∀ a, (k0_off87 v399) a + S1x64.size a ≤ S1000000x64.size a := fun v399 k0_hw30 => k0_hw30.1
theorem k0_off90_inb : ∀ (v399 : BitVec 32) (k0_hw30 : k0_chk30 v399), ∀ a, (k0_off90 v399) a + S1x1.size a ≤ S1000000x1.size a := fun v399 k0_hw30 => k0_hw30.2

def k0_off91 (i : grid0.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v423 : BitVec 32 := Scalar.addi v0 c15_i32
  let v424 : Index := Scalar.indexCast v423
  ![v424.toNat]
def k0_off92 (v425 : BitVec 32) : Fin 2 → Nat :=
  let c0_i32_331 : BitVec 32 := 0#32
  ![v425.toNat, 0]

def k0_off93 (v427 : BitVec 32) : Fin 2 → Nat :=
  let c0_i32_332 : BitVec 32 := 0#32
  ![v427.toNat, 0]

def k0_off94 (v425 : BitVec 32) : Fin 2 → Nat :=
  let c0_i32_333 : BitVec 32 := 0#32
  ![v425.toNat, 0]
def k0_off95 (v425 : BitVec 32) : Fin 2 → Nat :=
  let c0_i32_334 : BitVec 32 := 0#32
  ![v425.toNat, 0]

def k0_chk31 (v425 : BitVec 32) : Prop :=
  (∀ a, (k0_off92 v425) a + S1x64.size a ≤ S1000000x64.size a) ∧
  (∀ a, (k0_off94 v425) a + S1x64.size a ≤ S1000000x64.size a) ∧
  (∀ a, (k0_off95 v425) a + S1x1.size a ≤ S1000000x1.size a)
instance k0_chk31.dec : ∀ (v425 : BitVec 32), Decidable (k0_chk31 v425) := fun v425 => decidable_of_iff' _ (Iff.of_eq (k0_chk31.eq_1 v425))
theorem k0_off92_inb : ∀ (v425 : BitVec 32) (k0_hw31 : k0_chk31 v425), ∀ a, (k0_off92 v425) a + S1x64.size a ≤ S1000000x64.size a := fun v425 k0_hw31 => k0_hw31.1
theorem k0_off94_inb : ∀ (v425 : BitVec 32) (k0_hw31 : k0_chk31 v425), ∀ a, (k0_off94 v425) a + S1x64.size a ≤ S1000000x64.size a := fun v425 k0_hw31 => k0_hw31.2.1
theorem k0_off95_inb : ∀ (v425 : BitVec 32) (k0_hw31 : k0_chk31 v425), ∀ a, (k0_off95 v425) a + S1x1.size a ≤ S1000000x1.size a := fun v425 k0_hw31 => k0_hw31.2.2

def k0_off96 (v427 : BitVec 32) : Fin 2 → Nat :=
  let c0_i32_335 : BitVec 32 := 0#32
  ![v427.toNat, 0]

def k0_chk32 (v427 : BitVec 32) : Prop :=
  (∀ a, (k0_off93 v427) a + S1x64.size a ≤ S1000000x64.size a) ∧
  (∀ a, (k0_off96 v427) a + S1x1.size a ≤ S1000000x1.size a)
instance k0_chk32.dec : ∀ (v427 : BitVec 32), Decidable (k0_chk32 v427) := fun v427 => decidable_of_iff' _ (Iff.of_eq (k0_chk32.eq_1 v427))
theorem k0_off93_inb : ∀ (v427 : BitVec 32) (k0_hw32 : k0_chk32 v427), ∀ a, (k0_off93 v427) a + S1x64.size a ≤ S1000000x64.size a := fun v427 k0_hw32 => k0_hw32.1
theorem k0_off96_inb : ∀ (v427 : BitVec 32) (k0_hw32 : k0_chk32 v427), ∀ a, (k0_off96 v427) a + S1x1.size a ≤ S1000000x1.size a := fun v427 k0_hw32 => k0_hw32.2

def k0_off97 (i : grid0.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v451 : BitVec 32 := Scalar.addi v0 c16_i32
  let v452 : Index := Scalar.indexCast v451
  ![v452.toNat]
def k0_off98 (v453 : BitVec 32) : Fin 2 → Nat :=
  let c0_i32_353 : BitVec 32 := 0#32
  ![v453.toNat, 0]

def k0_off99 (v455 : BitVec 32) : Fin 2 → Nat :=
  let c0_i32_354 : BitVec 32 := 0#32
  ![v455.toNat, 0]

def k0_off100 (v453 : BitVec 32) : Fin 2 → Nat :=
  let c0_i32_355 : BitVec 32 := 0#32
  ![v453.toNat, 0]
def k0_off101 (v453 : BitVec 32) : Fin 2 → Nat :=
  let c0_i32_356 : BitVec 32 := 0#32
  ![v453.toNat, 0]

def k0_chk33 (v453 : BitVec 32) : Prop :=
  (∀ a, (k0_off98 v453) a + S1x64.size a ≤ S1000000x64.size a) ∧
  (∀ a, (k0_off100 v453) a + S1x64.size a ≤ S1000000x64.size a) ∧
  (∀ a, (k0_off101 v453) a + S1x1.size a ≤ S1000000x1.size a)
instance k0_chk33.dec : ∀ (v453 : BitVec 32), Decidable (k0_chk33 v453) := fun v453 => decidable_of_iff' _ (Iff.of_eq (k0_chk33.eq_1 v453))
theorem k0_off98_inb : ∀ (v453 : BitVec 32) (k0_hw33 : k0_chk33 v453), ∀ a, (k0_off98 v453) a + S1x64.size a ≤ S1000000x64.size a := fun v453 k0_hw33 => k0_hw33.1
theorem k0_off100_inb : ∀ (v453 : BitVec 32) (k0_hw33 : k0_chk33 v453), ∀ a, (k0_off100 v453) a + S1x64.size a ≤ S1000000x64.size a := fun v453 k0_hw33 => k0_hw33.2.1
theorem k0_off101_inb : ∀ (v453 : BitVec 32) (k0_hw33 : k0_chk33 v453), ∀ a, (k0_off101 v453) a + S1x1.size a ≤ S1000000x1.size a := fun v453 k0_hw33 => k0_hw33.2.2

def k0_off102 (v455 : BitVec 32) : Fin 2 → Nat :=
  let c0_i32_357 : BitVec 32 := 0#32
  ![v455.toNat, 0]

def k0_chk34 (v455 : BitVec 32) : Prop :=
  (∀ a, (k0_off99 v455) a + S1x64.size a ≤ S1000000x64.size a) ∧
  (∀ a, (k0_off102 v455) a + S1x1.size a ≤ S1000000x1.size a)
instance k0_chk34.dec : ∀ (v455 : BitVec 32), Decidable (k0_chk34 v455) := fun v455 => decidable_of_iff' _ (Iff.of_eq (k0_chk34.eq_1 v455))
theorem k0_off99_inb : ∀ (v455 : BitVec 32) (k0_hw34 : k0_chk34 v455), ∀ a, (k0_off99 v455) a + S1x64.size a ≤ S1000000x64.size a := fun v455 k0_hw34 => k0_hw34.1
theorem k0_off102_inb : ∀ (v455 : BitVec 32) (k0_hw34 : k0_chk34 v455), ∀ a, (k0_off102 v455) a + S1x1.size a ≤ S1000000x1.size a := fun v455 k0_hw34 => k0_hw34.2

def k0_off103 (i : grid0.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v479 : BitVec 32 := Scalar.addi v0 c17_i32
  let v480 : Index := Scalar.indexCast v479
  ![v480.toNat]
def k0_off104 (v481 : BitVec 32) : Fin 2 → Nat :=
  let c0_i32_375 : BitVec 32 := 0#32
  ![v481.toNat, 0]

def k0_off105 (v483 : BitVec 32) : Fin 2 → Nat :=
  let c0_i32_376 : BitVec 32 := 0#32
  ![v483.toNat, 0]

def k0_off106 (v481 : BitVec 32) : Fin 2 → Nat :=
  let c0_i32_377 : BitVec 32 := 0#32
  ![v481.toNat, 0]
def k0_off107 (v481 : BitVec 32) : Fin 2 → Nat :=
  let c0_i32_378 : BitVec 32 := 0#32
  ![v481.toNat, 0]

def k0_chk35 (v481 : BitVec 32) : Prop :=
  (∀ a, (k0_off104 v481) a + S1x64.size a ≤ S1000000x64.size a) ∧
  (∀ a, (k0_off106 v481) a + S1x64.size a ≤ S1000000x64.size a) ∧
  (∀ a, (k0_off107 v481) a + S1x1.size a ≤ S1000000x1.size a)
instance k0_chk35.dec : ∀ (v481 : BitVec 32), Decidable (k0_chk35 v481) := fun v481 => decidable_of_iff' _ (Iff.of_eq (k0_chk35.eq_1 v481))
theorem k0_off104_inb : ∀ (v481 : BitVec 32) (k0_hw35 : k0_chk35 v481), ∀ a, (k0_off104 v481) a + S1x64.size a ≤ S1000000x64.size a := fun v481 k0_hw35 => k0_hw35.1
theorem k0_off106_inb : ∀ (v481 : BitVec 32) (k0_hw35 : k0_chk35 v481), ∀ a, (k0_off106 v481) a + S1x64.size a ≤ S1000000x64.size a := fun v481 k0_hw35 => k0_hw35.2.1
theorem k0_off107_inb : ∀ (v481 : BitVec 32) (k0_hw35 : k0_chk35 v481), ∀ a, (k0_off107 v481) a + S1x1.size a ≤ S1000000x1.size a := fun v481 k0_hw35 => k0_hw35.2.2

def k0_off108 (v483 : BitVec 32) : Fin 2 → Nat :=
  let c0_i32_379 : BitVec 32 := 0#32
  ![v483.toNat, 0]

def k0_chk36 (v483 : BitVec 32) : Prop :=
  (∀ a, (k0_off105 v483) a + S1x64.size a ≤ S1000000x64.size a) ∧
  (∀ a, (k0_off108 v483) a + S1x1.size a ≤ S1000000x1.size a)
instance k0_chk36.dec : ∀ (v483 : BitVec 32), Decidable (k0_chk36 v483) := fun v483 => decidable_of_iff' _ (Iff.of_eq (k0_chk36.eq_1 v483))
theorem k0_off105_inb : ∀ (v483 : BitVec 32) (k0_hw36 : k0_chk36 v483), ∀ a, (k0_off105 v483) a + S1x64.size a ≤ S1000000x64.size a := fun v483 k0_hw36 => k0_hw36.1
theorem k0_off108_inb : ∀ (v483 : BitVec 32) (k0_hw36 : k0_chk36 v483), ∀ a, (k0_off108 v483) a + S1x1.size a ≤ S1000000x1.size a := fun v483 k0_hw36 => k0_hw36.2

def k0_off109 (i : grid0.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v507 : BitVec 32 := Scalar.addi v0 c18_i32
  let v508 : Index := Scalar.indexCast v507
  ![v508.toNat]
def k0_off110 (v509 : BitVec 32) : Fin 2 → Nat :=
  let c0_i32_397 : BitVec 32 := 0#32
  ![v509.toNat, 0]

def k0_off111 (v511 : BitVec 32) : Fin 2 → Nat :=
  let c0_i32_398 : BitVec 32 := 0#32
  ![v511.toNat, 0]

def k0_off112 (v509 : BitVec 32) : Fin 2 → Nat :=
  let c0_i32_399 : BitVec 32 := 0#32
  ![v509.toNat, 0]
def k0_off113 (v509 : BitVec 32) : Fin 2 → Nat :=
  let c0_i32_400 : BitVec 32 := 0#32
  ![v509.toNat, 0]

def k0_chk37 (v509 : BitVec 32) : Prop :=
  (∀ a, (k0_off110 v509) a + S1x64.size a ≤ S1000000x64.size a) ∧
  (∀ a, (k0_off112 v509) a + S1x64.size a ≤ S1000000x64.size a) ∧
  (∀ a, (k0_off113 v509) a + S1x1.size a ≤ S1000000x1.size a)
instance k0_chk37.dec : ∀ (v509 : BitVec 32), Decidable (k0_chk37 v509) := fun v509 => decidable_of_iff' _ (Iff.of_eq (k0_chk37.eq_1 v509))
theorem k0_off110_inb : ∀ (v509 : BitVec 32) (k0_hw37 : k0_chk37 v509), ∀ a, (k0_off110 v509) a + S1x64.size a ≤ S1000000x64.size a := fun v509 k0_hw37 => k0_hw37.1
theorem k0_off112_inb : ∀ (v509 : BitVec 32) (k0_hw37 : k0_chk37 v509), ∀ a, (k0_off112 v509) a + S1x64.size a ≤ S1000000x64.size a := fun v509 k0_hw37 => k0_hw37.2.1
theorem k0_off113_inb : ∀ (v509 : BitVec 32) (k0_hw37 : k0_chk37 v509), ∀ a, (k0_off113 v509) a + S1x1.size a ≤ S1000000x1.size a := fun v509 k0_hw37 => k0_hw37.2.2

def k0_off114 (v511 : BitVec 32) : Fin 2 → Nat :=
  let c0_i32_401 : BitVec 32 := 0#32
  ![v511.toNat, 0]

def k0_chk38 (v511 : BitVec 32) : Prop :=
  (∀ a, (k0_off111 v511) a + S1x64.size a ≤ S1000000x64.size a) ∧
  (∀ a, (k0_off114 v511) a + S1x1.size a ≤ S1000000x1.size a)
instance k0_chk38.dec : ∀ (v511 : BitVec 32), Decidable (k0_chk38 v511) := fun v511 => decidable_of_iff' _ (Iff.of_eq (k0_chk38.eq_1 v511))
theorem k0_off111_inb : ∀ (v511 : BitVec 32) (k0_hw38 : k0_chk38 v511), ∀ a, (k0_off111 v511) a + S1x64.size a ≤ S1000000x64.size a := fun v511 k0_hw38 => k0_hw38.1
theorem k0_off114_inb : ∀ (v511 : BitVec 32) (k0_hw38 : k0_chk38 v511), ∀ a, (k0_off114 v511) a + S1x1.size a ≤ S1000000x1.size a := fun v511 k0_hw38 => k0_hw38.2

def k0_off115 (i : grid0.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v535 : BitVec 32 := Scalar.addi v0 c19_i32
  let v536 : Index := Scalar.indexCast v535
  ![v536.toNat]
def k0_off116 (v537 : BitVec 32) : Fin 2 → Nat :=
  let c0_i32_419 : BitVec 32 := 0#32
  ![v537.toNat, 0]

def k0_off117 (v539 : BitVec 32) : Fin 2 → Nat :=
  let c0_i32_420 : BitVec 32 := 0#32
  ![v539.toNat, 0]

def k0_off118 (v537 : BitVec 32) : Fin 2 → Nat :=
  let c0_i32_421 : BitVec 32 := 0#32
  ![v537.toNat, 0]
def k0_off119 (v537 : BitVec 32) : Fin 2 → Nat :=
  let c0_i32_422 : BitVec 32 := 0#32
  ![v537.toNat, 0]

def k0_chk39 (v537 : BitVec 32) : Prop :=
  (∀ a, (k0_off116 v537) a + S1x64.size a ≤ S1000000x64.size a) ∧
  (∀ a, (k0_off118 v537) a + S1x64.size a ≤ S1000000x64.size a) ∧
  (∀ a, (k0_off119 v537) a + S1x1.size a ≤ S1000000x1.size a)
instance k0_chk39.dec : ∀ (v537 : BitVec 32), Decidable (k0_chk39 v537) := fun v537 => decidable_of_iff' _ (Iff.of_eq (k0_chk39.eq_1 v537))
theorem k0_off116_inb : ∀ (v537 : BitVec 32) (k0_hw39 : k0_chk39 v537), ∀ a, (k0_off116 v537) a + S1x64.size a ≤ S1000000x64.size a := fun v537 k0_hw39 => k0_hw39.1
theorem k0_off118_inb : ∀ (v537 : BitVec 32) (k0_hw39 : k0_chk39 v537), ∀ a, (k0_off118 v537) a + S1x64.size a ≤ S1000000x64.size a := fun v537 k0_hw39 => k0_hw39.2.1
theorem k0_off119_inb : ∀ (v537 : BitVec 32) (k0_hw39 : k0_chk39 v537), ∀ a, (k0_off119 v537) a + S1x1.size a ≤ S1000000x1.size a := fun v537 k0_hw39 => k0_hw39.2.2

def k0_off120 (v539 : BitVec 32) : Fin 2 → Nat :=
  let c0_i32_423 : BitVec 32 := 0#32
  ![v539.toNat, 0]

def k0_chk40 (v539 : BitVec 32) : Prop :=
  (∀ a, (k0_off117 v539) a + S1x64.size a ≤ S1000000x64.size a) ∧
  (∀ a, (k0_off120 v539) a + S1x1.size a ≤ S1000000x1.size a)
instance k0_chk40.dec : ∀ (v539 : BitVec 32), Decidable (k0_chk40 v539) := fun v539 => decidable_of_iff' _ (Iff.of_eq (k0_chk40.eq_1 v539))
theorem k0_off117_inb : ∀ (v539 : BitVec 32) (k0_hw40 : k0_chk40 v539), ∀ a, (k0_off117 v539) a + S1x64.size a ≤ S1000000x64.size a := fun v539 k0_hw40 => k0_hw40.1
theorem k0_off120_inb : ∀ (v539 : BitVec 32) (k0_hw40 : k0_chk40 v539), ∀ a, (k0_off120 v539) a + S1x1.size a ≤ S1000000x1.size a := fun v539 k0_hw40 => k0_hw40.2

def k0_off121 (i : grid0.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v563 : BitVec 32 := Scalar.addi v0 c20_i32
  let v564 : Index := Scalar.indexCast v563
  ![v564.toNat]
def k0_off122 (v565 : BitVec 32) : Fin 2 → Nat :=
  let c0_i32_441 : BitVec 32 := 0#32
  ![v565.toNat, 0]

def k0_off123 (v567 : BitVec 32) : Fin 2 → Nat :=
  let c0_i32_442 : BitVec 32 := 0#32
  ![v567.toNat, 0]

def k0_off124 (v565 : BitVec 32) : Fin 2 → Nat :=
  let c0_i32_443 : BitVec 32 := 0#32
  ![v565.toNat, 0]
def k0_off125 (v565 : BitVec 32) : Fin 2 → Nat :=
  let c0_i32_444 : BitVec 32 := 0#32
  ![v565.toNat, 0]

def k0_chk41 (v565 : BitVec 32) : Prop :=
  (∀ a, (k0_off122 v565) a + S1x64.size a ≤ S1000000x64.size a) ∧
  (∀ a, (k0_off124 v565) a + S1x64.size a ≤ S1000000x64.size a) ∧
  (∀ a, (k0_off125 v565) a + S1x1.size a ≤ S1000000x1.size a)
instance k0_chk41.dec : ∀ (v565 : BitVec 32), Decidable (k0_chk41 v565) := fun v565 => decidable_of_iff' _ (Iff.of_eq (k0_chk41.eq_1 v565))
theorem k0_off122_inb : ∀ (v565 : BitVec 32) (k0_hw41 : k0_chk41 v565), ∀ a, (k0_off122 v565) a + S1x64.size a ≤ S1000000x64.size a := fun v565 k0_hw41 => k0_hw41.1
theorem k0_off124_inb : ∀ (v565 : BitVec 32) (k0_hw41 : k0_chk41 v565), ∀ a, (k0_off124 v565) a + S1x64.size a ≤ S1000000x64.size a := fun v565 k0_hw41 => k0_hw41.2.1
theorem k0_off125_inb : ∀ (v565 : BitVec 32) (k0_hw41 : k0_chk41 v565), ∀ a, (k0_off125 v565) a + S1x1.size a ≤ S1000000x1.size a := fun v565 k0_hw41 => k0_hw41.2.2

def k0_off126 (v567 : BitVec 32) : Fin 2 → Nat :=
  let c0_i32_445 : BitVec 32 := 0#32
  ![v567.toNat, 0]

def k0_chk42 (v567 : BitVec 32) : Prop :=
  (∀ a, (k0_off123 v567) a + S1x64.size a ≤ S1000000x64.size a) ∧
  (∀ a, (k0_off126 v567) a + S1x1.size a ≤ S1000000x1.size a)
instance k0_chk42.dec : ∀ (v567 : BitVec 32), Decidable (k0_chk42 v567) := fun v567 => decidable_of_iff' _ (Iff.of_eq (k0_chk42.eq_1 v567))
theorem k0_off123_inb : ∀ (v567 : BitVec 32) (k0_hw42 : k0_chk42 v567), ∀ a, (k0_off123 v567) a + S1x64.size a ≤ S1000000x64.size a := fun v567 k0_hw42 => k0_hw42.1
theorem k0_off126_inb : ∀ (v567 : BitVec 32) (k0_hw42 : k0_chk42 v567), ∀ a, (k0_off126 v567) a + S1x1.size a ≤ S1000000x1.size a := fun v567 k0_hw42 => k0_hw42.2

def k0_off127 (i : grid0.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v591 : BitVec 32 := Scalar.addi v0 c21_i32
  let v592 : Index := Scalar.indexCast v591
  ![v592.toNat]
def k0_off128 (v593 : BitVec 32) : Fin 2 → Nat :=
  let c0_i32_463 : BitVec 32 := 0#32
  ![v593.toNat, 0]

def k0_off129 (v595 : BitVec 32) : Fin 2 → Nat :=
  let c0_i32_464 : BitVec 32 := 0#32
  ![v595.toNat, 0]

def k0_off130 (v593 : BitVec 32) : Fin 2 → Nat :=
  let c0_i32_465 : BitVec 32 := 0#32
  ![v593.toNat, 0]
def k0_off131 (v593 : BitVec 32) : Fin 2 → Nat :=
  let c0_i32_466 : BitVec 32 := 0#32
  ![v593.toNat, 0]

def k0_chk43 (v593 : BitVec 32) : Prop :=
  (∀ a, (k0_off128 v593) a + S1x64.size a ≤ S1000000x64.size a) ∧
  (∀ a, (k0_off130 v593) a + S1x64.size a ≤ S1000000x64.size a) ∧
  (∀ a, (k0_off131 v593) a + S1x1.size a ≤ S1000000x1.size a)
instance k0_chk43.dec : ∀ (v593 : BitVec 32), Decidable (k0_chk43 v593) := fun v593 => decidable_of_iff' _ (Iff.of_eq (k0_chk43.eq_1 v593))
theorem k0_off128_inb : ∀ (v593 : BitVec 32) (k0_hw43 : k0_chk43 v593), ∀ a, (k0_off128 v593) a + S1x64.size a ≤ S1000000x64.size a := fun v593 k0_hw43 => k0_hw43.1
theorem k0_off130_inb : ∀ (v593 : BitVec 32) (k0_hw43 : k0_chk43 v593), ∀ a, (k0_off130 v593) a + S1x64.size a ≤ S1000000x64.size a := fun v593 k0_hw43 => k0_hw43.2.1
theorem k0_off131_inb : ∀ (v593 : BitVec 32) (k0_hw43 : k0_chk43 v593), ∀ a, (k0_off131 v593) a + S1x1.size a ≤ S1000000x1.size a := fun v593 k0_hw43 => k0_hw43.2.2

def k0_off132 (v595 : BitVec 32) : Fin 2 → Nat :=
  let c0_i32_467 : BitVec 32 := 0#32
  ![v595.toNat, 0]

def k0_chk44 (v595 : BitVec 32) : Prop :=
  (∀ a, (k0_off129 v595) a + S1x64.size a ≤ S1000000x64.size a) ∧
  (∀ a, (k0_off132 v595) a + S1x1.size a ≤ S1000000x1.size a)
instance k0_chk44.dec : ∀ (v595 : BitVec 32), Decidable (k0_chk44 v595) := fun v595 => decidable_of_iff' _ (Iff.of_eq (k0_chk44.eq_1 v595))
theorem k0_off129_inb : ∀ (v595 : BitVec 32) (k0_hw44 : k0_chk44 v595), ∀ a, (k0_off129 v595) a + S1x64.size a ≤ S1000000x64.size a := fun v595 k0_hw44 => k0_hw44.1
theorem k0_off132_inb : ∀ (v595 : BitVec 32) (k0_hw44 : k0_chk44 v595), ∀ a, (k0_off132 v595) a + S1x1.size a ≤ S1000000x1.size a := fun v595 k0_hw44 => k0_hw44.2

def k0_off133 (i : grid0.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v619 : BitVec 32 := Scalar.addi v0 c22_i32
  let v620 : Index := Scalar.indexCast v619
  ![v620.toNat]
def k0_off134 (v621 : BitVec 32) : Fin 2 → Nat :=
  let c0_i32_485 : BitVec 32 := 0#32
  ![v621.toNat, 0]

def k0_off135 (v623 : BitVec 32) : Fin 2 → Nat :=
  let c0_i32_486 : BitVec 32 := 0#32
  ![v623.toNat, 0]

def k0_off136 (v621 : BitVec 32) : Fin 2 → Nat :=
  let c0_i32_487 : BitVec 32 := 0#32
  ![v621.toNat, 0]
def k0_off137 (v621 : BitVec 32) : Fin 2 → Nat :=
  let c0_i32_488 : BitVec 32 := 0#32
  ![v621.toNat, 0]

def k0_chk45 (v621 : BitVec 32) : Prop :=
  (∀ a, (k0_off134 v621) a + S1x64.size a ≤ S1000000x64.size a) ∧
  (∀ a, (k0_off136 v621) a + S1x64.size a ≤ S1000000x64.size a) ∧
  (∀ a, (k0_off137 v621) a + S1x1.size a ≤ S1000000x1.size a)
instance k0_chk45.dec : ∀ (v621 : BitVec 32), Decidable (k0_chk45 v621) := fun v621 => decidable_of_iff' _ (Iff.of_eq (k0_chk45.eq_1 v621))
theorem k0_off134_inb : ∀ (v621 : BitVec 32) (k0_hw45 : k0_chk45 v621), ∀ a, (k0_off134 v621) a + S1x64.size a ≤ S1000000x64.size a := fun v621 k0_hw45 => k0_hw45.1
theorem k0_off136_inb : ∀ (v621 : BitVec 32) (k0_hw45 : k0_chk45 v621), ∀ a, (k0_off136 v621) a + S1x64.size a ≤ S1000000x64.size a := fun v621 k0_hw45 => k0_hw45.2.1
theorem k0_off137_inb : ∀ (v621 : BitVec 32) (k0_hw45 : k0_chk45 v621), ∀ a, (k0_off137 v621) a + S1x1.size a ≤ S1000000x1.size a := fun v621 k0_hw45 => k0_hw45.2.2

def k0_off138 (v623 : BitVec 32) : Fin 2 → Nat :=
  let c0_i32_489 : BitVec 32 := 0#32
  ![v623.toNat, 0]

def k0_chk46 (v623 : BitVec 32) : Prop :=
  (∀ a, (k0_off135 v623) a + S1x64.size a ≤ S1000000x64.size a) ∧
  (∀ a, (k0_off138 v623) a + S1x1.size a ≤ S1000000x1.size a)
instance k0_chk46.dec : ∀ (v623 : BitVec 32), Decidable (k0_chk46 v623) := fun v623 => decidable_of_iff' _ (Iff.of_eq (k0_chk46.eq_1 v623))
theorem k0_off135_inb : ∀ (v623 : BitVec 32) (k0_hw46 : k0_chk46 v623), ∀ a, (k0_off135 v623) a + S1x64.size a ≤ S1000000x64.size a := fun v623 k0_hw46 => k0_hw46.1
theorem k0_off138_inb : ∀ (v623 : BitVec 32) (k0_hw46 : k0_chk46 v623), ∀ a, (k0_off138 v623) a + S1x1.size a ≤ S1000000x1.size a := fun v623 k0_hw46 => k0_hw46.2

def k0_off139 (i : grid0.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v647 : BitVec 32 := Scalar.addi v0 c23_i32
  let v648 : Index := Scalar.indexCast v647
  ![v648.toNat]
def k0_off140 (v649 : BitVec 32) : Fin 2 → Nat :=
  let c0_i32_507 : BitVec 32 := 0#32
  ![v649.toNat, 0]

def k0_off141 (v651 : BitVec 32) : Fin 2 → Nat :=
  let c0_i32_508 : BitVec 32 := 0#32
  ![v651.toNat, 0]

def k0_off142 (v649 : BitVec 32) : Fin 2 → Nat :=
  let c0_i32_509 : BitVec 32 := 0#32
  ![v649.toNat, 0]
def k0_off143 (v649 : BitVec 32) : Fin 2 → Nat :=
  let c0_i32_510 : BitVec 32 := 0#32
  ![v649.toNat, 0]

def k0_chk47 (v649 : BitVec 32) : Prop :=
  (∀ a, (k0_off140 v649) a + S1x64.size a ≤ S1000000x64.size a) ∧
  (∀ a, (k0_off142 v649) a + S1x64.size a ≤ S1000000x64.size a) ∧
  (∀ a, (k0_off143 v649) a + S1x1.size a ≤ S1000000x1.size a)
instance k0_chk47.dec : ∀ (v649 : BitVec 32), Decidable (k0_chk47 v649) := fun v649 => decidable_of_iff' _ (Iff.of_eq (k0_chk47.eq_1 v649))
theorem k0_off140_inb : ∀ (v649 : BitVec 32) (k0_hw47 : k0_chk47 v649), ∀ a, (k0_off140 v649) a + S1x64.size a ≤ S1000000x64.size a := fun v649 k0_hw47 => k0_hw47.1
theorem k0_off142_inb : ∀ (v649 : BitVec 32) (k0_hw47 : k0_chk47 v649), ∀ a, (k0_off142 v649) a + S1x64.size a ≤ S1000000x64.size a := fun v649 k0_hw47 => k0_hw47.2.1
theorem k0_off143_inb : ∀ (v649 : BitVec 32) (k0_hw47 : k0_chk47 v649), ∀ a, (k0_off143 v649) a + S1x1.size a ≤ S1000000x1.size a := fun v649 k0_hw47 => k0_hw47.2.2

def k0_off144 (v651 : BitVec 32) : Fin 2 → Nat :=
  let c0_i32_511 : BitVec 32 := 0#32
  ![v651.toNat, 0]

def k0_chk48 (v651 : BitVec 32) : Prop :=
  (∀ a, (k0_off141 v651) a + S1x64.size a ≤ S1000000x64.size a) ∧
  (∀ a, (k0_off144 v651) a + S1x1.size a ≤ S1000000x1.size a)
instance k0_chk48.dec : ∀ (v651 : BitVec 32), Decidable (k0_chk48 v651) := fun v651 => decidable_of_iff' _ (Iff.of_eq (k0_chk48.eq_1 v651))
theorem k0_off141_inb : ∀ (v651 : BitVec 32) (k0_hw48 : k0_chk48 v651), ∀ a, (k0_off141 v651) a + S1x64.size a ≤ S1000000x64.size a := fun v651 k0_hw48 => k0_hw48.1
theorem k0_off144_inb : ∀ (v651 : BitVec 32) (k0_hw48 : k0_chk48 v651), ∀ a, (k0_off144 v651) a + S1x1.size a ≤ S1000000x1.size a := fun v651 k0_hw48 => k0_hw48.2

def k0_off145 (i : grid0.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v675 : BitVec 32 := Scalar.addi v0 c24_i32
  let v676 : Index := Scalar.indexCast v675
  ![v676.toNat]
def k0_off146 (v677 : BitVec 32) : Fin 2 → Nat :=
  let c0_i32_529 : BitVec 32 := 0#32
  ![v677.toNat, 0]

def k0_off147 (v679 : BitVec 32) : Fin 2 → Nat :=
  let c0_i32_530 : BitVec 32 := 0#32
  ![v679.toNat, 0]

def k0_off148 (v677 : BitVec 32) : Fin 2 → Nat :=
  let c0_i32_531 : BitVec 32 := 0#32
  ![v677.toNat, 0]
def k0_off149 (v677 : BitVec 32) : Fin 2 → Nat :=
  let c0_i32_532 : BitVec 32 := 0#32
  ![v677.toNat, 0]

def k0_chk49 (v677 : BitVec 32) : Prop :=
  (∀ a, (k0_off146 v677) a + S1x64.size a ≤ S1000000x64.size a) ∧
  (∀ a, (k0_off148 v677) a + S1x64.size a ≤ S1000000x64.size a) ∧
  (∀ a, (k0_off149 v677) a + S1x1.size a ≤ S1000000x1.size a)
instance k0_chk49.dec : ∀ (v677 : BitVec 32), Decidable (k0_chk49 v677) := fun v677 => decidable_of_iff' _ (Iff.of_eq (k0_chk49.eq_1 v677))
theorem k0_off146_inb : ∀ (v677 : BitVec 32) (k0_hw49 : k0_chk49 v677), ∀ a, (k0_off146 v677) a + S1x64.size a ≤ S1000000x64.size a := fun v677 k0_hw49 => k0_hw49.1
theorem k0_off148_inb : ∀ (v677 : BitVec 32) (k0_hw49 : k0_chk49 v677), ∀ a, (k0_off148 v677) a + S1x64.size a ≤ S1000000x64.size a := fun v677 k0_hw49 => k0_hw49.2.1
theorem k0_off149_inb : ∀ (v677 : BitVec 32) (k0_hw49 : k0_chk49 v677), ∀ a, (k0_off149 v677) a + S1x1.size a ≤ S1000000x1.size a := fun v677 k0_hw49 => k0_hw49.2.2

def k0_off150 (v679 : BitVec 32) : Fin 2 → Nat :=
  let c0_i32_533 : BitVec 32 := 0#32
  ![v679.toNat, 0]

def k0_chk50 (v679 : BitVec 32) : Prop :=
  (∀ a, (k0_off147 v679) a + S1x64.size a ≤ S1000000x64.size a) ∧
  (∀ a, (k0_off150 v679) a + S1x1.size a ≤ S1000000x1.size a)
instance k0_chk50.dec : ∀ (v679 : BitVec 32), Decidable (k0_chk50 v679) := fun v679 => decidable_of_iff' _ (Iff.of_eq (k0_chk50.eq_1 v679))
theorem k0_off147_inb : ∀ (v679 : BitVec 32) (k0_hw50 : k0_chk50 v679), ∀ a, (k0_off147 v679) a + S1x64.size a ≤ S1000000x64.size a := fun v679 k0_hw50 => k0_hw50.1
theorem k0_off150_inb : ∀ (v679 : BitVec 32) (k0_hw50 : k0_chk50 v679), ∀ a, (k0_off150 v679) a + S1x1.size a ≤ S1000000x1.size a := fun v679 k0_hw50 => k0_hw50.2

def k0_off151 (i : grid0.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v703 : BitVec 32 := Scalar.addi v0 c25_i32
  let v704 : Index := Scalar.indexCast v703
  ![v704.toNat]
def k0_off152 (v705 : BitVec 32) : Fin 2 → Nat :=
  let c0_i32_551 : BitVec 32 := 0#32
  ![v705.toNat, 0]

def k0_off153 (v707 : BitVec 32) : Fin 2 → Nat :=
  let c0_i32_552 : BitVec 32 := 0#32
  ![v707.toNat, 0]

def k0_off154 (v705 : BitVec 32) : Fin 2 → Nat :=
  let c0_i32_553 : BitVec 32 := 0#32
  ![v705.toNat, 0]
def k0_off155 (v705 : BitVec 32) : Fin 2 → Nat :=
  let c0_i32_554 : BitVec 32 := 0#32
  ![v705.toNat, 0]

def k0_chk51 (v705 : BitVec 32) : Prop :=
  (∀ a, (k0_off152 v705) a + S1x64.size a ≤ S1000000x64.size a) ∧
  (∀ a, (k0_off154 v705) a + S1x64.size a ≤ S1000000x64.size a) ∧
  (∀ a, (k0_off155 v705) a + S1x1.size a ≤ S1000000x1.size a)
instance k0_chk51.dec : ∀ (v705 : BitVec 32), Decidable (k0_chk51 v705) := fun v705 => decidable_of_iff' _ (Iff.of_eq (k0_chk51.eq_1 v705))
theorem k0_off152_inb : ∀ (v705 : BitVec 32) (k0_hw51 : k0_chk51 v705), ∀ a, (k0_off152 v705) a + S1x64.size a ≤ S1000000x64.size a := fun v705 k0_hw51 => k0_hw51.1
theorem k0_off154_inb : ∀ (v705 : BitVec 32) (k0_hw51 : k0_chk51 v705), ∀ a, (k0_off154 v705) a + S1x64.size a ≤ S1000000x64.size a := fun v705 k0_hw51 => k0_hw51.2.1
theorem k0_off155_inb : ∀ (v705 : BitVec 32) (k0_hw51 : k0_chk51 v705), ∀ a, (k0_off155 v705) a + S1x1.size a ≤ S1000000x1.size a := fun v705 k0_hw51 => k0_hw51.2.2

def k0_off156 (v707 : BitVec 32) : Fin 2 → Nat :=
  let c0_i32_555 : BitVec 32 := 0#32
  ![v707.toNat, 0]

def k0_chk52 (v707 : BitVec 32) : Prop :=
  (∀ a, (k0_off153 v707) a + S1x64.size a ≤ S1000000x64.size a) ∧
  (∀ a, (k0_off156 v707) a + S1x1.size a ≤ S1000000x1.size a)
instance k0_chk52.dec : ∀ (v707 : BitVec 32), Decidable (k0_chk52 v707) := fun v707 => decidable_of_iff' _ (Iff.of_eq (k0_chk52.eq_1 v707))
theorem k0_off153_inb : ∀ (v707 : BitVec 32) (k0_hw52 : k0_chk52 v707), ∀ a, (k0_off153 v707) a + S1x64.size a ≤ S1000000x64.size a := fun v707 k0_hw52 => k0_hw52.1
theorem k0_off156_inb : ∀ (v707 : BitVec 32) (k0_hw52 : k0_chk52 v707), ∀ a, (k0_off156 v707) a + S1x1.size a ≤ S1000000x1.size a := fun v707 k0_hw52 => k0_hw52.2

def k0_off157 (i : grid0.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v731 : BitVec 32 := Scalar.addi v0 c26_i32
  let v732 : Index := Scalar.indexCast v731
  ![v732.toNat]
def k0_off158 (v733 : BitVec 32) : Fin 2 → Nat :=
  let c0_i32_573 : BitVec 32 := 0#32
  ![v733.toNat, 0]

def k0_off159 (v735 : BitVec 32) : Fin 2 → Nat :=
  let c0_i32_574 : BitVec 32 := 0#32
  ![v735.toNat, 0]

def k0_off160 (v733 : BitVec 32) : Fin 2 → Nat :=
  let c0_i32_575 : BitVec 32 := 0#32
  ![v733.toNat, 0]
def k0_off161 (v733 : BitVec 32) : Fin 2 → Nat :=
  let c0_i32_576 : BitVec 32 := 0#32
  ![v733.toNat, 0]

def k0_chk53 (v733 : BitVec 32) : Prop :=
  (∀ a, (k0_off158 v733) a + S1x64.size a ≤ S1000000x64.size a) ∧
  (∀ a, (k0_off160 v733) a + S1x64.size a ≤ S1000000x64.size a) ∧
  (∀ a, (k0_off161 v733) a + S1x1.size a ≤ S1000000x1.size a)
instance k0_chk53.dec : ∀ (v733 : BitVec 32), Decidable (k0_chk53 v733) := fun v733 => decidable_of_iff' _ (Iff.of_eq (k0_chk53.eq_1 v733))
theorem k0_off158_inb : ∀ (v733 : BitVec 32) (k0_hw53 : k0_chk53 v733), ∀ a, (k0_off158 v733) a + S1x64.size a ≤ S1000000x64.size a := fun v733 k0_hw53 => k0_hw53.1
theorem k0_off160_inb : ∀ (v733 : BitVec 32) (k0_hw53 : k0_chk53 v733), ∀ a, (k0_off160 v733) a + S1x64.size a ≤ S1000000x64.size a := fun v733 k0_hw53 => k0_hw53.2.1
theorem k0_off161_inb : ∀ (v733 : BitVec 32) (k0_hw53 : k0_chk53 v733), ∀ a, (k0_off161 v733) a + S1x1.size a ≤ S1000000x1.size a := fun v733 k0_hw53 => k0_hw53.2.2

def k0_off162 (v735 : BitVec 32) : Fin 2 → Nat :=
  let c0_i32_577 : BitVec 32 := 0#32
  ![v735.toNat, 0]

def k0_chk54 (v735 : BitVec 32) : Prop :=
  (∀ a, (k0_off159 v735) a + S1x64.size a ≤ S1000000x64.size a) ∧
  (∀ a, (k0_off162 v735) a + S1x1.size a ≤ S1000000x1.size a)
instance k0_chk54.dec : ∀ (v735 : BitVec 32), Decidable (k0_chk54 v735) := fun v735 => decidable_of_iff' _ (Iff.of_eq (k0_chk54.eq_1 v735))
theorem k0_off159_inb : ∀ (v735 : BitVec 32) (k0_hw54 : k0_chk54 v735), ∀ a, (k0_off159 v735) a + S1x64.size a ≤ S1000000x64.size a := fun v735 k0_hw54 => k0_hw54.1
theorem k0_off162_inb : ∀ (v735 : BitVec 32) (k0_hw54 : k0_chk54 v735), ∀ a, (k0_off162 v735) a + S1x1.size a ≤ S1000000x1.size a := fun v735 k0_hw54 => k0_hw54.2

def k0_off163 (i : grid0.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v759 : BitVec 32 := Scalar.addi v0 c27_i32
  let v760 : Index := Scalar.indexCast v759
  ![v760.toNat]
def k0_off164 (v761 : BitVec 32) : Fin 2 → Nat :=
  let c0_i32_595 : BitVec 32 := 0#32
  ![v761.toNat, 0]

def k0_off165 (v763 : BitVec 32) : Fin 2 → Nat :=
  let c0_i32_596 : BitVec 32 := 0#32
  ![v763.toNat, 0]

def k0_off166 (v761 : BitVec 32) : Fin 2 → Nat :=
  let c0_i32_597 : BitVec 32 := 0#32
  ![v761.toNat, 0]
def k0_off167 (v761 : BitVec 32) : Fin 2 → Nat :=
  let c0_i32_598 : BitVec 32 := 0#32
  ![v761.toNat, 0]

def k0_chk55 (v761 : BitVec 32) : Prop :=
  (∀ a, (k0_off164 v761) a + S1x64.size a ≤ S1000000x64.size a) ∧
  (∀ a, (k0_off166 v761) a + S1x64.size a ≤ S1000000x64.size a) ∧
  (∀ a, (k0_off167 v761) a + S1x1.size a ≤ S1000000x1.size a)
instance k0_chk55.dec : ∀ (v761 : BitVec 32), Decidable (k0_chk55 v761) := fun v761 => decidable_of_iff' _ (Iff.of_eq (k0_chk55.eq_1 v761))
theorem k0_off164_inb : ∀ (v761 : BitVec 32) (k0_hw55 : k0_chk55 v761), ∀ a, (k0_off164 v761) a + S1x64.size a ≤ S1000000x64.size a := fun v761 k0_hw55 => k0_hw55.1
theorem k0_off166_inb : ∀ (v761 : BitVec 32) (k0_hw55 : k0_chk55 v761), ∀ a, (k0_off166 v761) a + S1x64.size a ≤ S1000000x64.size a := fun v761 k0_hw55 => k0_hw55.2.1
theorem k0_off167_inb : ∀ (v761 : BitVec 32) (k0_hw55 : k0_chk55 v761), ∀ a, (k0_off167 v761) a + S1x1.size a ≤ S1000000x1.size a := fun v761 k0_hw55 => k0_hw55.2.2

def k0_off168 (v763 : BitVec 32) : Fin 2 → Nat :=
  let c0_i32_599 : BitVec 32 := 0#32
  ![v763.toNat, 0]

def k0_chk56 (v763 : BitVec 32) : Prop :=
  (∀ a, (k0_off165 v763) a + S1x64.size a ≤ S1000000x64.size a) ∧
  (∀ a, (k0_off168 v763) a + S1x1.size a ≤ S1000000x1.size a)
instance k0_chk56.dec : ∀ (v763 : BitVec 32), Decidable (k0_chk56 v763) := fun v763 => decidable_of_iff' _ (Iff.of_eq (k0_chk56.eq_1 v763))
theorem k0_off165_inb : ∀ (v763 : BitVec 32) (k0_hw56 : k0_chk56 v763), ∀ a, (k0_off165 v763) a + S1x64.size a ≤ S1000000x64.size a := fun v763 k0_hw56 => k0_hw56.1
theorem k0_off168_inb : ∀ (v763 : BitVec 32) (k0_hw56 : k0_chk56 v763), ∀ a, (k0_off168 v763) a + S1x1.size a ≤ S1000000x1.size a := fun v763 k0_hw56 => k0_hw56.2

def k0_off169 (i : grid0.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v787 : BitVec 32 := Scalar.addi v0 c28_i32
  let v788 : Index := Scalar.indexCast v787
  ![v788.toNat]
def k0_off170 (v789 : BitVec 32) : Fin 2 → Nat :=
  let c0_i32_617 : BitVec 32 := 0#32
  ![v789.toNat, 0]

def k0_off171 (v791 : BitVec 32) : Fin 2 → Nat :=
  let c0_i32_618 : BitVec 32 := 0#32
  ![v791.toNat, 0]

def k0_off172 (v789 : BitVec 32) : Fin 2 → Nat :=
  let c0_i32_619 : BitVec 32 := 0#32
  ![v789.toNat, 0]
def k0_off173 (v789 : BitVec 32) : Fin 2 → Nat :=
  let c0_i32_620 : BitVec 32 := 0#32
  ![v789.toNat, 0]

def k0_chk57 (v789 : BitVec 32) : Prop :=
  (∀ a, (k0_off170 v789) a + S1x64.size a ≤ S1000000x64.size a) ∧
  (∀ a, (k0_off172 v789) a + S1x64.size a ≤ S1000000x64.size a) ∧
  (∀ a, (k0_off173 v789) a + S1x1.size a ≤ S1000000x1.size a)
instance k0_chk57.dec : ∀ (v789 : BitVec 32), Decidable (k0_chk57 v789) := fun v789 => decidable_of_iff' _ (Iff.of_eq (k0_chk57.eq_1 v789))
theorem k0_off170_inb : ∀ (v789 : BitVec 32) (k0_hw57 : k0_chk57 v789), ∀ a, (k0_off170 v789) a + S1x64.size a ≤ S1000000x64.size a := fun v789 k0_hw57 => k0_hw57.1
theorem k0_off172_inb : ∀ (v789 : BitVec 32) (k0_hw57 : k0_chk57 v789), ∀ a, (k0_off172 v789) a + S1x64.size a ≤ S1000000x64.size a := fun v789 k0_hw57 => k0_hw57.2.1
theorem k0_off173_inb : ∀ (v789 : BitVec 32) (k0_hw57 : k0_chk57 v789), ∀ a, (k0_off173 v789) a + S1x1.size a ≤ S1000000x1.size a := fun v789 k0_hw57 => k0_hw57.2.2

def k0_off174 (v791 : BitVec 32) : Fin 2 → Nat :=
  let c0_i32_621 : BitVec 32 := 0#32
  ![v791.toNat, 0]

def k0_chk58 (v791 : BitVec 32) : Prop :=
  (∀ a, (k0_off171 v791) a + S1x64.size a ≤ S1000000x64.size a) ∧
  (∀ a, (k0_off174 v791) a + S1x1.size a ≤ S1000000x1.size a)
instance k0_chk58.dec : ∀ (v791 : BitVec 32), Decidable (k0_chk58 v791) := fun v791 => decidable_of_iff' _ (Iff.of_eq (k0_chk58.eq_1 v791))
theorem k0_off171_inb : ∀ (v791 : BitVec 32) (k0_hw58 : k0_chk58 v791), ∀ a, (k0_off171 v791) a + S1x64.size a ≤ S1000000x64.size a := fun v791 k0_hw58 => k0_hw58.1
theorem k0_off174_inb : ∀ (v791 : BitVec 32) (k0_hw58 : k0_chk58 v791), ∀ a, (k0_off174 v791) a + S1x1.size a ≤ S1000000x1.size a := fun v791 k0_hw58 => k0_hw58.2

def k0_off175 (i : grid0.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v815 : BitVec 32 := Scalar.addi v0 c29_i32
  let v816 : Index := Scalar.indexCast v815
  ![v816.toNat]
def k0_off176 (v817 : BitVec 32) : Fin 2 → Nat :=
  let c0_i32_639 : BitVec 32 := 0#32
  ![v817.toNat, 0]

def k0_off177 (v819 : BitVec 32) : Fin 2 → Nat :=
  let c0_i32_640 : BitVec 32 := 0#32
  ![v819.toNat, 0]

def k0_off178 (v817 : BitVec 32) : Fin 2 → Nat :=
  let c0_i32_641 : BitVec 32 := 0#32
  ![v817.toNat, 0]
def k0_off179 (v817 : BitVec 32) : Fin 2 → Nat :=
  let c0_i32_642 : BitVec 32 := 0#32
  ![v817.toNat, 0]

def k0_chk59 (v817 : BitVec 32) : Prop :=
  (∀ a, (k0_off176 v817) a + S1x64.size a ≤ S1000000x64.size a) ∧
  (∀ a, (k0_off178 v817) a + S1x64.size a ≤ S1000000x64.size a) ∧
  (∀ a, (k0_off179 v817) a + S1x1.size a ≤ S1000000x1.size a)
instance k0_chk59.dec : ∀ (v817 : BitVec 32), Decidable (k0_chk59 v817) := fun v817 => decidable_of_iff' _ (Iff.of_eq (k0_chk59.eq_1 v817))
theorem k0_off176_inb : ∀ (v817 : BitVec 32) (k0_hw59 : k0_chk59 v817), ∀ a, (k0_off176 v817) a + S1x64.size a ≤ S1000000x64.size a := fun v817 k0_hw59 => k0_hw59.1
theorem k0_off178_inb : ∀ (v817 : BitVec 32) (k0_hw59 : k0_chk59 v817), ∀ a, (k0_off178 v817) a + S1x64.size a ≤ S1000000x64.size a := fun v817 k0_hw59 => k0_hw59.2.1
theorem k0_off179_inb : ∀ (v817 : BitVec 32) (k0_hw59 : k0_chk59 v817), ∀ a, (k0_off179 v817) a + S1x1.size a ≤ S1000000x1.size a := fun v817 k0_hw59 => k0_hw59.2.2

def k0_off180 (v819 : BitVec 32) : Fin 2 → Nat :=
  let c0_i32_643 : BitVec 32 := 0#32
  ![v819.toNat, 0]

def k0_chk60 (v819 : BitVec 32) : Prop :=
  (∀ a, (k0_off177 v819) a + S1x64.size a ≤ S1000000x64.size a) ∧
  (∀ a, (k0_off180 v819) a + S1x1.size a ≤ S1000000x1.size a)
instance k0_chk60.dec : ∀ (v819 : BitVec 32), Decidable (k0_chk60 v819) := fun v819 => decidable_of_iff' _ (Iff.of_eq (k0_chk60.eq_1 v819))
theorem k0_off177_inb : ∀ (v819 : BitVec 32) (k0_hw60 : k0_chk60 v819), ∀ a, (k0_off177 v819) a + S1x64.size a ≤ S1000000x64.size a := fun v819 k0_hw60 => k0_hw60.1
theorem k0_off180_inb : ∀ (v819 : BitVec 32) (k0_hw60 : k0_chk60 v819), ∀ a, (k0_off180 v819) a + S1x1.size a ≤ S1000000x1.size a := fun v819 k0_hw60 => k0_hw60.2

def k0_off181 (i : grid0.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v843 : BitVec 32 := Scalar.addi v0 c30_i32
  let v844 : Index := Scalar.indexCast v843
  ![v844.toNat]
def k0_off182 (v845 : BitVec 32) : Fin 2 → Nat :=
  let c0_i32_661 : BitVec 32 := 0#32
  ![v845.toNat, 0]

def k0_off183 (v847 : BitVec 32) : Fin 2 → Nat :=
  let c0_i32_662 : BitVec 32 := 0#32
  ![v847.toNat, 0]

def k0_off184 (v845 : BitVec 32) : Fin 2 → Nat :=
  let c0_i32_663 : BitVec 32 := 0#32
  ![v845.toNat, 0]
def k0_off185 (v845 : BitVec 32) : Fin 2 → Nat :=
  let c0_i32_664 : BitVec 32 := 0#32
  ![v845.toNat, 0]

def k0_chk61 (v845 : BitVec 32) : Prop :=
  (∀ a, (k0_off182 v845) a + S1x64.size a ≤ S1000000x64.size a) ∧
  (∀ a, (k0_off184 v845) a + S1x64.size a ≤ S1000000x64.size a) ∧
  (∀ a, (k0_off185 v845) a + S1x1.size a ≤ S1000000x1.size a)
instance k0_chk61.dec : ∀ (v845 : BitVec 32), Decidable (k0_chk61 v845) := fun v845 => decidable_of_iff' _ (Iff.of_eq (k0_chk61.eq_1 v845))
theorem k0_off182_inb : ∀ (v845 : BitVec 32) (k0_hw61 : k0_chk61 v845), ∀ a, (k0_off182 v845) a + S1x64.size a ≤ S1000000x64.size a := fun v845 k0_hw61 => k0_hw61.1
theorem k0_off184_inb : ∀ (v845 : BitVec 32) (k0_hw61 : k0_chk61 v845), ∀ a, (k0_off184 v845) a + S1x64.size a ≤ S1000000x64.size a := fun v845 k0_hw61 => k0_hw61.2.1
theorem k0_off185_inb : ∀ (v845 : BitVec 32) (k0_hw61 : k0_chk61 v845), ∀ a, (k0_off185 v845) a + S1x1.size a ≤ S1000000x1.size a := fun v845 k0_hw61 => k0_hw61.2.2

def k0_off186 (v847 : BitVec 32) : Fin 2 → Nat :=
  let c0_i32_665 : BitVec 32 := 0#32
  ![v847.toNat, 0]

def k0_chk62 (v847 : BitVec 32) : Prop :=
  (∀ a, (k0_off183 v847) a + S1x64.size a ≤ S1000000x64.size a) ∧
  (∀ a, (k0_off186 v847) a + S1x1.size a ≤ S1000000x1.size a)
instance k0_chk62.dec : ∀ (v847 : BitVec 32), Decidable (k0_chk62 v847) := fun v847 => decidable_of_iff' _ (Iff.of_eq (k0_chk62.eq_1 v847))
theorem k0_off183_inb : ∀ (v847 : BitVec 32) (k0_hw62 : k0_chk62 v847), ∀ a, (k0_off183 v847) a + S1x64.size a ≤ S1000000x64.size a := fun v847 k0_hw62 => k0_hw62.1
theorem k0_off186_inb : ∀ (v847 : BitVec 32) (k0_hw62 : k0_chk62 v847), ∀ a, (k0_off186 v847) a + S1x1.size a ≤ S1000000x1.size a := fun v847 k0_hw62 => k0_hw62.2

def k0_off187 (i : grid0.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v871 : BitVec 32 := Scalar.addi v0 c31_i32
  let v872 : Index := Scalar.indexCast v871
  ![v872.toNat]
def k0_off188 (v873 : BitVec 32) : Fin 2 → Nat :=
  let c0_i32_683 : BitVec 32 := 0#32
  ![v873.toNat, 0]

def k0_off189 (v875 : BitVec 32) : Fin 2 → Nat :=
  let c0_i32_684 : BitVec 32 := 0#32
  ![v875.toNat, 0]

def k0_off190 (v873 : BitVec 32) : Fin 2 → Nat :=
  let c0_i32_685 : BitVec 32 := 0#32
  ![v873.toNat, 0]
def k0_off191 (v873 : BitVec 32) : Fin 2 → Nat :=
  let c0_i32_686 : BitVec 32 := 0#32
  ![v873.toNat, 0]

def k0_chk63 (v873 : BitVec 32) : Prop :=
  (∀ a, (k0_off188 v873) a + S1x64.size a ≤ S1000000x64.size a) ∧
  (∀ a, (k0_off190 v873) a + S1x64.size a ≤ S1000000x64.size a) ∧
  (∀ a, (k0_off191 v873) a + S1x1.size a ≤ S1000000x1.size a)
instance k0_chk63.dec : ∀ (v873 : BitVec 32), Decidable (k0_chk63 v873) := fun v873 => decidable_of_iff' _ (Iff.of_eq (k0_chk63.eq_1 v873))
theorem k0_off188_inb : ∀ (v873 : BitVec 32) (k0_hw63 : k0_chk63 v873), ∀ a, (k0_off188 v873) a + S1x64.size a ≤ S1000000x64.size a := fun v873 k0_hw63 => k0_hw63.1
theorem k0_off190_inb : ∀ (v873 : BitVec 32) (k0_hw63 : k0_chk63 v873), ∀ a, (k0_off190 v873) a + S1x64.size a ≤ S1000000x64.size a := fun v873 k0_hw63 => k0_hw63.2.1
theorem k0_off191_inb : ∀ (v873 : BitVec 32) (k0_hw63 : k0_chk63 v873), ∀ a, (k0_off191 v873) a + S1x1.size a ≤ S1000000x1.size a := fun v873 k0_hw63 => k0_hw63.2.2

def k0_off192 (v875 : BitVec 32) : Fin 2 → Nat :=
  let c0_i32_687 : BitVec 32 := 0#32
  ![v875.toNat, 0]

def k0_chk64 (v875 : BitVec 32) : Prop :=
  (∀ a, (k0_off189 v875) a + S1x64.size a ≤ S1000000x64.size a) ∧
  (∀ a, (k0_off192 v875) a + S1x1.size a ≤ S1000000x1.size a)
instance k0_chk64.dec : ∀ (v875 : BitVec 32), Decidable (k0_chk64 v875) := fun v875 => decidable_of_iff' _ (Iff.of_eq (k0_chk64.eq_1 v875))
theorem k0_off189_inb : ∀ (v875 : BitVec 32) (k0_hw64 : k0_chk64 v875), ∀ a, (k0_off189 v875) a + S1x64.size a ≤ S1000000x64.size a := fun v875 k0_hw64 => k0_hw64.1
theorem k0_off192_inb : ∀ (v875 : BitVec 32) (k0_hw64 : k0_chk64 v875), ∀ a, (k0_off192 v875) a + S1x1.size a ≤ S1000000x1.size a := fun v875 k0_hw64 => k0_hw64.2

def k0_off193 (i : grid0.Coords) : Fin 1 → Nat :=
  let arg0 : BitVec 32 := BitVec.ofNat 32 (i 0).val
  let c64_i32 : BitVec 32 := 64#32
  let v0 : BitVec 32 := Scalar.muli arg0 c64_i32
  let c32_i32 : BitVec 32 := 32#32
  let v899 : BitVec 32 := Scalar.addi v0 c32_i32
  let v900 : Index := Scalar.indexCast v899
  ![v900.toNat]
def k0_off194 (v901 : BitVec 32) : Fin 2 → Nat :=
  let c0_i32_705 : BitVec 32 := 0#32
  ![v901.toNat, 0]

def k0_off195 (v903 : BitVec 32) : Fin 2 → Nat :=
  let c0_i32_706 : BitVec 32 := 0#32
  ![v903.toNat, 0]

def k0_off196 (v901 : BitVec 32) : Fin 2 → Nat :=
  let c0_i32_707 : BitVec 32 := 0#32
  ![v901.toNat, 0]
def k0_off197 (v901 : BitVec 32) : Fin 2 → Nat :=
  let c0_i32_708 : BitVec 32 := 0#32
  ![v901.toNat, 0]

def k0_chk65 (v901 : BitVec 32) : Prop :=
  (∀ a, (k0_off194 v901) a + S1x64.size a ≤ S1000000x64.size a) ∧
  (∀ a, (k0_off196 v901) a + S1x64.size a ≤ S1000000x64.size a) ∧
  (∀ a, (k0_off197 v901) a + S1x1.size a ≤ S1000000x1.size a)
instance k0_chk65.dec : ∀ (v901 : BitVec 32), Decidable (k0_chk65 v901) := fun v901 => decidable_of_iff' _ (Iff.of_eq (k0_chk65.eq_1 v901))
theorem k0_off194_inb : ∀ (v901 : BitVec 32) (k0_hw65 : k0_chk65 v901), ∀ a, (k0_off194 v901) a + S1x64.size a ≤ S1000000x64.size a := fun v901 k0_hw65 => k0_hw65.1
theorem k0_off196_inb : ∀ (v901 : BitVec 32) (k0_hw65 : k0_chk65 v901), ∀ a, (k0_off196 v901) a + S1x64.size a ≤ S1000000x64.size a := fun v901 k0_hw65 => k0_hw65.2.1
theorem k0_off197_inb : ∀ (v901 : BitVec 32) (k0_hw65 : k0_chk65 v901), ∀ a, (k0_off197 v901) a + S1x1.size a ≤ S1000000x1.size a := fun v901 k0_hw65 => k0_hw65.2.2

def k0_off198 (v903 : BitVec 32) : Fin 2 → Nat :=
  let c0_i32_709 : BitVec 32 := 0#32
  ![v903.toNat, 0]

def k0_chk66 (v903 : BitVec 32) : Prop :=
  (∀ a, (k0_off195 v903) a + S1x64.size a ≤ S1000000x64.size a) ∧
  (∀ a, (k0_off198 v903) a + S1x1.size a ≤ S1000000x1.size a)
instance k0_chk66.dec : ∀ (v903 : BitVec 32), Decidable (k0_chk66 v903) := fun v903 => decidable_of_iff' _ (Iff.of_eq (k0_chk66.eq_1 v903))
theorem k0_off195_inb : ∀ (v903 : BitVec 32) (k0_hw66 : k0_chk66 v903), ∀ a, (k0_off195 v903) a + S1x64.size a ≤ S1000000x64.size a := fun v903 k0_hw66 => k0_hw66.1
theorem k0_off198_inb : ∀ (v903 : BitVec 32) (k0_hw66 : k0_chk66 v903), ∀ a, (k0_off198 v903) a + S1x1.size a ≤ S1000000x1.size a := fun v903 k0_hw66 => k0_hw66.2

def k0_off199 (i : grid0.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v927 : BitVec 32 := Scalar.addi v0 c33_i32
  let v928 : Index := Scalar.indexCast v927
  ![v928.toNat]
def k0_off200 (v929 : BitVec 32) : Fin 2 → Nat :=
  let c0_i32_727 : BitVec 32 := 0#32
  ![v929.toNat, 0]

def k0_off201 (v931 : BitVec 32) : Fin 2 → Nat :=
  let c0_i32_728 : BitVec 32 := 0#32
  ![v931.toNat, 0]

def k0_off202 (v929 : BitVec 32) : Fin 2 → Nat :=
  let c0_i32_729 : BitVec 32 := 0#32
  ![v929.toNat, 0]
def k0_off203 (v929 : BitVec 32) : Fin 2 → Nat :=
  let c0_i32_730 : BitVec 32 := 0#32
  ![v929.toNat, 0]

def k0_chk67 (v929 : BitVec 32) : Prop :=
  (∀ a, (k0_off200 v929) a + S1x64.size a ≤ S1000000x64.size a) ∧
  (∀ a, (k0_off202 v929) a + S1x64.size a ≤ S1000000x64.size a) ∧
  (∀ a, (k0_off203 v929) a + S1x1.size a ≤ S1000000x1.size a)
instance k0_chk67.dec : ∀ (v929 : BitVec 32), Decidable (k0_chk67 v929) := fun v929 => decidable_of_iff' _ (Iff.of_eq (k0_chk67.eq_1 v929))
theorem k0_off200_inb : ∀ (v929 : BitVec 32) (k0_hw67 : k0_chk67 v929), ∀ a, (k0_off200 v929) a + S1x64.size a ≤ S1000000x64.size a := fun v929 k0_hw67 => k0_hw67.1
theorem k0_off202_inb : ∀ (v929 : BitVec 32) (k0_hw67 : k0_chk67 v929), ∀ a, (k0_off202 v929) a + S1x64.size a ≤ S1000000x64.size a := fun v929 k0_hw67 => k0_hw67.2.1
theorem k0_off203_inb : ∀ (v929 : BitVec 32) (k0_hw67 : k0_chk67 v929), ∀ a, (k0_off203 v929) a + S1x1.size a ≤ S1000000x1.size a := fun v929 k0_hw67 => k0_hw67.2.2

def k0_off204 (v931 : BitVec 32) : Fin 2 → Nat :=
  let c0_i32_731 : BitVec 32 := 0#32
  ![v931.toNat, 0]

def k0_chk68 (v931 : BitVec 32) : Prop :=
  (∀ a, (k0_off201 v931) a + S1x64.size a ≤ S1000000x64.size a) ∧
  (∀ a, (k0_off204 v931) a + S1x1.size a ≤ S1000000x1.size a)
instance k0_chk68.dec : ∀ (v931 : BitVec 32), Decidable (k0_chk68 v931) := fun v931 => decidable_of_iff' _ (Iff.of_eq (k0_chk68.eq_1 v931))
theorem k0_off201_inb : ∀ (v931 : BitVec 32) (k0_hw68 : k0_chk68 v931), ∀ a, (k0_off201 v931) a + S1x64.size a ≤ S1000000x64.size a := fun v931 k0_hw68 => k0_hw68.1
theorem k0_off204_inb : ∀ (v931 : BitVec 32) (k0_hw68 : k0_chk68 v931), ∀ a, (k0_off204 v931) a + S1x1.size a ≤ S1000000x1.size a := fun v931 k0_hw68 => k0_hw68.2

def k0_off205 (i : grid0.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v955 : BitVec 32 := Scalar.addi v0 c34_i32
  let v956 : Index := Scalar.indexCast v955
  ![v956.toNat]
def k0_off206 (v957 : BitVec 32) : Fin 2 → Nat :=
  let c0_i32_749 : BitVec 32 := 0#32
  ![v957.toNat, 0]

def k0_off207 (v959 : BitVec 32) : Fin 2 → Nat :=
  let c0_i32_750 : BitVec 32 := 0#32
  ![v959.toNat, 0]

def k0_off208 (v957 : BitVec 32) : Fin 2 → Nat :=
  let c0_i32_751 : BitVec 32 := 0#32
  ![v957.toNat, 0]
def k0_off209 (v957 : BitVec 32) : Fin 2 → Nat :=
  let c0_i32_752 : BitVec 32 := 0#32
  ![v957.toNat, 0]

def k0_chk69 (v957 : BitVec 32) : Prop :=
  (∀ a, (k0_off206 v957) a + S1x64.size a ≤ S1000000x64.size a) ∧
  (∀ a, (k0_off208 v957) a + S1x64.size a ≤ S1000000x64.size a) ∧
  (∀ a, (k0_off209 v957) a + S1x1.size a ≤ S1000000x1.size a)
instance k0_chk69.dec : ∀ (v957 : BitVec 32), Decidable (k0_chk69 v957) := fun v957 => decidable_of_iff' _ (Iff.of_eq (k0_chk69.eq_1 v957))
theorem k0_off206_inb : ∀ (v957 : BitVec 32) (k0_hw69 : k0_chk69 v957), ∀ a, (k0_off206 v957) a + S1x64.size a ≤ S1000000x64.size a := fun v957 k0_hw69 => k0_hw69.1
theorem k0_off208_inb : ∀ (v957 : BitVec 32) (k0_hw69 : k0_chk69 v957), ∀ a, (k0_off208 v957) a + S1x64.size a ≤ S1000000x64.size a := fun v957 k0_hw69 => k0_hw69.2.1
theorem k0_off209_inb : ∀ (v957 : BitVec 32) (k0_hw69 : k0_chk69 v957), ∀ a, (k0_off209 v957) a + S1x1.size a ≤ S1000000x1.size a := fun v957 k0_hw69 => k0_hw69.2.2

def k0_off210 (v959 : BitVec 32) : Fin 2 → Nat :=
  let c0_i32_753 : BitVec 32 := 0#32
  ![v959.toNat, 0]

def k0_chk70 (v959 : BitVec 32) : Prop :=
  (∀ a, (k0_off207 v959) a + S1x64.size a ≤ S1000000x64.size a) ∧
  (∀ a, (k0_off210 v959) a + S1x1.size a ≤ S1000000x1.size a)
instance k0_chk70.dec : ∀ (v959 : BitVec 32), Decidable (k0_chk70 v959) := fun v959 => decidable_of_iff' _ (Iff.of_eq (k0_chk70.eq_1 v959))
theorem k0_off207_inb : ∀ (v959 : BitVec 32) (k0_hw70 : k0_chk70 v959), ∀ a, (k0_off207 v959) a + S1x64.size a ≤ S1000000x64.size a := fun v959 k0_hw70 => k0_hw70.1
theorem k0_off210_inb : ∀ (v959 : BitVec 32) (k0_hw70 : k0_chk70 v959), ∀ a, (k0_off210 v959) a + S1x1.size a ≤ S1000000x1.size a := fun v959 k0_hw70 => k0_hw70.2

def k0_off211 (i : grid0.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v983 : BitVec 32 := Scalar.addi v0 c35_i32
  let v984 : Index := Scalar.indexCast v983
  ![v984.toNat]
def k0_off212 (v985 : BitVec 32) : Fin 2 → Nat :=
  let c0_i32_771 : BitVec 32 := 0#32
  ![v985.toNat, 0]

def k0_off213 (v987 : BitVec 32) : Fin 2 → Nat :=
  let c0_i32_772 : BitVec 32 := 0#32
  ![v987.toNat, 0]

def k0_off214 (v985 : BitVec 32) : Fin 2 → Nat :=
  let c0_i32_773 : BitVec 32 := 0#32
  ![v985.toNat, 0]
def k0_off215 (v985 : BitVec 32) : Fin 2 → Nat :=
  let c0_i32_774 : BitVec 32 := 0#32
  ![v985.toNat, 0]

def k0_chk71 (v985 : BitVec 32) : Prop :=
  (∀ a, (k0_off212 v985) a + S1x64.size a ≤ S1000000x64.size a) ∧
  (∀ a, (k0_off214 v985) a + S1x64.size a ≤ S1000000x64.size a) ∧
  (∀ a, (k0_off215 v985) a + S1x1.size a ≤ S1000000x1.size a)
instance k0_chk71.dec : ∀ (v985 : BitVec 32), Decidable (k0_chk71 v985) := fun v985 => decidable_of_iff' _ (Iff.of_eq (k0_chk71.eq_1 v985))
theorem k0_off212_inb : ∀ (v985 : BitVec 32) (k0_hw71 : k0_chk71 v985), ∀ a, (k0_off212 v985) a + S1x64.size a ≤ S1000000x64.size a := fun v985 k0_hw71 => k0_hw71.1
theorem k0_off214_inb : ∀ (v985 : BitVec 32) (k0_hw71 : k0_chk71 v985), ∀ a, (k0_off214 v985) a + S1x64.size a ≤ S1000000x64.size a := fun v985 k0_hw71 => k0_hw71.2.1
theorem k0_off215_inb : ∀ (v985 : BitVec 32) (k0_hw71 : k0_chk71 v985), ∀ a, (k0_off215 v985) a + S1x1.size a ≤ S1000000x1.size a := fun v985 k0_hw71 => k0_hw71.2.2

def k0_off216 (v987 : BitVec 32) : Fin 2 → Nat :=
  let c0_i32_775 : BitVec 32 := 0#32
  ![v987.toNat, 0]

def k0_chk72 (v987 : BitVec 32) : Prop :=
  (∀ a, (k0_off213 v987) a + S1x64.size a ≤ S1000000x64.size a) ∧
  (∀ a, (k0_off216 v987) a + S1x1.size a ≤ S1000000x1.size a)
instance k0_chk72.dec : ∀ (v987 : BitVec 32), Decidable (k0_chk72 v987) := fun v987 => decidable_of_iff' _ (Iff.of_eq (k0_chk72.eq_1 v987))
theorem k0_off213_inb : ∀ (v987 : BitVec 32) (k0_hw72 : k0_chk72 v987), ∀ a, (k0_off213 v987) a + S1x64.size a ≤ S1000000x64.size a := fun v987 k0_hw72 => k0_hw72.1
theorem k0_off216_inb : ∀ (v987 : BitVec 32) (k0_hw72 : k0_chk72 v987), ∀ a, (k0_off216 v987) a + S1x1.size a ≤ S1000000x1.size a := fun v987 k0_hw72 => k0_hw72.2

def k0_off217 (i : grid0.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v1011 : BitVec 32 := Scalar.addi v0 c36_i32
  let v1012 : Index := Scalar.indexCast v1011
  ![v1012.toNat]
def k0_off218 (v1013 : BitVec 32) : Fin 2 → Nat :=
  let c0_i32_793 : BitVec 32 := 0#32
  ![v1013.toNat, 0]

def k0_off219 (v1015 : BitVec 32) : Fin 2 → Nat :=
  let c0_i32_794 : BitVec 32 := 0#32
  ![v1015.toNat, 0]

def k0_off220 (v1013 : BitVec 32) : Fin 2 → Nat :=
  let c0_i32_795 : BitVec 32 := 0#32
  ![v1013.toNat, 0]
def k0_off221 (v1013 : BitVec 32) : Fin 2 → Nat :=
  let c0_i32_796 : BitVec 32 := 0#32
  ![v1013.toNat, 0]

def k0_chk73 (v1013 : BitVec 32) : Prop :=
  (∀ a, (k0_off218 v1013) a + S1x64.size a ≤ S1000000x64.size a) ∧
  (∀ a, (k0_off220 v1013) a + S1x64.size a ≤ S1000000x64.size a) ∧
  (∀ a, (k0_off221 v1013) a + S1x1.size a ≤ S1000000x1.size a)
instance k0_chk73.dec : ∀ (v1013 : BitVec 32), Decidable (k0_chk73 v1013) := fun v1013 => decidable_of_iff' _ (Iff.of_eq (k0_chk73.eq_1 v1013))
theorem k0_off218_inb : ∀ (v1013 : BitVec 32) (k0_hw73 : k0_chk73 v1013), ∀ a, (k0_off218 v1013) a + S1x64.size a ≤ S1000000x64.size a := fun v1013 k0_hw73 => k0_hw73.1
theorem k0_off220_inb : ∀ (v1013 : BitVec 32) (k0_hw73 : k0_chk73 v1013), ∀ a, (k0_off220 v1013) a + S1x64.size a ≤ S1000000x64.size a := fun v1013 k0_hw73 => k0_hw73.2.1
theorem k0_off221_inb : ∀ (v1013 : BitVec 32) (k0_hw73 : k0_chk73 v1013), ∀ a, (k0_off221 v1013) a + S1x1.size a ≤ S1000000x1.size a := fun v1013 k0_hw73 => k0_hw73.2.2

def k0_off222 (v1015 : BitVec 32) : Fin 2 → Nat :=
  let c0_i32_797 : BitVec 32 := 0#32
  ![v1015.toNat, 0]

def k0_chk74 (v1015 : BitVec 32) : Prop :=
  (∀ a, (k0_off219 v1015) a + S1x64.size a ≤ S1000000x64.size a) ∧
  (∀ a, (k0_off222 v1015) a + S1x1.size a ≤ S1000000x1.size a)
instance k0_chk74.dec : ∀ (v1015 : BitVec 32), Decidable (k0_chk74 v1015) := fun v1015 => decidable_of_iff' _ (Iff.of_eq (k0_chk74.eq_1 v1015))
theorem k0_off219_inb : ∀ (v1015 : BitVec 32) (k0_hw74 : k0_chk74 v1015), ∀ a, (k0_off219 v1015) a + S1x64.size a ≤ S1000000x64.size a := fun v1015 k0_hw74 => k0_hw74.1
theorem k0_off222_inb : ∀ (v1015 : BitVec 32) (k0_hw74 : k0_chk74 v1015), ∀ a, (k0_off222 v1015) a + S1x1.size a ≤ S1000000x1.size a := fun v1015 k0_hw74 => k0_hw74.2

def k0_off223 (i : grid0.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v1039 : BitVec 32 := Scalar.addi v0 c37_i32
  let v1040 : Index := Scalar.indexCast v1039
  ![v1040.toNat]
def k0_off224 (v1041 : BitVec 32) : Fin 2 → Nat :=
  let c0_i32_815 : BitVec 32 := 0#32
  ![v1041.toNat, 0]

def k0_off225 (v1043 : BitVec 32) : Fin 2 → Nat :=
  let c0_i32_816 : BitVec 32 := 0#32
  ![v1043.toNat, 0]

def k0_off226 (v1041 : BitVec 32) : Fin 2 → Nat :=
  let c0_i32_817 : BitVec 32 := 0#32
  ![v1041.toNat, 0]
def k0_off227 (v1041 : BitVec 32) : Fin 2 → Nat :=
  let c0_i32_818 : BitVec 32 := 0#32
  ![v1041.toNat, 0]

def k0_chk75 (v1041 : BitVec 32) : Prop :=
  (∀ a, (k0_off224 v1041) a + S1x64.size a ≤ S1000000x64.size a) ∧
  (∀ a, (k0_off226 v1041) a + S1x64.size a ≤ S1000000x64.size a) ∧
  (∀ a, (k0_off227 v1041) a + S1x1.size a ≤ S1000000x1.size a)
instance k0_chk75.dec : ∀ (v1041 : BitVec 32), Decidable (k0_chk75 v1041) := fun v1041 => decidable_of_iff' _ (Iff.of_eq (k0_chk75.eq_1 v1041))
theorem k0_off224_inb : ∀ (v1041 : BitVec 32) (k0_hw75 : k0_chk75 v1041), ∀ a, (k0_off224 v1041) a + S1x64.size a ≤ S1000000x64.size a := fun v1041 k0_hw75 => k0_hw75.1
theorem k0_off226_inb : ∀ (v1041 : BitVec 32) (k0_hw75 : k0_chk75 v1041), ∀ a, (k0_off226 v1041) a + S1x64.size a ≤ S1000000x64.size a := fun v1041 k0_hw75 => k0_hw75.2.1
theorem k0_off227_inb : ∀ (v1041 : BitVec 32) (k0_hw75 : k0_chk75 v1041), ∀ a, (k0_off227 v1041) a + S1x1.size a ≤ S1000000x1.size a := fun v1041 k0_hw75 => k0_hw75.2.2

def k0_off228 (v1043 : BitVec 32) : Fin 2 → Nat :=
  let c0_i32_819 : BitVec 32 := 0#32
  ![v1043.toNat, 0]

def k0_chk76 (v1043 : BitVec 32) : Prop :=
  (∀ a, (k0_off225 v1043) a + S1x64.size a ≤ S1000000x64.size a) ∧
  (∀ a, (k0_off228 v1043) a + S1x1.size a ≤ S1000000x1.size a)
instance k0_chk76.dec : ∀ (v1043 : BitVec 32), Decidable (k0_chk76 v1043) := fun v1043 => decidable_of_iff' _ (Iff.of_eq (k0_chk76.eq_1 v1043))
theorem k0_off225_inb : ∀ (v1043 : BitVec 32) (k0_hw76 : k0_chk76 v1043), ∀ a, (k0_off225 v1043) a + S1x64.size a ≤ S1000000x64.size a := fun v1043 k0_hw76 => k0_hw76.1
theorem k0_off228_inb : ∀ (v1043 : BitVec 32) (k0_hw76 : k0_chk76 v1043), ∀ a, (k0_off228 v1043) a + S1x1.size a ≤ S1000000x1.size a := fun v1043 k0_hw76 => k0_hw76.2

def k0_off229 (i : grid0.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v1067 : BitVec 32 := Scalar.addi v0 c38_i32
  let v1068 : Index := Scalar.indexCast v1067
  ![v1068.toNat]
def k0_off230 (v1069 : BitVec 32) : Fin 2 → Nat :=
  let c0_i32_837 : BitVec 32 := 0#32
  ![v1069.toNat, 0]

def k0_off231 (v1071 : BitVec 32) : Fin 2 → Nat :=
  let c0_i32_838 : BitVec 32 := 0#32
  ![v1071.toNat, 0]

def k0_off232 (v1069 : BitVec 32) : Fin 2 → Nat :=
  let c0_i32_839 : BitVec 32 := 0#32
  ![v1069.toNat, 0]
def k0_off233 (v1069 : BitVec 32) : Fin 2 → Nat :=
  let c0_i32_840 : BitVec 32 := 0#32
  ![v1069.toNat, 0]

def k0_chk77 (v1069 : BitVec 32) : Prop :=
  (∀ a, (k0_off230 v1069) a + S1x64.size a ≤ S1000000x64.size a) ∧
  (∀ a, (k0_off232 v1069) a + S1x64.size a ≤ S1000000x64.size a) ∧
  (∀ a, (k0_off233 v1069) a + S1x1.size a ≤ S1000000x1.size a)
instance k0_chk77.dec : ∀ (v1069 : BitVec 32), Decidable (k0_chk77 v1069) := fun v1069 => decidable_of_iff' _ (Iff.of_eq (k0_chk77.eq_1 v1069))
theorem k0_off230_inb : ∀ (v1069 : BitVec 32) (k0_hw77 : k0_chk77 v1069), ∀ a, (k0_off230 v1069) a + S1x64.size a ≤ S1000000x64.size a := fun v1069 k0_hw77 => k0_hw77.1
theorem k0_off232_inb : ∀ (v1069 : BitVec 32) (k0_hw77 : k0_chk77 v1069), ∀ a, (k0_off232 v1069) a + S1x64.size a ≤ S1000000x64.size a := fun v1069 k0_hw77 => k0_hw77.2.1
theorem k0_off233_inb : ∀ (v1069 : BitVec 32) (k0_hw77 : k0_chk77 v1069), ∀ a, (k0_off233 v1069) a + S1x1.size a ≤ S1000000x1.size a := fun v1069 k0_hw77 => k0_hw77.2.2

def k0_off234 (v1071 : BitVec 32) : Fin 2 → Nat :=
  let c0_i32_841 : BitVec 32 := 0#32
  ![v1071.toNat, 0]

def k0_chk78 (v1071 : BitVec 32) : Prop :=
  (∀ a, (k0_off231 v1071) a + S1x64.size a ≤ S1000000x64.size a) ∧
  (∀ a, (k0_off234 v1071) a + S1x1.size a ≤ S1000000x1.size a)
instance k0_chk78.dec : ∀ (v1071 : BitVec 32), Decidable (k0_chk78 v1071) := fun v1071 => decidable_of_iff' _ (Iff.of_eq (k0_chk78.eq_1 v1071))
theorem k0_off231_inb : ∀ (v1071 : BitVec 32) (k0_hw78 : k0_chk78 v1071), ∀ a, (k0_off231 v1071) a + S1x64.size a ≤ S1000000x64.size a := fun v1071 k0_hw78 => k0_hw78.1
theorem k0_off234_inb : ∀ (v1071 : BitVec 32) (k0_hw78 : k0_chk78 v1071), ∀ a, (k0_off234 v1071) a + S1x1.size a ≤ S1000000x1.size a := fun v1071 k0_hw78 => k0_hw78.2

def k0_off235 (i : grid0.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v1095 : BitVec 32 := Scalar.addi v0 c39_i32
  let v1096 : Index := Scalar.indexCast v1095
  ![v1096.toNat]
def k0_off236 (v1097 : BitVec 32) : Fin 2 → Nat :=
  let c0_i32_859 : BitVec 32 := 0#32
  ![v1097.toNat, 0]

def k0_off237 (v1099 : BitVec 32) : Fin 2 → Nat :=
  let c0_i32_860 : BitVec 32 := 0#32
  ![v1099.toNat, 0]

def k0_off238 (v1097 : BitVec 32) : Fin 2 → Nat :=
  let c0_i32_861 : BitVec 32 := 0#32
  ![v1097.toNat, 0]
def k0_off239 (v1097 : BitVec 32) : Fin 2 → Nat :=
  let c0_i32_862 : BitVec 32 := 0#32
  ![v1097.toNat, 0]

def k0_chk79 (v1097 : BitVec 32) : Prop :=
  (∀ a, (k0_off236 v1097) a + S1x64.size a ≤ S1000000x64.size a) ∧
  (∀ a, (k0_off238 v1097) a + S1x64.size a ≤ S1000000x64.size a) ∧
  (∀ a, (k0_off239 v1097) a + S1x1.size a ≤ S1000000x1.size a)
instance k0_chk79.dec : ∀ (v1097 : BitVec 32), Decidable (k0_chk79 v1097) := fun v1097 => decidable_of_iff' _ (Iff.of_eq (k0_chk79.eq_1 v1097))
theorem k0_off236_inb : ∀ (v1097 : BitVec 32) (k0_hw79 : k0_chk79 v1097), ∀ a, (k0_off236 v1097) a + S1x64.size a ≤ S1000000x64.size a := fun v1097 k0_hw79 => k0_hw79.1
theorem k0_off238_inb : ∀ (v1097 : BitVec 32) (k0_hw79 : k0_chk79 v1097), ∀ a, (k0_off238 v1097) a + S1x64.size a ≤ S1000000x64.size a := fun v1097 k0_hw79 => k0_hw79.2.1
theorem k0_off239_inb : ∀ (v1097 : BitVec 32) (k0_hw79 : k0_chk79 v1097), ∀ a, (k0_off239 v1097) a + S1x1.size a ≤ S1000000x1.size a := fun v1097 k0_hw79 => k0_hw79.2.2

def k0_off240 (v1099 : BitVec 32) : Fin 2 → Nat :=
  let c0_i32_863 : BitVec 32 := 0#32
  ![v1099.toNat, 0]

def k0_chk80 (v1099 : BitVec 32) : Prop :=
  (∀ a, (k0_off237 v1099) a + S1x64.size a ≤ S1000000x64.size a) ∧
  (∀ a, (k0_off240 v1099) a + S1x1.size a ≤ S1000000x1.size a)
instance k0_chk80.dec : ∀ (v1099 : BitVec 32), Decidable (k0_chk80 v1099) := fun v1099 => decidable_of_iff' _ (Iff.of_eq (k0_chk80.eq_1 v1099))
theorem k0_off237_inb : ∀ (v1099 : BitVec 32) (k0_hw80 : k0_chk80 v1099), ∀ a, (k0_off237 v1099) a + S1x64.size a ≤ S1000000x64.size a := fun v1099 k0_hw80 => k0_hw80.1
theorem k0_off240_inb : ∀ (v1099 : BitVec 32) (k0_hw80 : k0_chk80 v1099), ∀ a, (k0_off240 v1099) a + S1x1.size a ≤ S1000000x1.size a := fun v1099 k0_hw80 => k0_hw80.2

def k0_off241 (i : grid0.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v1123 : BitVec 32 := Scalar.addi v0 c40_i32
  let v1124 : Index := Scalar.indexCast v1123
  ![v1124.toNat]
def k0_off242 (v1125 : BitVec 32) : Fin 2 → Nat :=
  let c0_i32_881 : BitVec 32 := 0#32
  ![v1125.toNat, 0]

def k0_off243 (v1127 : BitVec 32) : Fin 2 → Nat :=
  let c0_i32_882 : BitVec 32 := 0#32
  ![v1127.toNat, 0]

def k0_off244 (v1125 : BitVec 32) : Fin 2 → Nat :=
  let c0_i32_883 : BitVec 32 := 0#32
  ![v1125.toNat, 0]
def k0_off245 (v1125 : BitVec 32) : Fin 2 → Nat :=
  let c0_i32_884 : BitVec 32 := 0#32
  ![v1125.toNat, 0]

def k0_chk81 (v1125 : BitVec 32) : Prop :=
  (∀ a, (k0_off242 v1125) a + S1x64.size a ≤ S1000000x64.size a) ∧
  (∀ a, (k0_off244 v1125) a + S1x64.size a ≤ S1000000x64.size a) ∧
  (∀ a, (k0_off245 v1125) a + S1x1.size a ≤ S1000000x1.size a)
instance k0_chk81.dec : ∀ (v1125 : BitVec 32), Decidable (k0_chk81 v1125) := fun v1125 => decidable_of_iff' _ (Iff.of_eq (k0_chk81.eq_1 v1125))
theorem k0_off242_inb : ∀ (v1125 : BitVec 32) (k0_hw81 : k0_chk81 v1125), ∀ a, (k0_off242 v1125) a + S1x64.size a ≤ S1000000x64.size a := fun v1125 k0_hw81 => k0_hw81.1
theorem k0_off244_inb : ∀ (v1125 : BitVec 32) (k0_hw81 : k0_chk81 v1125), ∀ a, (k0_off244 v1125) a + S1x64.size a ≤ S1000000x64.size a := fun v1125 k0_hw81 => k0_hw81.2.1
theorem k0_off245_inb : ∀ (v1125 : BitVec 32) (k0_hw81 : k0_chk81 v1125), ∀ a, (k0_off245 v1125) a + S1x1.size a ≤ S1000000x1.size a := fun v1125 k0_hw81 => k0_hw81.2.2

def k0_off246 (v1127 : BitVec 32) : Fin 2 → Nat :=
  let c0_i32_885 : BitVec 32 := 0#32
  ![v1127.toNat, 0]

def k0_chk82 (v1127 : BitVec 32) : Prop :=
  (∀ a, (k0_off243 v1127) a + S1x64.size a ≤ S1000000x64.size a) ∧
  (∀ a, (k0_off246 v1127) a + S1x1.size a ≤ S1000000x1.size a)
instance k0_chk82.dec : ∀ (v1127 : BitVec 32), Decidable (k0_chk82 v1127) := fun v1127 => decidable_of_iff' _ (Iff.of_eq (k0_chk82.eq_1 v1127))
theorem k0_off243_inb : ∀ (v1127 : BitVec 32) (k0_hw82 : k0_chk82 v1127), ∀ a, (k0_off243 v1127) a + S1x64.size a ≤ S1000000x64.size a := fun v1127 k0_hw82 => k0_hw82.1
theorem k0_off246_inb : ∀ (v1127 : BitVec 32) (k0_hw82 : k0_chk82 v1127), ∀ a, (k0_off246 v1127) a + S1x1.size a ≤ S1000000x1.size a := fun v1127 k0_hw82 => k0_hw82.2

def k0_off247 (i : grid0.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v1151 : BitVec 32 := Scalar.addi v0 c41_i32
  let v1152 : Index := Scalar.indexCast v1151
  ![v1152.toNat]
def k0_off248 (v1153 : BitVec 32) : Fin 2 → Nat :=
  let c0_i32_903 : BitVec 32 := 0#32
  ![v1153.toNat, 0]

def k0_off249 (v1155 : BitVec 32) : Fin 2 → Nat :=
  let c0_i32_904 : BitVec 32 := 0#32
  ![v1155.toNat, 0]

def k0_off250 (v1153 : BitVec 32) : Fin 2 → Nat :=
  let c0_i32_905 : BitVec 32 := 0#32
  ![v1153.toNat, 0]
def k0_off251 (v1153 : BitVec 32) : Fin 2 → Nat :=
  let c0_i32_906 : BitVec 32 := 0#32
  ![v1153.toNat, 0]

def k0_chk83 (v1153 : BitVec 32) : Prop :=
  (∀ a, (k0_off248 v1153) a + S1x64.size a ≤ S1000000x64.size a) ∧
  (∀ a, (k0_off250 v1153) a + S1x64.size a ≤ S1000000x64.size a) ∧
  (∀ a, (k0_off251 v1153) a + S1x1.size a ≤ S1000000x1.size a)
instance k0_chk83.dec : ∀ (v1153 : BitVec 32), Decidable (k0_chk83 v1153) := fun v1153 => decidable_of_iff' _ (Iff.of_eq (k0_chk83.eq_1 v1153))
theorem k0_off248_inb : ∀ (v1153 : BitVec 32) (k0_hw83 : k0_chk83 v1153), ∀ a, (k0_off248 v1153) a + S1x64.size a ≤ S1000000x64.size a := fun v1153 k0_hw83 => k0_hw83.1
theorem k0_off250_inb : ∀ (v1153 : BitVec 32) (k0_hw83 : k0_chk83 v1153), ∀ a, (k0_off250 v1153) a + S1x64.size a ≤ S1000000x64.size a := fun v1153 k0_hw83 => k0_hw83.2.1
theorem k0_off251_inb : ∀ (v1153 : BitVec 32) (k0_hw83 : k0_chk83 v1153), ∀ a, (k0_off251 v1153) a + S1x1.size a ≤ S1000000x1.size a := fun v1153 k0_hw83 => k0_hw83.2.2

def k0_off252 (v1155 : BitVec 32) : Fin 2 → Nat :=
  let c0_i32_907 : BitVec 32 := 0#32
  ![v1155.toNat, 0]

def k0_chk84 (v1155 : BitVec 32) : Prop :=
  (∀ a, (k0_off249 v1155) a + S1x64.size a ≤ S1000000x64.size a) ∧
  (∀ a, (k0_off252 v1155) a + S1x1.size a ≤ S1000000x1.size a)
instance k0_chk84.dec : ∀ (v1155 : BitVec 32), Decidable (k0_chk84 v1155) := fun v1155 => decidable_of_iff' _ (Iff.of_eq (k0_chk84.eq_1 v1155))
theorem k0_off249_inb : ∀ (v1155 : BitVec 32) (k0_hw84 : k0_chk84 v1155), ∀ a, (k0_off249 v1155) a + S1x64.size a ≤ S1000000x64.size a := fun v1155 k0_hw84 => k0_hw84.1
theorem k0_off252_inb : ∀ (v1155 : BitVec 32) (k0_hw84 : k0_chk84 v1155), ∀ a, (k0_off252 v1155) a + S1x1.size a ≤ S1000000x1.size a := fun v1155 k0_hw84 => k0_hw84.2

def k0_off253 (i : grid0.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v1179 : BitVec 32 := Scalar.addi v0 c42_i32
  let v1180 : Index := Scalar.indexCast v1179
  ![v1180.toNat]
def k0_off254 (v1181 : BitVec 32) : Fin 2 → Nat :=
  let c0_i32_925 : BitVec 32 := 0#32
  ![v1181.toNat, 0]

def k0_off255 (v1183 : BitVec 32) : Fin 2 → Nat :=
  let c0_i32_926 : BitVec 32 := 0#32
  ![v1183.toNat, 0]

def k0_off256 (v1181 : BitVec 32) : Fin 2 → Nat :=
  let c0_i32_927 : BitVec 32 := 0#32
  ![v1181.toNat, 0]
def k0_off257 (v1181 : BitVec 32) : Fin 2 → Nat :=
  let c0_i32_928 : BitVec 32 := 0#32
  ![v1181.toNat, 0]

def k0_chk85 (v1181 : BitVec 32) : Prop :=
  (∀ a, (k0_off254 v1181) a + S1x64.size a ≤ S1000000x64.size a) ∧
  (∀ a, (k0_off256 v1181) a + S1x64.size a ≤ S1000000x64.size a) ∧
  (∀ a, (k0_off257 v1181) a + S1x1.size a ≤ S1000000x1.size a)
instance k0_chk85.dec : ∀ (v1181 : BitVec 32), Decidable (k0_chk85 v1181) := fun v1181 => decidable_of_iff' _ (Iff.of_eq (k0_chk85.eq_1 v1181))
theorem k0_off254_inb : ∀ (v1181 : BitVec 32) (k0_hw85 : k0_chk85 v1181), ∀ a, (k0_off254 v1181) a + S1x64.size a ≤ S1000000x64.size a := fun v1181 k0_hw85 => k0_hw85.1
theorem k0_off256_inb : ∀ (v1181 : BitVec 32) (k0_hw85 : k0_chk85 v1181), ∀ a, (k0_off256 v1181) a + S1x64.size a ≤ S1000000x64.size a := fun v1181 k0_hw85 => k0_hw85.2.1
theorem k0_off257_inb : ∀ (v1181 : BitVec 32) (k0_hw85 : k0_chk85 v1181), ∀ a, (k0_off257 v1181) a + S1x1.size a ≤ S1000000x1.size a := fun v1181 k0_hw85 => k0_hw85.2.2

def k0_off258 (v1183 : BitVec 32) : Fin 2 → Nat :=
  let c0_i32_929 : BitVec 32 := 0#32
  ![v1183.toNat, 0]

def k0_chk86 (v1183 : BitVec 32) : Prop :=
  (∀ a, (k0_off255 v1183) a + S1x64.size a ≤ S1000000x64.size a) ∧
  (∀ a, (k0_off258 v1183) a + S1x1.size a ≤ S1000000x1.size a)
instance k0_chk86.dec : ∀ (v1183 : BitVec 32), Decidable (k0_chk86 v1183) := fun v1183 => decidable_of_iff' _ (Iff.of_eq (k0_chk86.eq_1 v1183))
theorem k0_off255_inb : ∀ (v1183 : BitVec 32) (k0_hw86 : k0_chk86 v1183), ∀ a, (k0_off255 v1183) a + S1x64.size a ≤ S1000000x64.size a := fun v1183 k0_hw86 => k0_hw86.1
theorem k0_off258_inb : ∀ (v1183 : BitVec 32) (k0_hw86 : k0_chk86 v1183), ∀ a, (k0_off258 v1183) a + S1x1.size a ≤ S1000000x1.size a := fun v1183 k0_hw86 => k0_hw86.2

def k0_off259 (i : grid0.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v1207 : BitVec 32 := Scalar.addi v0 c43_i32
  let v1208 : Index := Scalar.indexCast v1207
  ![v1208.toNat]
def k0_off260 (v1209 : BitVec 32) : Fin 2 → Nat :=
  let c0_i32_947 : BitVec 32 := 0#32
  ![v1209.toNat, 0]

def k0_off261 (v1211 : BitVec 32) : Fin 2 → Nat :=
  let c0_i32_948 : BitVec 32 := 0#32
  ![v1211.toNat, 0]

def k0_off262 (v1209 : BitVec 32) : Fin 2 → Nat :=
  let c0_i32_949 : BitVec 32 := 0#32
  ![v1209.toNat, 0]
def k0_off263 (v1209 : BitVec 32) : Fin 2 → Nat :=
  let c0_i32_950 : BitVec 32 := 0#32
  ![v1209.toNat, 0]

def k0_chk87 (v1209 : BitVec 32) : Prop :=
  (∀ a, (k0_off260 v1209) a + S1x64.size a ≤ S1000000x64.size a) ∧
  (∀ a, (k0_off262 v1209) a + S1x64.size a ≤ S1000000x64.size a) ∧
  (∀ a, (k0_off263 v1209) a + S1x1.size a ≤ S1000000x1.size a)
instance k0_chk87.dec : ∀ (v1209 : BitVec 32), Decidable (k0_chk87 v1209) := fun v1209 => decidable_of_iff' _ (Iff.of_eq (k0_chk87.eq_1 v1209))
theorem k0_off260_inb : ∀ (v1209 : BitVec 32) (k0_hw87 : k0_chk87 v1209), ∀ a, (k0_off260 v1209) a + S1x64.size a ≤ S1000000x64.size a := fun v1209 k0_hw87 => k0_hw87.1
theorem k0_off262_inb : ∀ (v1209 : BitVec 32) (k0_hw87 : k0_chk87 v1209), ∀ a, (k0_off262 v1209) a + S1x64.size a ≤ S1000000x64.size a := fun v1209 k0_hw87 => k0_hw87.2.1
theorem k0_off263_inb : ∀ (v1209 : BitVec 32) (k0_hw87 : k0_chk87 v1209), ∀ a, (k0_off263 v1209) a + S1x1.size a ≤ S1000000x1.size a := fun v1209 k0_hw87 => k0_hw87.2.2

def k0_off264 (v1211 : BitVec 32) : Fin 2 → Nat :=
  let c0_i32_951 : BitVec 32 := 0#32
  ![v1211.toNat, 0]

def k0_chk88 (v1211 : BitVec 32) : Prop :=
  (∀ a, (k0_off261 v1211) a + S1x64.size a ≤ S1000000x64.size a) ∧
  (∀ a, (k0_off264 v1211) a + S1x1.size a ≤ S1000000x1.size a)
instance k0_chk88.dec : ∀ (v1211 : BitVec 32), Decidable (k0_chk88 v1211) := fun v1211 => decidable_of_iff' _ (Iff.of_eq (k0_chk88.eq_1 v1211))
theorem k0_off261_inb : ∀ (v1211 : BitVec 32) (k0_hw88 : k0_chk88 v1211), ∀ a, (k0_off261 v1211) a + S1x64.size a ≤ S1000000x64.size a := fun v1211 k0_hw88 => k0_hw88.1
theorem k0_off264_inb : ∀ (v1211 : BitVec 32) (k0_hw88 : k0_chk88 v1211), ∀ a, (k0_off264 v1211) a + S1x1.size a ≤ S1000000x1.size a := fun v1211 k0_hw88 => k0_hw88.2

def k0_off265 (i : grid0.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v1235 : BitVec 32 := Scalar.addi v0 c44_i32
  let v1236 : Index := Scalar.indexCast v1235
  ![v1236.toNat]
def k0_off266 (v1237 : BitVec 32) : Fin 2 → Nat :=
  let c0_i32_969 : BitVec 32 := 0#32
  ![v1237.toNat, 0]

def k0_off267 (v1239 : BitVec 32) : Fin 2 → Nat :=
  let c0_i32_970 : BitVec 32 := 0#32
  ![v1239.toNat, 0]

def k0_off268 (v1237 : BitVec 32) : Fin 2 → Nat :=
  let c0_i32_971 : BitVec 32 := 0#32
  ![v1237.toNat, 0]
def k0_off269 (v1237 : BitVec 32) : Fin 2 → Nat :=
  let c0_i32_972 : BitVec 32 := 0#32
  ![v1237.toNat, 0]

def k0_chk89 (v1237 : BitVec 32) : Prop :=
  (∀ a, (k0_off266 v1237) a + S1x64.size a ≤ S1000000x64.size a) ∧
  (∀ a, (k0_off268 v1237) a + S1x64.size a ≤ S1000000x64.size a) ∧
  (∀ a, (k0_off269 v1237) a + S1x1.size a ≤ S1000000x1.size a)
instance k0_chk89.dec : ∀ (v1237 : BitVec 32), Decidable (k0_chk89 v1237) := fun v1237 => decidable_of_iff' _ (Iff.of_eq (k0_chk89.eq_1 v1237))
theorem k0_off266_inb : ∀ (v1237 : BitVec 32) (k0_hw89 : k0_chk89 v1237), ∀ a, (k0_off266 v1237) a + S1x64.size a ≤ S1000000x64.size a := fun v1237 k0_hw89 => k0_hw89.1
theorem k0_off268_inb : ∀ (v1237 : BitVec 32) (k0_hw89 : k0_chk89 v1237), ∀ a, (k0_off268 v1237) a + S1x64.size a ≤ S1000000x64.size a := fun v1237 k0_hw89 => k0_hw89.2.1
theorem k0_off269_inb : ∀ (v1237 : BitVec 32) (k0_hw89 : k0_chk89 v1237), ∀ a, (k0_off269 v1237) a + S1x1.size a ≤ S1000000x1.size a := fun v1237 k0_hw89 => k0_hw89.2.2

def k0_off270 (v1239 : BitVec 32) : Fin 2 → Nat :=
  let c0_i32_973 : BitVec 32 := 0#32
  ![v1239.toNat, 0]

def k0_chk90 (v1239 : BitVec 32) : Prop :=
  (∀ a, (k0_off267 v1239) a + S1x64.size a ≤ S1000000x64.size a) ∧
  (∀ a, (k0_off270 v1239) a + S1x1.size a ≤ S1000000x1.size a)
instance k0_chk90.dec : ∀ (v1239 : BitVec 32), Decidable (k0_chk90 v1239) := fun v1239 => decidable_of_iff' _ (Iff.of_eq (k0_chk90.eq_1 v1239))
theorem k0_off267_inb : ∀ (v1239 : BitVec 32) (k0_hw90 : k0_chk90 v1239), ∀ a, (k0_off267 v1239) a + S1x64.size a ≤ S1000000x64.size a := fun v1239 k0_hw90 => k0_hw90.1
theorem k0_off270_inb : ∀ (v1239 : BitVec 32) (k0_hw90 : k0_chk90 v1239), ∀ a, (k0_off270 v1239) a + S1x1.size a ≤ S1000000x1.size a := fun v1239 k0_hw90 => k0_hw90.2

def k0_off271 (i : grid0.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v1263 : BitVec 32 := Scalar.addi v0 c45_i32
  let v1264 : Index := Scalar.indexCast v1263
  ![v1264.toNat]
def k0_off272 (v1265 : BitVec 32) : Fin 2 → Nat :=
  let c0_i32_991 : BitVec 32 := 0#32
  ![v1265.toNat, 0]

def k0_off273 (v1267 : BitVec 32) : Fin 2 → Nat :=
  let c0_i32_992 : BitVec 32 := 0#32
  ![v1267.toNat, 0]

def k0_off274 (v1265 : BitVec 32) : Fin 2 → Nat :=
  let c0_i32_993 : BitVec 32 := 0#32
  ![v1265.toNat, 0]
def k0_off275 (v1265 : BitVec 32) : Fin 2 → Nat :=
  let c0_i32_994 : BitVec 32 := 0#32
  ![v1265.toNat, 0]

def k0_chk91 (v1265 : BitVec 32) : Prop :=
  (∀ a, (k0_off272 v1265) a + S1x64.size a ≤ S1000000x64.size a) ∧
  (∀ a, (k0_off274 v1265) a + S1x64.size a ≤ S1000000x64.size a) ∧
  (∀ a, (k0_off275 v1265) a + S1x1.size a ≤ S1000000x1.size a)
instance k0_chk91.dec : ∀ (v1265 : BitVec 32), Decidable (k0_chk91 v1265) := fun v1265 => decidable_of_iff' _ (Iff.of_eq (k0_chk91.eq_1 v1265))
theorem k0_off272_inb : ∀ (v1265 : BitVec 32) (k0_hw91 : k0_chk91 v1265), ∀ a, (k0_off272 v1265) a + S1x64.size a ≤ S1000000x64.size a := fun v1265 k0_hw91 => k0_hw91.1
theorem k0_off274_inb : ∀ (v1265 : BitVec 32) (k0_hw91 : k0_chk91 v1265), ∀ a, (k0_off274 v1265) a + S1x64.size a ≤ S1000000x64.size a := fun v1265 k0_hw91 => k0_hw91.2.1
theorem k0_off275_inb : ∀ (v1265 : BitVec 32) (k0_hw91 : k0_chk91 v1265), ∀ a, (k0_off275 v1265) a + S1x1.size a ≤ S1000000x1.size a := fun v1265 k0_hw91 => k0_hw91.2.2

def k0_off276 (v1267 : BitVec 32) : Fin 2 → Nat :=
  let c0_i32_995 : BitVec 32 := 0#32
  ![v1267.toNat, 0]

def k0_chk92 (v1267 : BitVec 32) : Prop :=
  (∀ a, (k0_off273 v1267) a + S1x64.size a ≤ S1000000x64.size a) ∧
  (∀ a, (k0_off276 v1267) a + S1x1.size a ≤ S1000000x1.size a)
instance k0_chk92.dec : ∀ (v1267 : BitVec 32), Decidable (k0_chk92 v1267) := fun v1267 => decidable_of_iff' _ (Iff.of_eq (k0_chk92.eq_1 v1267))
theorem k0_off273_inb : ∀ (v1267 : BitVec 32) (k0_hw92 : k0_chk92 v1267), ∀ a, (k0_off273 v1267) a + S1x64.size a ≤ S1000000x64.size a := fun v1267 k0_hw92 => k0_hw92.1
theorem k0_off276_inb : ∀ (v1267 : BitVec 32) (k0_hw92 : k0_chk92 v1267), ∀ a, (k0_off276 v1267) a + S1x1.size a ≤ S1000000x1.size a := fun v1267 k0_hw92 => k0_hw92.2

def k0_off277 (i : grid0.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v1291 : BitVec 32 := Scalar.addi v0 c46_i32
  let v1292 : Index := Scalar.indexCast v1291
  ![v1292.toNat]
def k0_off278 (v1293 : BitVec 32) : Fin 2 → Nat :=
  let c0_i32_1013 : BitVec 32 := 0#32
  ![v1293.toNat, 0]

def k0_off279 (v1295 : BitVec 32) : Fin 2 → Nat :=
  let c0_i32_1014 : BitVec 32 := 0#32
  ![v1295.toNat, 0]

def k0_off280 (v1293 : BitVec 32) : Fin 2 → Nat :=
  let c0_i32_1015 : BitVec 32 := 0#32
  ![v1293.toNat, 0]
def k0_off281 (v1293 : BitVec 32) : Fin 2 → Nat :=
  let c0_i32_1016 : BitVec 32 := 0#32
  ![v1293.toNat, 0]

def k0_chk93 (v1293 : BitVec 32) : Prop :=
  (∀ a, (k0_off278 v1293) a + S1x64.size a ≤ S1000000x64.size a) ∧
  (∀ a, (k0_off280 v1293) a + S1x64.size a ≤ S1000000x64.size a) ∧
  (∀ a, (k0_off281 v1293) a + S1x1.size a ≤ S1000000x1.size a)
instance k0_chk93.dec : ∀ (v1293 : BitVec 32), Decidable (k0_chk93 v1293) := fun v1293 => decidable_of_iff' _ (Iff.of_eq (k0_chk93.eq_1 v1293))
theorem k0_off278_inb : ∀ (v1293 : BitVec 32) (k0_hw93 : k0_chk93 v1293), ∀ a, (k0_off278 v1293) a + S1x64.size a ≤ S1000000x64.size a := fun v1293 k0_hw93 => k0_hw93.1
theorem k0_off280_inb : ∀ (v1293 : BitVec 32) (k0_hw93 : k0_chk93 v1293), ∀ a, (k0_off280 v1293) a + S1x64.size a ≤ S1000000x64.size a := fun v1293 k0_hw93 => k0_hw93.2.1
theorem k0_off281_inb : ∀ (v1293 : BitVec 32) (k0_hw93 : k0_chk93 v1293), ∀ a, (k0_off281 v1293) a + S1x1.size a ≤ S1000000x1.size a := fun v1293 k0_hw93 => k0_hw93.2.2

def k0_off282 (v1295 : BitVec 32) : Fin 2 → Nat :=
  let c0_i32_1017 : BitVec 32 := 0#32
  ![v1295.toNat, 0]

def k0_chk94 (v1295 : BitVec 32) : Prop :=
  (∀ a, (k0_off279 v1295) a + S1x64.size a ≤ S1000000x64.size a) ∧
  (∀ a, (k0_off282 v1295) a + S1x1.size a ≤ S1000000x1.size a)
instance k0_chk94.dec : ∀ (v1295 : BitVec 32), Decidable (k0_chk94 v1295) := fun v1295 => decidable_of_iff' _ (Iff.of_eq (k0_chk94.eq_1 v1295))
theorem k0_off279_inb : ∀ (v1295 : BitVec 32) (k0_hw94 : k0_chk94 v1295), ∀ a, (k0_off279 v1295) a + S1x64.size a ≤ S1000000x64.size a := fun v1295 k0_hw94 => k0_hw94.1
theorem k0_off282_inb : ∀ (v1295 : BitVec 32) (k0_hw94 : k0_chk94 v1295), ∀ a, (k0_off282 v1295) a + S1x1.size a ≤ S1000000x1.size a := fun v1295 k0_hw94 => k0_hw94.2

def k0_off283 (i : grid0.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v1319 : BitVec 32 := Scalar.addi v0 c47_i32
  let v1320 : Index := Scalar.indexCast v1319
  ![v1320.toNat]
def k0_off284 (v1321 : BitVec 32) : Fin 2 → Nat :=
  let c0_i32_1035 : BitVec 32 := 0#32
  ![v1321.toNat, 0]

def k0_off285 (v1323 : BitVec 32) : Fin 2 → Nat :=
  let c0_i32_1036 : BitVec 32 := 0#32
  ![v1323.toNat, 0]

def k0_off286 (v1321 : BitVec 32) : Fin 2 → Nat :=
  let c0_i32_1037 : BitVec 32 := 0#32
  ![v1321.toNat, 0]
def k0_off287 (v1321 : BitVec 32) : Fin 2 → Nat :=
  let c0_i32_1038 : BitVec 32 := 0#32
  ![v1321.toNat, 0]

def k0_chk95 (v1321 : BitVec 32) : Prop :=
  (∀ a, (k0_off284 v1321) a + S1x64.size a ≤ S1000000x64.size a) ∧
  (∀ a, (k0_off286 v1321) a + S1x64.size a ≤ S1000000x64.size a) ∧
  (∀ a, (k0_off287 v1321) a + S1x1.size a ≤ S1000000x1.size a)
instance k0_chk95.dec : ∀ (v1321 : BitVec 32), Decidable (k0_chk95 v1321) := fun v1321 => decidable_of_iff' _ (Iff.of_eq (k0_chk95.eq_1 v1321))
theorem k0_off284_inb : ∀ (v1321 : BitVec 32) (k0_hw95 : k0_chk95 v1321), ∀ a, (k0_off284 v1321) a + S1x64.size a ≤ S1000000x64.size a := fun v1321 k0_hw95 => k0_hw95.1
theorem k0_off286_inb : ∀ (v1321 : BitVec 32) (k0_hw95 : k0_chk95 v1321), ∀ a, (k0_off286 v1321) a + S1x64.size a ≤ S1000000x64.size a := fun v1321 k0_hw95 => k0_hw95.2.1
theorem k0_off287_inb : ∀ (v1321 : BitVec 32) (k0_hw95 : k0_chk95 v1321), ∀ a, (k0_off287 v1321) a + S1x1.size a ≤ S1000000x1.size a := fun v1321 k0_hw95 => k0_hw95.2.2

def k0_off288 (v1323 : BitVec 32) : Fin 2 → Nat :=
  let c0_i32_1039 : BitVec 32 := 0#32
  ![v1323.toNat, 0]

def k0_chk96 (v1323 : BitVec 32) : Prop :=
  (∀ a, (k0_off285 v1323) a + S1x64.size a ≤ S1000000x64.size a) ∧
  (∀ a, (k0_off288 v1323) a + S1x1.size a ≤ S1000000x1.size a)
instance k0_chk96.dec : ∀ (v1323 : BitVec 32), Decidable (k0_chk96 v1323) := fun v1323 => decidable_of_iff' _ (Iff.of_eq (k0_chk96.eq_1 v1323))
theorem k0_off285_inb : ∀ (v1323 : BitVec 32) (k0_hw96 : k0_chk96 v1323), ∀ a, (k0_off285 v1323) a + S1x64.size a ≤ S1000000x64.size a := fun v1323 k0_hw96 => k0_hw96.1
theorem k0_off288_inb : ∀ (v1323 : BitVec 32) (k0_hw96 : k0_chk96 v1323), ∀ a, (k0_off288 v1323) a + S1x1.size a ≤ S1000000x1.size a := fun v1323 k0_hw96 => k0_hw96.2

def k0_off289 (i : grid0.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v1347 : BitVec 32 := Scalar.addi v0 c48_i32
  let v1348 : Index := Scalar.indexCast v1347
  ![v1348.toNat]
def k0_off290 (v1349 : BitVec 32) : Fin 2 → Nat :=
  let c0_i32_1057 : BitVec 32 := 0#32
  ![v1349.toNat, 0]

def k0_off291 (v1351 : BitVec 32) : Fin 2 → Nat :=
  let c0_i32_1058 : BitVec 32 := 0#32
  ![v1351.toNat, 0]

def k0_off292 (v1349 : BitVec 32) : Fin 2 → Nat :=
  let c0_i32_1059 : BitVec 32 := 0#32
  ![v1349.toNat, 0]
def k0_off293 (v1349 : BitVec 32) : Fin 2 → Nat :=
  let c0_i32_1060 : BitVec 32 := 0#32
  ![v1349.toNat, 0]

def k0_chk97 (v1349 : BitVec 32) : Prop :=
  (∀ a, (k0_off290 v1349) a + S1x64.size a ≤ S1000000x64.size a) ∧
  (∀ a, (k0_off292 v1349) a + S1x64.size a ≤ S1000000x64.size a) ∧
  (∀ a, (k0_off293 v1349) a + S1x1.size a ≤ S1000000x1.size a)
instance k0_chk97.dec : ∀ (v1349 : BitVec 32), Decidable (k0_chk97 v1349) := fun v1349 => decidable_of_iff' _ (Iff.of_eq (k0_chk97.eq_1 v1349))
theorem k0_off290_inb : ∀ (v1349 : BitVec 32) (k0_hw97 : k0_chk97 v1349), ∀ a, (k0_off290 v1349) a + S1x64.size a ≤ S1000000x64.size a := fun v1349 k0_hw97 => k0_hw97.1
theorem k0_off292_inb : ∀ (v1349 : BitVec 32) (k0_hw97 : k0_chk97 v1349), ∀ a, (k0_off292 v1349) a + S1x64.size a ≤ S1000000x64.size a := fun v1349 k0_hw97 => k0_hw97.2.1
theorem k0_off293_inb : ∀ (v1349 : BitVec 32) (k0_hw97 : k0_chk97 v1349), ∀ a, (k0_off293 v1349) a + S1x1.size a ≤ S1000000x1.size a := fun v1349 k0_hw97 => k0_hw97.2.2

def k0_off294 (v1351 : BitVec 32) : Fin 2 → Nat :=
  let c0_i32_1061 : BitVec 32 := 0#32
  ![v1351.toNat, 0]

def k0_chk98 (v1351 : BitVec 32) : Prop :=
  (∀ a, (k0_off291 v1351) a + S1x64.size a ≤ S1000000x64.size a) ∧
  (∀ a, (k0_off294 v1351) a + S1x1.size a ≤ S1000000x1.size a)
instance k0_chk98.dec : ∀ (v1351 : BitVec 32), Decidable (k0_chk98 v1351) := fun v1351 => decidable_of_iff' _ (Iff.of_eq (k0_chk98.eq_1 v1351))
theorem k0_off291_inb : ∀ (v1351 : BitVec 32) (k0_hw98 : k0_chk98 v1351), ∀ a, (k0_off291 v1351) a + S1x64.size a ≤ S1000000x64.size a := fun v1351 k0_hw98 => k0_hw98.1
theorem k0_off294_inb : ∀ (v1351 : BitVec 32) (k0_hw98 : k0_chk98 v1351), ∀ a, (k0_off294 v1351) a + S1x1.size a ≤ S1000000x1.size a := fun v1351 k0_hw98 => k0_hw98.2

def k0_off295 (i : grid0.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v1375 : BitVec 32 := Scalar.addi v0 c49_i32
  let v1376 : Index := Scalar.indexCast v1375
  ![v1376.toNat]
def k0_off296 (v1377 : BitVec 32) : Fin 2 → Nat :=
  let c0_i32_1079 : BitVec 32 := 0#32
  ![v1377.toNat, 0]

def k0_off297 (v1379 : BitVec 32) : Fin 2 → Nat :=
  let c0_i32_1080 : BitVec 32 := 0#32
  ![v1379.toNat, 0]

def k0_off298 (v1377 : BitVec 32) : Fin 2 → Nat :=
  let c0_i32_1081 : BitVec 32 := 0#32
  ![v1377.toNat, 0]
def k0_off299 (v1377 : BitVec 32) : Fin 2 → Nat :=
  let c0_i32_1082 : BitVec 32 := 0#32
  ![v1377.toNat, 0]

def k0_chk99 (v1377 : BitVec 32) : Prop :=
  (∀ a, (k0_off296 v1377) a + S1x64.size a ≤ S1000000x64.size a) ∧
  (∀ a, (k0_off298 v1377) a + S1x64.size a ≤ S1000000x64.size a) ∧
  (∀ a, (k0_off299 v1377) a + S1x1.size a ≤ S1000000x1.size a)
instance k0_chk99.dec : ∀ (v1377 : BitVec 32), Decidable (k0_chk99 v1377) := fun v1377 => decidable_of_iff' _ (Iff.of_eq (k0_chk99.eq_1 v1377))
theorem k0_off296_inb : ∀ (v1377 : BitVec 32) (k0_hw99 : k0_chk99 v1377), ∀ a, (k0_off296 v1377) a + S1x64.size a ≤ S1000000x64.size a := fun v1377 k0_hw99 => k0_hw99.1
theorem k0_off298_inb : ∀ (v1377 : BitVec 32) (k0_hw99 : k0_chk99 v1377), ∀ a, (k0_off298 v1377) a + S1x64.size a ≤ S1000000x64.size a := fun v1377 k0_hw99 => k0_hw99.2.1
theorem k0_off299_inb : ∀ (v1377 : BitVec 32) (k0_hw99 : k0_chk99 v1377), ∀ a, (k0_off299 v1377) a + S1x1.size a ≤ S1000000x1.size a := fun v1377 k0_hw99 => k0_hw99.2.2

def k0_off300 (v1379 : BitVec 32) : Fin 2 → Nat :=
  let c0_i32_1083 : BitVec 32 := 0#32
  ![v1379.toNat, 0]

def k0_chk100 (v1379 : BitVec 32) : Prop :=
  (∀ a, (k0_off297 v1379) a + S1x64.size a ≤ S1000000x64.size a) ∧
  (∀ a, (k0_off300 v1379) a + S1x1.size a ≤ S1000000x1.size a)
instance k0_chk100.dec : ∀ (v1379 : BitVec 32), Decidable (k0_chk100 v1379) := fun v1379 => decidable_of_iff' _ (Iff.of_eq (k0_chk100.eq_1 v1379))
theorem k0_off297_inb : ∀ (v1379 : BitVec 32) (k0_hw100 : k0_chk100 v1379), ∀ a, (k0_off297 v1379) a + S1x64.size a ≤ S1000000x64.size a := fun v1379 k0_hw100 => k0_hw100.1
theorem k0_off300_inb : ∀ (v1379 : BitVec 32) (k0_hw100 : k0_chk100 v1379), ∀ a, (k0_off300 v1379) a + S1x1.size a ≤ S1000000x1.size a := fun v1379 k0_hw100 => k0_hw100.2

def k0_off301 (i : grid0.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v1403 : BitVec 32 := Scalar.addi v0 c50_i32
  let v1404 : Index := Scalar.indexCast v1403
  ![v1404.toNat]
def k0_off302 (v1405 : BitVec 32) : Fin 2 → Nat :=
  let c0_i32_1101 : BitVec 32 := 0#32
  ![v1405.toNat, 0]

def k0_off303 (v1407 : BitVec 32) : Fin 2 → Nat :=
  let c0_i32_1102 : BitVec 32 := 0#32
  ![v1407.toNat, 0]

def k0_off304 (v1405 : BitVec 32) : Fin 2 → Nat :=
  let c0_i32_1103 : BitVec 32 := 0#32
  ![v1405.toNat, 0]
def k0_off305 (v1405 : BitVec 32) : Fin 2 → Nat :=
  let c0_i32_1104 : BitVec 32 := 0#32
  ![v1405.toNat, 0]

def k0_chk101 (v1405 : BitVec 32) : Prop :=
  (∀ a, (k0_off302 v1405) a + S1x64.size a ≤ S1000000x64.size a) ∧
  (∀ a, (k0_off304 v1405) a + S1x64.size a ≤ S1000000x64.size a) ∧
  (∀ a, (k0_off305 v1405) a + S1x1.size a ≤ S1000000x1.size a)
instance k0_chk101.dec : ∀ (v1405 : BitVec 32), Decidable (k0_chk101 v1405) := fun v1405 => decidable_of_iff' _ (Iff.of_eq (k0_chk101.eq_1 v1405))
theorem k0_off302_inb : ∀ (v1405 : BitVec 32) (k0_hw101 : k0_chk101 v1405), ∀ a, (k0_off302 v1405) a + S1x64.size a ≤ S1000000x64.size a := fun v1405 k0_hw101 => k0_hw101.1
theorem k0_off304_inb : ∀ (v1405 : BitVec 32) (k0_hw101 : k0_chk101 v1405), ∀ a, (k0_off304 v1405) a + S1x64.size a ≤ S1000000x64.size a := fun v1405 k0_hw101 => k0_hw101.2.1
theorem k0_off305_inb : ∀ (v1405 : BitVec 32) (k0_hw101 : k0_chk101 v1405), ∀ a, (k0_off305 v1405) a + S1x1.size a ≤ S1000000x1.size a := fun v1405 k0_hw101 => k0_hw101.2.2

def k0_off306 (v1407 : BitVec 32) : Fin 2 → Nat :=
  let c0_i32_1105 : BitVec 32 := 0#32
  ![v1407.toNat, 0]

def k0_chk102 (v1407 : BitVec 32) : Prop :=
  (∀ a, (k0_off303 v1407) a + S1x64.size a ≤ S1000000x64.size a) ∧
  (∀ a, (k0_off306 v1407) a + S1x1.size a ≤ S1000000x1.size a)
instance k0_chk102.dec : ∀ (v1407 : BitVec 32), Decidable (k0_chk102 v1407) := fun v1407 => decidable_of_iff' _ (Iff.of_eq (k0_chk102.eq_1 v1407))
theorem k0_off303_inb : ∀ (v1407 : BitVec 32) (k0_hw102 : k0_chk102 v1407), ∀ a, (k0_off303 v1407) a + S1x64.size a ≤ S1000000x64.size a := fun v1407 k0_hw102 => k0_hw102.1
theorem k0_off306_inb : ∀ (v1407 : BitVec 32) (k0_hw102 : k0_chk102 v1407), ∀ a, (k0_off306 v1407) a + S1x1.size a ≤ S1000000x1.size a := fun v1407 k0_hw102 => k0_hw102.2

def k0_off307 (i : grid0.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v1431 : BitVec 32 := Scalar.addi v0 c51_i32
  let v1432 : Index := Scalar.indexCast v1431
  ![v1432.toNat]
def k0_off308 (v1433 : BitVec 32) : Fin 2 → Nat :=
  let c0_i32_1123 : BitVec 32 := 0#32
  ![v1433.toNat, 0]

def k0_off309 (v1435 : BitVec 32) : Fin 2 → Nat :=
  let c0_i32_1124 : BitVec 32 := 0#32
  ![v1435.toNat, 0]

def k0_off310 (v1433 : BitVec 32) : Fin 2 → Nat :=
  let c0_i32_1125 : BitVec 32 := 0#32
  ![v1433.toNat, 0]
def k0_off311 (v1433 : BitVec 32) : Fin 2 → Nat :=
  let c0_i32_1126 : BitVec 32 := 0#32
  ![v1433.toNat, 0]

def k0_chk103 (v1433 : BitVec 32) : Prop :=
  (∀ a, (k0_off308 v1433) a + S1x64.size a ≤ S1000000x64.size a) ∧
  (∀ a, (k0_off310 v1433) a + S1x64.size a ≤ S1000000x64.size a) ∧
  (∀ a, (k0_off311 v1433) a + S1x1.size a ≤ S1000000x1.size a)
instance k0_chk103.dec : ∀ (v1433 : BitVec 32), Decidable (k0_chk103 v1433) := fun v1433 => decidable_of_iff' _ (Iff.of_eq (k0_chk103.eq_1 v1433))
theorem k0_off308_inb : ∀ (v1433 : BitVec 32) (k0_hw103 : k0_chk103 v1433), ∀ a, (k0_off308 v1433) a + S1x64.size a ≤ S1000000x64.size a := fun v1433 k0_hw103 => k0_hw103.1
theorem k0_off310_inb : ∀ (v1433 : BitVec 32) (k0_hw103 : k0_chk103 v1433), ∀ a, (k0_off310 v1433) a + S1x64.size a ≤ S1000000x64.size a := fun v1433 k0_hw103 => k0_hw103.2.1
theorem k0_off311_inb : ∀ (v1433 : BitVec 32) (k0_hw103 : k0_chk103 v1433), ∀ a, (k0_off311 v1433) a + S1x1.size a ≤ S1000000x1.size a := fun v1433 k0_hw103 => k0_hw103.2.2

def k0_off312 (v1435 : BitVec 32) : Fin 2 → Nat :=
  let c0_i32_1127 : BitVec 32 := 0#32
  ![v1435.toNat, 0]

def k0_chk104 (v1435 : BitVec 32) : Prop :=
  (∀ a, (k0_off309 v1435) a + S1x64.size a ≤ S1000000x64.size a) ∧
  (∀ a, (k0_off312 v1435) a + S1x1.size a ≤ S1000000x1.size a)
instance k0_chk104.dec : ∀ (v1435 : BitVec 32), Decidable (k0_chk104 v1435) := fun v1435 => decidable_of_iff' _ (Iff.of_eq (k0_chk104.eq_1 v1435))
theorem k0_off309_inb : ∀ (v1435 : BitVec 32) (k0_hw104 : k0_chk104 v1435), ∀ a, (k0_off309 v1435) a + S1x64.size a ≤ S1000000x64.size a := fun v1435 k0_hw104 => k0_hw104.1
theorem k0_off312_inb : ∀ (v1435 : BitVec 32) (k0_hw104 : k0_chk104 v1435), ∀ a, (k0_off312 v1435) a + S1x1.size a ≤ S1000000x1.size a := fun v1435 k0_hw104 => k0_hw104.2

def k0_off313 (i : grid0.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v1459 : BitVec 32 := Scalar.addi v0 c52_i32
  let v1460 : Index := Scalar.indexCast v1459
  ![v1460.toNat]
def k0_off314 (v1461 : BitVec 32) : Fin 2 → Nat :=
  let c0_i32_1145 : BitVec 32 := 0#32
  ![v1461.toNat, 0]

def k0_off315 (v1463 : BitVec 32) : Fin 2 → Nat :=
  let c0_i32_1146 : BitVec 32 := 0#32
  ![v1463.toNat, 0]

def k0_off316 (v1461 : BitVec 32) : Fin 2 → Nat :=
  let c0_i32_1147 : BitVec 32 := 0#32
  ![v1461.toNat, 0]
def k0_off317 (v1461 : BitVec 32) : Fin 2 → Nat :=
  let c0_i32_1148 : BitVec 32 := 0#32
  ![v1461.toNat, 0]

def k0_chk105 (v1461 : BitVec 32) : Prop :=
  (∀ a, (k0_off314 v1461) a + S1x64.size a ≤ S1000000x64.size a) ∧
  (∀ a, (k0_off316 v1461) a + S1x64.size a ≤ S1000000x64.size a) ∧
  (∀ a, (k0_off317 v1461) a + S1x1.size a ≤ S1000000x1.size a)
instance k0_chk105.dec : ∀ (v1461 : BitVec 32), Decidable (k0_chk105 v1461) := fun v1461 => decidable_of_iff' _ (Iff.of_eq (k0_chk105.eq_1 v1461))
theorem k0_off314_inb : ∀ (v1461 : BitVec 32) (k0_hw105 : k0_chk105 v1461), ∀ a, (k0_off314 v1461) a + S1x64.size a ≤ S1000000x64.size a := fun v1461 k0_hw105 => k0_hw105.1
theorem k0_off316_inb : ∀ (v1461 : BitVec 32) (k0_hw105 : k0_chk105 v1461), ∀ a, (k0_off316 v1461) a + S1x64.size a ≤ S1000000x64.size a := fun v1461 k0_hw105 => k0_hw105.2.1
theorem k0_off317_inb : ∀ (v1461 : BitVec 32) (k0_hw105 : k0_chk105 v1461), ∀ a, (k0_off317 v1461) a + S1x1.size a ≤ S1000000x1.size a := fun v1461 k0_hw105 => k0_hw105.2.2

def k0_off318 (v1463 : BitVec 32) : Fin 2 → Nat :=
  let c0_i32_1149 : BitVec 32 := 0#32
  ![v1463.toNat, 0]

def k0_chk106 (v1463 : BitVec 32) : Prop :=
  (∀ a, (k0_off315 v1463) a + S1x64.size a ≤ S1000000x64.size a) ∧
  (∀ a, (k0_off318 v1463) a + S1x1.size a ≤ S1000000x1.size a)
instance k0_chk106.dec : ∀ (v1463 : BitVec 32), Decidable (k0_chk106 v1463) := fun v1463 => decidable_of_iff' _ (Iff.of_eq (k0_chk106.eq_1 v1463))
theorem k0_off315_inb : ∀ (v1463 : BitVec 32) (k0_hw106 : k0_chk106 v1463), ∀ a, (k0_off315 v1463) a + S1x64.size a ≤ S1000000x64.size a := fun v1463 k0_hw106 => k0_hw106.1
theorem k0_off318_inb : ∀ (v1463 : BitVec 32) (k0_hw106 : k0_chk106 v1463), ∀ a, (k0_off318 v1463) a + S1x1.size a ≤ S1000000x1.size a := fun v1463 k0_hw106 => k0_hw106.2

def k0_off319 (i : grid0.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v1487 : BitVec 32 := Scalar.addi v0 c53_i32
  let v1488 : Index := Scalar.indexCast v1487
  ![v1488.toNat]
def k0_off320 (v1489 : BitVec 32) : Fin 2 → Nat :=
  let c0_i32_1167 : BitVec 32 := 0#32
  ![v1489.toNat, 0]

def k0_off321 (v1491 : BitVec 32) : Fin 2 → Nat :=
  let c0_i32_1168 : BitVec 32 := 0#32
  ![v1491.toNat, 0]

def k0_off322 (v1489 : BitVec 32) : Fin 2 → Nat :=
  let c0_i32_1169 : BitVec 32 := 0#32
  ![v1489.toNat, 0]
def k0_off323 (v1489 : BitVec 32) : Fin 2 → Nat :=
  let c0_i32_1170 : BitVec 32 := 0#32
  ![v1489.toNat, 0]

def k0_chk107 (v1489 : BitVec 32) : Prop :=
  (∀ a, (k0_off320 v1489) a + S1x64.size a ≤ S1000000x64.size a) ∧
  (∀ a, (k0_off322 v1489) a + S1x64.size a ≤ S1000000x64.size a) ∧
  (∀ a, (k0_off323 v1489) a + S1x1.size a ≤ S1000000x1.size a)
instance k0_chk107.dec : ∀ (v1489 : BitVec 32), Decidable (k0_chk107 v1489) := fun v1489 => decidable_of_iff' _ (Iff.of_eq (k0_chk107.eq_1 v1489))
theorem k0_off320_inb : ∀ (v1489 : BitVec 32) (k0_hw107 : k0_chk107 v1489), ∀ a, (k0_off320 v1489) a + S1x64.size a ≤ S1000000x64.size a := fun v1489 k0_hw107 => k0_hw107.1
theorem k0_off322_inb : ∀ (v1489 : BitVec 32) (k0_hw107 : k0_chk107 v1489), ∀ a, (k0_off322 v1489) a + S1x64.size a ≤ S1000000x64.size a := fun v1489 k0_hw107 => k0_hw107.2.1
theorem k0_off323_inb : ∀ (v1489 : BitVec 32) (k0_hw107 : k0_chk107 v1489), ∀ a, (k0_off323 v1489) a + S1x1.size a ≤ S1000000x1.size a := fun v1489 k0_hw107 => k0_hw107.2.2

def k0_off324 (v1491 : BitVec 32) : Fin 2 → Nat :=
  let c0_i32_1171 : BitVec 32 := 0#32
  ![v1491.toNat, 0]

def k0_chk108 (v1491 : BitVec 32) : Prop :=
  (∀ a, (k0_off321 v1491) a + S1x64.size a ≤ S1000000x64.size a) ∧
  (∀ a, (k0_off324 v1491) a + S1x1.size a ≤ S1000000x1.size a)
instance k0_chk108.dec : ∀ (v1491 : BitVec 32), Decidable (k0_chk108 v1491) := fun v1491 => decidable_of_iff' _ (Iff.of_eq (k0_chk108.eq_1 v1491))
theorem k0_off321_inb : ∀ (v1491 : BitVec 32) (k0_hw108 : k0_chk108 v1491), ∀ a, (k0_off321 v1491) a + S1x64.size a ≤ S1000000x64.size a := fun v1491 k0_hw108 => k0_hw108.1
theorem k0_off324_inb : ∀ (v1491 : BitVec 32) (k0_hw108 : k0_chk108 v1491), ∀ a, (k0_off324 v1491) a + S1x1.size a ≤ S1000000x1.size a := fun v1491 k0_hw108 => k0_hw108.2

def k0_off325 (i : grid0.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v1515 : BitVec 32 := Scalar.addi v0 c54_i32
  let v1516 : Index := Scalar.indexCast v1515
  ![v1516.toNat]
def k0_off326 (v1517 : BitVec 32) : Fin 2 → Nat :=
  let c0_i32_1189 : BitVec 32 := 0#32
  ![v1517.toNat, 0]

def k0_off327 (v1519 : BitVec 32) : Fin 2 → Nat :=
  let c0_i32_1190 : BitVec 32 := 0#32
  ![v1519.toNat, 0]

def k0_off328 (v1517 : BitVec 32) : Fin 2 → Nat :=
  let c0_i32_1191 : BitVec 32 := 0#32
  ![v1517.toNat, 0]
def k0_off329 (v1517 : BitVec 32) : Fin 2 → Nat :=
  let c0_i32_1192 : BitVec 32 := 0#32
  ![v1517.toNat, 0]

def k0_chk109 (v1517 : BitVec 32) : Prop :=
  (∀ a, (k0_off326 v1517) a + S1x64.size a ≤ S1000000x64.size a) ∧
  (∀ a, (k0_off328 v1517) a + S1x64.size a ≤ S1000000x64.size a) ∧
  (∀ a, (k0_off329 v1517) a + S1x1.size a ≤ S1000000x1.size a)
instance k0_chk109.dec : ∀ (v1517 : BitVec 32), Decidable (k0_chk109 v1517) := fun v1517 => decidable_of_iff' _ (Iff.of_eq (k0_chk109.eq_1 v1517))
theorem k0_off326_inb : ∀ (v1517 : BitVec 32) (k0_hw109 : k0_chk109 v1517), ∀ a, (k0_off326 v1517) a + S1x64.size a ≤ S1000000x64.size a := fun v1517 k0_hw109 => k0_hw109.1
theorem k0_off328_inb : ∀ (v1517 : BitVec 32) (k0_hw109 : k0_chk109 v1517), ∀ a, (k0_off328 v1517) a + S1x64.size a ≤ S1000000x64.size a := fun v1517 k0_hw109 => k0_hw109.2.1
theorem k0_off329_inb : ∀ (v1517 : BitVec 32) (k0_hw109 : k0_chk109 v1517), ∀ a, (k0_off329 v1517) a + S1x1.size a ≤ S1000000x1.size a := fun v1517 k0_hw109 => k0_hw109.2.2

def k0_off330 (v1519 : BitVec 32) : Fin 2 → Nat :=
  let c0_i32_1193 : BitVec 32 := 0#32
  ![v1519.toNat, 0]

def k0_chk110 (v1519 : BitVec 32) : Prop :=
  (∀ a, (k0_off327 v1519) a + S1x64.size a ≤ S1000000x64.size a) ∧
  (∀ a, (k0_off330 v1519) a + S1x1.size a ≤ S1000000x1.size a)
instance k0_chk110.dec : ∀ (v1519 : BitVec 32), Decidable (k0_chk110 v1519) := fun v1519 => decidable_of_iff' _ (Iff.of_eq (k0_chk110.eq_1 v1519))
theorem k0_off327_inb : ∀ (v1519 : BitVec 32) (k0_hw110 : k0_chk110 v1519), ∀ a, (k0_off327 v1519) a + S1x64.size a ≤ S1000000x64.size a := fun v1519 k0_hw110 => k0_hw110.1
theorem k0_off330_inb : ∀ (v1519 : BitVec 32) (k0_hw110 : k0_chk110 v1519), ∀ a, (k0_off330 v1519) a + S1x1.size a ≤ S1000000x1.size a := fun v1519 k0_hw110 => k0_hw110.2

def k0_off331 (i : grid0.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v1543 : BitVec 32 := Scalar.addi v0 c55_i32
  let v1544 : Index := Scalar.indexCast v1543
  ![v1544.toNat]
def k0_off332 (v1545 : BitVec 32) : Fin 2 → Nat :=
  let c0_i32_1211 : BitVec 32 := 0#32
  ![v1545.toNat, 0]

def k0_off333 (v1547 : BitVec 32) : Fin 2 → Nat :=
  let c0_i32_1212 : BitVec 32 := 0#32
  ![v1547.toNat, 0]

def k0_off334 (v1545 : BitVec 32) : Fin 2 → Nat :=
  let c0_i32_1213 : BitVec 32 := 0#32
  ![v1545.toNat, 0]
def k0_off335 (v1545 : BitVec 32) : Fin 2 → Nat :=
  let c0_i32_1214 : BitVec 32 := 0#32
  ![v1545.toNat, 0]

def k0_chk111 (v1545 : BitVec 32) : Prop :=
  (∀ a, (k0_off332 v1545) a + S1x64.size a ≤ S1000000x64.size a) ∧
  (∀ a, (k0_off334 v1545) a + S1x64.size a ≤ S1000000x64.size a) ∧
  (∀ a, (k0_off335 v1545) a + S1x1.size a ≤ S1000000x1.size a)
instance k0_chk111.dec : ∀ (v1545 : BitVec 32), Decidable (k0_chk111 v1545) := fun v1545 => decidable_of_iff' _ (Iff.of_eq (k0_chk111.eq_1 v1545))
theorem k0_off332_inb : ∀ (v1545 : BitVec 32) (k0_hw111 : k0_chk111 v1545), ∀ a, (k0_off332 v1545) a + S1x64.size a ≤ S1000000x64.size a := fun v1545 k0_hw111 => k0_hw111.1
theorem k0_off334_inb : ∀ (v1545 : BitVec 32) (k0_hw111 : k0_chk111 v1545), ∀ a, (k0_off334 v1545) a + S1x64.size a ≤ S1000000x64.size a := fun v1545 k0_hw111 => k0_hw111.2.1
theorem k0_off335_inb : ∀ (v1545 : BitVec 32) (k0_hw111 : k0_chk111 v1545), ∀ a, (k0_off335 v1545) a + S1x1.size a ≤ S1000000x1.size a := fun v1545 k0_hw111 => k0_hw111.2.2

def k0_off336 (v1547 : BitVec 32) : Fin 2 → Nat :=
  let c0_i32_1215 : BitVec 32 := 0#32
  ![v1547.toNat, 0]

def k0_chk112 (v1547 : BitVec 32) : Prop :=
  (∀ a, (k0_off333 v1547) a + S1x64.size a ≤ S1000000x64.size a) ∧
  (∀ a, (k0_off336 v1547) a + S1x1.size a ≤ S1000000x1.size a)
instance k0_chk112.dec : ∀ (v1547 : BitVec 32), Decidable (k0_chk112 v1547) := fun v1547 => decidable_of_iff' _ (Iff.of_eq (k0_chk112.eq_1 v1547))
theorem k0_off333_inb : ∀ (v1547 : BitVec 32) (k0_hw112 : k0_chk112 v1547), ∀ a, (k0_off333 v1547) a + S1x64.size a ≤ S1000000x64.size a := fun v1547 k0_hw112 => k0_hw112.1
theorem k0_off336_inb : ∀ (v1547 : BitVec 32) (k0_hw112 : k0_chk112 v1547), ∀ a, (k0_off336 v1547) a + S1x1.size a ≤ S1000000x1.size a := fun v1547 k0_hw112 => k0_hw112.2

def k0_off337 (i : grid0.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v1571 : BitVec 32 := Scalar.addi v0 c56_i32
  let v1572 : Index := Scalar.indexCast v1571
  ![v1572.toNat]
def k0_off338 (v1573 : BitVec 32) : Fin 2 → Nat :=
  let c0_i32_1233 : BitVec 32 := 0#32
  ![v1573.toNat, 0]

def k0_off339 (v1575 : BitVec 32) : Fin 2 → Nat :=
  let c0_i32_1234 : BitVec 32 := 0#32
  ![v1575.toNat, 0]

def k0_off340 (v1573 : BitVec 32) : Fin 2 → Nat :=
  let c0_i32_1235 : BitVec 32 := 0#32
  ![v1573.toNat, 0]
def k0_off341 (v1573 : BitVec 32) : Fin 2 → Nat :=
  let c0_i32_1236 : BitVec 32 := 0#32
  ![v1573.toNat, 0]

def k0_chk113 (v1573 : BitVec 32) : Prop :=
  (∀ a, (k0_off338 v1573) a + S1x64.size a ≤ S1000000x64.size a) ∧
  (∀ a, (k0_off340 v1573) a + S1x64.size a ≤ S1000000x64.size a) ∧
  (∀ a, (k0_off341 v1573) a + S1x1.size a ≤ S1000000x1.size a)
instance k0_chk113.dec : ∀ (v1573 : BitVec 32), Decidable (k0_chk113 v1573) := fun v1573 => decidable_of_iff' _ (Iff.of_eq (k0_chk113.eq_1 v1573))
theorem k0_off338_inb : ∀ (v1573 : BitVec 32) (k0_hw113 : k0_chk113 v1573), ∀ a, (k0_off338 v1573) a + S1x64.size a ≤ S1000000x64.size a := fun v1573 k0_hw113 => k0_hw113.1
theorem k0_off340_inb : ∀ (v1573 : BitVec 32) (k0_hw113 : k0_chk113 v1573), ∀ a, (k0_off340 v1573) a + S1x64.size a ≤ S1000000x64.size a := fun v1573 k0_hw113 => k0_hw113.2.1
theorem k0_off341_inb : ∀ (v1573 : BitVec 32) (k0_hw113 : k0_chk113 v1573), ∀ a, (k0_off341 v1573) a + S1x1.size a ≤ S1000000x1.size a := fun v1573 k0_hw113 => k0_hw113.2.2

def k0_off342 (v1575 : BitVec 32) : Fin 2 → Nat :=
  let c0_i32_1237 : BitVec 32 := 0#32
  ![v1575.toNat, 0]

def k0_chk114 (v1575 : BitVec 32) : Prop :=
  (∀ a, (k0_off339 v1575) a + S1x64.size a ≤ S1000000x64.size a) ∧
  (∀ a, (k0_off342 v1575) a + S1x1.size a ≤ S1000000x1.size a)
instance k0_chk114.dec : ∀ (v1575 : BitVec 32), Decidable (k0_chk114 v1575) := fun v1575 => decidable_of_iff' _ (Iff.of_eq (k0_chk114.eq_1 v1575))
theorem k0_off339_inb : ∀ (v1575 : BitVec 32) (k0_hw114 : k0_chk114 v1575), ∀ a, (k0_off339 v1575) a + S1x64.size a ≤ S1000000x64.size a := fun v1575 k0_hw114 => k0_hw114.1
theorem k0_off342_inb : ∀ (v1575 : BitVec 32) (k0_hw114 : k0_chk114 v1575), ∀ a, (k0_off342 v1575) a + S1x1.size a ≤ S1000000x1.size a := fun v1575 k0_hw114 => k0_hw114.2

def k0_off343 (i : grid0.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v1599 : BitVec 32 := Scalar.addi v0 c57_i32
  let v1600 : Index := Scalar.indexCast v1599
  ![v1600.toNat]
def k0_off344 (v1601 : BitVec 32) : Fin 2 → Nat :=
  let c0_i32_1255 : BitVec 32 := 0#32
  ![v1601.toNat, 0]

def k0_off345 (v1603 : BitVec 32) : Fin 2 → Nat :=
  let c0_i32_1256 : BitVec 32 := 0#32
  ![v1603.toNat, 0]

def k0_off346 (v1601 : BitVec 32) : Fin 2 → Nat :=
  let c0_i32_1257 : BitVec 32 := 0#32
  ![v1601.toNat, 0]
def k0_off347 (v1601 : BitVec 32) : Fin 2 → Nat :=
  let c0_i32_1258 : BitVec 32 := 0#32
  ![v1601.toNat, 0]

def k0_chk115 (v1601 : BitVec 32) : Prop :=
  (∀ a, (k0_off344 v1601) a + S1x64.size a ≤ S1000000x64.size a) ∧
  (∀ a, (k0_off346 v1601) a + S1x64.size a ≤ S1000000x64.size a) ∧
  (∀ a, (k0_off347 v1601) a + S1x1.size a ≤ S1000000x1.size a)
instance k0_chk115.dec : ∀ (v1601 : BitVec 32), Decidable (k0_chk115 v1601) := fun v1601 => decidable_of_iff' _ (Iff.of_eq (k0_chk115.eq_1 v1601))
theorem k0_off344_inb : ∀ (v1601 : BitVec 32) (k0_hw115 : k0_chk115 v1601), ∀ a, (k0_off344 v1601) a + S1x64.size a ≤ S1000000x64.size a := fun v1601 k0_hw115 => k0_hw115.1
theorem k0_off346_inb : ∀ (v1601 : BitVec 32) (k0_hw115 : k0_chk115 v1601), ∀ a, (k0_off346 v1601) a + S1x64.size a ≤ S1000000x64.size a := fun v1601 k0_hw115 => k0_hw115.2.1
theorem k0_off347_inb : ∀ (v1601 : BitVec 32) (k0_hw115 : k0_chk115 v1601), ∀ a, (k0_off347 v1601) a + S1x1.size a ≤ S1000000x1.size a := fun v1601 k0_hw115 => k0_hw115.2.2

def k0_off348 (v1603 : BitVec 32) : Fin 2 → Nat :=
  let c0_i32_1259 : BitVec 32 := 0#32
  ![v1603.toNat, 0]

def k0_chk116 (v1603 : BitVec 32) : Prop :=
  (∀ a, (k0_off345 v1603) a + S1x64.size a ≤ S1000000x64.size a) ∧
  (∀ a, (k0_off348 v1603) a + S1x1.size a ≤ S1000000x1.size a)
instance k0_chk116.dec : ∀ (v1603 : BitVec 32), Decidable (k0_chk116 v1603) := fun v1603 => decidable_of_iff' _ (Iff.of_eq (k0_chk116.eq_1 v1603))
theorem k0_off345_inb : ∀ (v1603 : BitVec 32) (k0_hw116 : k0_chk116 v1603), ∀ a, (k0_off345 v1603) a + S1x64.size a ≤ S1000000x64.size a := fun v1603 k0_hw116 => k0_hw116.1
theorem k0_off348_inb : ∀ (v1603 : BitVec 32) (k0_hw116 : k0_chk116 v1603), ∀ a, (k0_off348 v1603) a + S1x1.size a ≤ S1000000x1.size a := fun v1603 k0_hw116 => k0_hw116.2

def k0_off349 (i : grid0.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v1627 : BitVec 32 := Scalar.addi v0 c58_i32
  let v1628 : Index := Scalar.indexCast v1627
  ![v1628.toNat]
def k0_off350 (v1629 : BitVec 32) : Fin 2 → Nat :=
  let c0_i32_1277 : BitVec 32 := 0#32
  ![v1629.toNat, 0]

def k0_off351 (v1631 : BitVec 32) : Fin 2 → Nat :=
  let c0_i32_1278 : BitVec 32 := 0#32
  ![v1631.toNat, 0]

def k0_off352 (v1629 : BitVec 32) : Fin 2 → Nat :=
  let c0_i32_1279 : BitVec 32 := 0#32
  ![v1629.toNat, 0]
def k0_off353 (v1629 : BitVec 32) : Fin 2 → Nat :=
  let c0_i32_1280 : BitVec 32 := 0#32
  ![v1629.toNat, 0]

def k0_chk117 (v1629 : BitVec 32) : Prop :=
  (∀ a, (k0_off350 v1629) a + S1x64.size a ≤ S1000000x64.size a) ∧
  (∀ a, (k0_off352 v1629) a + S1x64.size a ≤ S1000000x64.size a) ∧
  (∀ a, (k0_off353 v1629) a + S1x1.size a ≤ S1000000x1.size a)
instance k0_chk117.dec : ∀ (v1629 : BitVec 32), Decidable (k0_chk117 v1629) := fun v1629 => decidable_of_iff' _ (Iff.of_eq (k0_chk117.eq_1 v1629))
theorem k0_off350_inb : ∀ (v1629 : BitVec 32) (k0_hw117 : k0_chk117 v1629), ∀ a, (k0_off350 v1629) a + S1x64.size a ≤ S1000000x64.size a := fun v1629 k0_hw117 => k0_hw117.1
theorem k0_off352_inb : ∀ (v1629 : BitVec 32) (k0_hw117 : k0_chk117 v1629), ∀ a, (k0_off352 v1629) a + S1x64.size a ≤ S1000000x64.size a := fun v1629 k0_hw117 => k0_hw117.2.1
theorem k0_off353_inb : ∀ (v1629 : BitVec 32) (k0_hw117 : k0_chk117 v1629), ∀ a, (k0_off353 v1629) a + S1x1.size a ≤ S1000000x1.size a := fun v1629 k0_hw117 => k0_hw117.2.2

def k0_off354 (v1631 : BitVec 32) : Fin 2 → Nat :=
  let c0_i32_1281 : BitVec 32 := 0#32
  ![v1631.toNat, 0]

def k0_chk118 (v1631 : BitVec 32) : Prop :=
  (∀ a, (k0_off351 v1631) a + S1x64.size a ≤ S1000000x64.size a) ∧
  (∀ a, (k0_off354 v1631) a + S1x1.size a ≤ S1000000x1.size a)
instance k0_chk118.dec : ∀ (v1631 : BitVec 32), Decidable (k0_chk118 v1631) := fun v1631 => decidable_of_iff' _ (Iff.of_eq (k0_chk118.eq_1 v1631))
theorem k0_off351_inb : ∀ (v1631 : BitVec 32) (k0_hw118 : k0_chk118 v1631), ∀ a, (k0_off351 v1631) a + S1x64.size a ≤ S1000000x64.size a := fun v1631 k0_hw118 => k0_hw118.1
theorem k0_off354_inb : ∀ (v1631 : BitVec 32) (k0_hw118 : k0_chk118 v1631), ∀ a, (k0_off354 v1631) a + S1x1.size a ≤ S1000000x1.size a := fun v1631 k0_hw118 => k0_hw118.2

def k0_off355 (i : grid0.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v1655 : BitVec 32 := Scalar.addi v0 c59_i32
  let v1656 : Index := Scalar.indexCast v1655
  ![v1656.toNat]
def k0_off356 (v1657 : BitVec 32) : Fin 2 → Nat :=
  let c0_i32_1299 : BitVec 32 := 0#32
  ![v1657.toNat, 0]

def k0_off357 (v1659 : BitVec 32) : Fin 2 → Nat :=
  let c0_i32_1300 : BitVec 32 := 0#32
  ![v1659.toNat, 0]

def k0_off358 (v1657 : BitVec 32) : Fin 2 → Nat :=
  let c0_i32_1301 : BitVec 32 := 0#32
  ![v1657.toNat, 0]
def k0_off359 (v1657 : BitVec 32) : Fin 2 → Nat :=
  let c0_i32_1302 : BitVec 32 := 0#32
  ![v1657.toNat, 0]

def k0_chk119 (v1657 : BitVec 32) : Prop :=
  (∀ a, (k0_off356 v1657) a + S1x64.size a ≤ S1000000x64.size a) ∧
  (∀ a, (k0_off358 v1657) a + S1x64.size a ≤ S1000000x64.size a) ∧
  (∀ a, (k0_off359 v1657) a + S1x1.size a ≤ S1000000x1.size a)
instance k0_chk119.dec : ∀ (v1657 : BitVec 32), Decidable (k0_chk119 v1657) := fun v1657 => decidable_of_iff' _ (Iff.of_eq (k0_chk119.eq_1 v1657))
theorem k0_off356_inb : ∀ (v1657 : BitVec 32) (k0_hw119 : k0_chk119 v1657), ∀ a, (k0_off356 v1657) a + S1x64.size a ≤ S1000000x64.size a := fun v1657 k0_hw119 => k0_hw119.1
theorem k0_off358_inb : ∀ (v1657 : BitVec 32) (k0_hw119 : k0_chk119 v1657), ∀ a, (k0_off358 v1657) a + S1x64.size a ≤ S1000000x64.size a := fun v1657 k0_hw119 => k0_hw119.2.1
theorem k0_off359_inb : ∀ (v1657 : BitVec 32) (k0_hw119 : k0_chk119 v1657), ∀ a, (k0_off359 v1657) a + S1x1.size a ≤ S1000000x1.size a := fun v1657 k0_hw119 => k0_hw119.2.2

def k0_off360 (v1659 : BitVec 32) : Fin 2 → Nat :=
  let c0_i32_1303 : BitVec 32 := 0#32
  ![v1659.toNat, 0]

def k0_chk120 (v1659 : BitVec 32) : Prop :=
  (∀ a, (k0_off357 v1659) a + S1x64.size a ≤ S1000000x64.size a) ∧
  (∀ a, (k0_off360 v1659) a + S1x1.size a ≤ S1000000x1.size a)
instance k0_chk120.dec : ∀ (v1659 : BitVec 32), Decidable (k0_chk120 v1659) := fun v1659 => decidable_of_iff' _ (Iff.of_eq (k0_chk120.eq_1 v1659))
theorem k0_off357_inb : ∀ (v1659 : BitVec 32) (k0_hw120 : k0_chk120 v1659), ∀ a, (k0_off357 v1659) a + S1x64.size a ≤ S1000000x64.size a := fun v1659 k0_hw120 => k0_hw120.1
theorem k0_off360_inb : ∀ (v1659 : BitVec 32) (k0_hw120 : k0_chk120 v1659), ∀ a, (k0_off360 v1659) a + S1x1.size a ≤ S1000000x1.size a := fun v1659 k0_hw120 => k0_hw120.2

def k0_off361 (i : grid0.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v1683 : BitVec 32 := Scalar.addi v0 c60_i32
  let v1684 : Index := Scalar.indexCast v1683
  ![v1684.toNat]
def k0_off362 (v1685 : BitVec 32) : Fin 2 → Nat :=
  let c0_i32_1321 : BitVec 32 := 0#32
  ![v1685.toNat, 0]

def k0_off363 (v1687 : BitVec 32) : Fin 2 → Nat :=
  let c0_i32_1322 : BitVec 32 := 0#32
  ![v1687.toNat, 0]

def k0_off364 (v1685 : BitVec 32) : Fin 2 → Nat :=
  let c0_i32_1323 : BitVec 32 := 0#32
  ![v1685.toNat, 0]
def k0_off365 (v1685 : BitVec 32) : Fin 2 → Nat :=
  let c0_i32_1324 : BitVec 32 := 0#32
  ![v1685.toNat, 0]

def k0_chk121 (v1685 : BitVec 32) : Prop :=
  (∀ a, (k0_off362 v1685) a + S1x64.size a ≤ S1000000x64.size a) ∧
  (∀ a, (k0_off364 v1685) a + S1x64.size a ≤ S1000000x64.size a) ∧
  (∀ a, (k0_off365 v1685) a + S1x1.size a ≤ S1000000x1.size a)
instance k0_chk121.dec : ∀ (v1685 : BitVec 32), Decidable (k0_chk121 v1685) := fun v1685 => decidable_of_iff' _ (Iff.of_eq (k0_chk121.eq_1 v1685))
theorem k0_off362_inb : ∀ (v1685 : BitVec 32) (k0_hw121 : k0_chk121 v1685), ∀ a, (k0_off362 v1685) a + S1x64.size a ≤ S1000000x64.size a := fun v1685 k0_hw121 => k0_hw121.1
theorem k0_off364_inb : ∀ (v1685 : BitVec 32) (k0_hw121 : k0_chk121 v1685), ∀ a, (k0_off364 v1685) a + S1x64.size a ≤ S1000000x64.size a := fun v1685 k0_hw121 => k0_hw121.2.1
theorem k0_off365_inb : ∀ (v1685 : BitVec 32) (k0_hw121 : k0_chk121 v1685), ∀ a, (k0_off365 v1685) a + S1x1.size a ≤ S1000000x1.size a := fun v1685 k0_hw121 => k0_hw121.2.2

def k0_off366 (v1687 : BitVec 32) : Fin 2 → Nat :=
  let c0_i32_1325 : BitVec 32 := 0#32
  ![v1687.toNat, 0]

def k0_chk122 (v1687 : BitVec 32) : Prop :=
  (∀ a, (k0_off363 v1687) a + S1x64.size a ≤ S1000000x64.size a) ∧
  (∀ a, (k0_off366 v1687) a + S1x1.size a ≤ S1000000x1.size a)
instance k0_chk122.dec : ∀ (v1687 : BitVec 32), Decidable (k0_chk122 v1687) := fun v1687 => decidable_of_iff' _ (Iff.of_eq (k0_chk122.eq_1 v1687))
theorem k0_off363_inb : ∀ (v1687 : BitVec 32) (k0_hw122 : k0_chk122 v1687), ∀ a, (k0_off363 v1687) a + S1x64.size a ≤ S1000000x64.size a := fun v1687 k0_hw122 => k0_hw122.1
theorem k0_off366_inb : ∀ (v1687 : BitVec 32) (k0_hw122 : k0_chk122 v1687), ∀ a, (k0_off366 v1687) a + S1x1.size a ≤ S1000000x1.size a := fun v1687 k0_hw122 => k0_hw122.2

def k0_off367 (i : grid0.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v1711 : BitVec 32 := Scalar.addi v0 c61_i32
  let v1712 : Index := Scalar.indexCast v1711
  ![v1712.toNat]
def k0_off368 (v1713 : BitVec 32) : Fin 2 → Nat :=
  let c0_i32_1343 : BitVec 32 := 0#32
  ![v1713.toNat, 0]

def k0_off369 (v1715 : BitVec 32) : Fin 2 → Nat :=
  let c0_i32_1344 : BitVec 32 := 0#32
  ![v1715.toNat, 0]

def k0_off370 (v1713 : BitVec 32) : Fin 2 → Nat :=
  let c0_i32_1345 : BitVec 32 := 0#32
  ![v1713.toNat, 0]
def k0_off371 (v1713 : BitVec 32) : Fin 2 → Nat :=
  let c0_i32_1346 : BitVec 32 := 0#32
  ![v1713.toNat, 0]

def k0_chk123 (v1713 : BitVec 32) : Prop :=
  (∀ a, (k0_off368 v1713) a + S1x64.size a ≤ S1000000x64.size a) ∧
  (∀ a, (k0_off370 v1713) a + S1x64.size a ≤ S1000000x64.size a) ∧
  (∀ a, (k0_off371 v1713) a + S1x1.size a ≤ S1000000x1.size a)
instance k0_chk123.dec : ∀ (v1713 : BitVec 32), Decidable (k0_chk123 v1713) := fun v1713 => decidable_of_iff' _ (Iff.of_eq (k0_chk123.eq_1 v1713))
theorem k0_off368_inb : ∀ (v1713 : BitVec 32) (k0_hw123 : k0_chk123 v1713), ∀ a, (k0_off368 v1713) a + S1x64.size a ≤ S1000000x64.size a := fun v1713 k0_hw123 => k0_hw123.1
theorem k0_off370_inb : ∀ (v1713 : BitVec 32) (k0_hw123 : k0_chk123 v1713), ∀ a, (k0_off370 v1713) a + S1x64.size a ≤ S1000000x64.size a := fun v1713 k0_hw123 => k0_hw123.2.1
theorem k0_off371_inb : ∀ (v1713 : BitVec 32) (k0_hw123 : k0_chk123 v1713), ∀ a, (k0_off371 v1713) a + S1x1.size a ≤ S1000000x1.size a := fun v1713 k0_hw123 => k0_hw123.2.2

def k0_off372 (v1715 : BitVec 32) : Fin 2 → Nat :=
  let c0_i32_1347 : BitVec 32 := 0#32
  ![v1715.toNat, 0]

def k0_chk124 (v1715 : BitVec 32) : Prop :=
  (∀ a, (k0_off369 v1715) a + S1x64.size a ≤ S1000000x64.size a) ∧
  (∀ a, (k0_off372 v1715) a + S1x1.size a ≤ S1000000x1.size a)
instance k0_chk124.dec : ∀ (v1715 : BitVec 32), Decidable (k0_chk124 v1715) := fun v1715 => decidable_of_iff' _ (Iff.of_eq (k0_chk124.eq_1 v1715))
theorem k0_off369_inb : ∀ (v1715 : BitVec 32) (k0_hw124 : k0_chk124 v1715), ∀ a, (k0_off369 v1715) a + S1x64.size a ≤ S1000000x64.size a := fun v1715 k0_hw124 => k0_hw124.1
theorem k0_off372_inb : ∀ (v1715 : BitVec 32) (k0_hw124 : k0_chk124 v1715), ∀ a, (k0_off372 v1715) a + S1x1.size a ≤ S1000000x1.size a := fun v1715 k0_hw124 => k0_hw124.2

def k0_off373 (i : grid0.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v1739 : BitVec 32 := Scalar.addi v0 c62_i32
  let v1740 : Index := Scalar.indexCast v1739
  ![v1740.toNat]
def k0_off374 (v1741 : BitVec 32) : Fin 2 → Nat :=
  let c0_i32_1365 : BitVec 32 := 0#32
  ![v1741.toNat, 0]

def k0_off375 (v1743 : BitVec 32) : Fin 2 → Nat :=
  let c0_i32_1366 : BitVec 32 := 0#32
  ![v1743.toNat, 0]

def k0_off376 (v1741 : BitVec 32) : Fin 2 → Nat :=
  let c0_i32_1367 : BitVec 32 := 0#32
  ![v1741.toNat, 0]
def k0_off377 (v1741 : BitVec 32) : Fin 2 → Nat :=
  let c0_i32_1368 : BitVec 32 := 0#32
  ![v1741.toNat, 0]

def k0_chk125 (v1741 : BitVec 32) : Prop :=
  (∀ a, (k0_off374 v1741) a + S1x64.size a ≤ S1000000x64.size a) ∧
  (∀ a, (k0_off376 v1741) a + S1x64.size a ≤ S1000000x64.size a) ∧
  (∀ a, (k0_off377 v1741) a + S1x1.size a ≤ S1000000x1.size a)
instance k0_chk125.dec : ∀ (v1741 : BitVec 32), Decidable (k0_chk125 v1741) := fun v1741 => decidable_of_iff' _ (Iff.of_eq (k0_chk125.eq_1 v1741))
theorem k0_off374_inb : ∀ (v1741 : BitVec 32) (k0_hw125 : k0_chk125 v1741), ∀ a, (k0_off374 v1741) a + S1x64.size a ≤ S1000000x64.size a := fun v1741 k0_hw125 => k0_hw125.1
theorem k0_off376_inb : ∀ (v1741 : BitVec 32) (k0_hw125 : k0_chk125 v1741), ∀ a, (k0_off376 v1741) a + S1x64.size a ≤ S1000000x64.size a := fun v1741 k0_hw125 => k0_hw125.2.1
theorem k0_off377_inb : ∀ (v1741 : BitVec 32) (k0_hw125 : k0_chk125 v1741), ∀ a, (k0_off377 v1741) a + S1x1.size a ≤ S1000000x1.size a := fun v1741 k0_hw125 => k0_hw125.2.2

def k0_off378 (v1743 : BitVec 32) : Fin 2 → Nat :=
  let c0_i32_1369 : BitVec 32 := 0#32
  ![v1743.toNat, 0]

def k0_chk126 (v1743 : BitVec 32) : Prop :=
  (∀ a, (k0_off375 v1743) a + S1x64.size a ≤ S1000000x64.size a) ∧
  (∀ a, (k0_off378 v1743) a + S1x1.size a ≤ S1000000x1.size a)
instance k0_chk126.dec : ∀ (v1743 : BitVec 32), Decidable (k0_chk126 v1743) := fun v1743 => decidable_of_iff' _ (Iff.of_eq (k0_chk126.eq_1 v1743))
theorem k0_off375_inb : ∀ (v1743 : BitVec 32) (k0_hw126 : k0_chk126 v1743), ∀ a, (k0_off375 v1743) a + S1x64.size a ≤ S1000000x64.size a := fun v1743 k0_hw126 => k0_hw126.1
theorem k0_off378_inb : ∀ (v1743 : BitVec 32) (k0_hw126 : k0_chk126 v1743), ∀ a, (k0_off378 v1743) a + S1x1.size a ≤ S1000000x1.size a := fun v1743 k0_hw126 => k0_hw126.2

def k0_off379 (i : grid0.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v1767 : BitVec 32 := Scalar.addi v0 c63_i32
  let v1768 : Index := Scalar.indexCast v1767
  ![v1768.toNat]
def k0_off380 (v1769 : BitVec 32) : Fin 2 → Nat :=
  let c0_i32_1387 : BitVec 32 := 0#32
  ![v1769.toNat, 0]

def k0_off381 (v1771 : BitVec 32) : Fin 2 → Nat :=
  let c0_i32_1388 : BitVec 32 := 0#32
  ![v1771.toNat, 0]

def k0_off382 (v1769 : BitVec 32) : Fin 2 → Nat :=
  let c0_i32_1389 : BitVec 32 := 0#32
  ![v1769.toNat, 0]
def k0_off383 (v1769 : BitVec 32) : Fin 2 → Nat :=
  let c0_i32_1390 : BitVec 32 := 0#32
  ![v1769.toNat, 0]

def k0_chk127 (v1769 : BitVec 32) : Prop :=
  (∀ a, (k0_off380 v1769) a + S1x64.size a ≤ S1000000x64.size a) ∧
  (∀ a, (k0_off382 v1769) a + S1x64.size a ≤ S1000000x64.size a) ∧
  (∀ a, (k0_off383 v1769) a + S1x1.size a ≤ S1000000x1.size a)
instance k0_chk127.dec : ∀ (v1769 : BitVec 32), Decidable (k0_chk127 v1769) := fun v1769 => decidable_of_iff' _ (Iff.of_eq (k0_chk127.eq_1 v1769))
theorem k0_off380_inb : ∀ (v1769 : BitVec 32) (k0_hw127 : k0_chk127 v1769), ∀ a, (k0_off380 v1769) a + S1x64.size a ≤ S1000000x64.size a := fun v1769 k0_hw127 => k0_hw127.1
theorem k0_off382_inb : ∀ (v1769 : BitVec 32) (k0_hw127 : k0_chk127 v1769), ∀ a, (k0_off382 v1769) a + S1x64.size a ≤ S1000000x64.size a := fun v1769 k0_hw127 => k0_hw127.2.1
theorem k0_off383_inb : ∀ (v1769 : BitVec 32) (k0_hw127 : k0_chk127 v1769), ∀ a, (k0_off383 v1769) a + S1x1.size a ≤ S1000000x1.size a := fun v1769 k0_hw127 => k0_hw127.2.2

def k0_off384 (v1771 : BitVec 32) : Fin 2 → Nat :=
  let c0_i32_1391 : BitVec 32 := 0#32
  ![v1771.toNat, 0]

def k0_chk128 (v1771 : BitVec 32) : Prop :=
  (∀ a, (k0_off381 v1771) a + S1x64.size a ≤ S1000000x64.size a) ∧
  (∀ a, (k0_off384 v1771) a + S1x1.size a ≤ S1000000x1.size a)
instance k0_chk128.dec : ∀ (v1771 : BitVec 32), Decidable (k0_chk128 v1771) := fun v1771 => decidable_of_iff' _ (Iff.of_eq (k0_chk128.eq_1 v1771))
theorem k0_off381_inb : ∀ (v1771 : BitVec 32) (k0_hw128 : k0_chk128 v1771), ∀ a, (k0_off381 v1771) a + S1x64.size a ≤ S1000000x64.size a := fun v1771 k0_hw128 => k0_hw128.1
theorem k0_off384_inb : ∀ (v1771 : BitVec 32) (k0_hw128 : k0_chk128 v1771), ∀ a, (k0_off384 v1771) a + S1x1.size a ≤ S1000000x1.size a := fun v1771 k0_hw128 => k0_hw128.2

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  numel1_S1 : S1.numel = 1
  inb_S1x64_S1x64_0_0 : ∀ a, (![0, 0] : Fin 2 → Nat) a + S1x64.size a ≤ S1x64.size a
  h_S1x64 : 0 < S1x64.numel
  reduces_S1x64_S1 : S1x64.Reduces [1] S1
  inb_S64x1_S1x1_0_0 : ∀ a, (![0, 0] : Fin 2 → Nat) a + S1x1.size a ≤ S64x1.size a
  inb_S64x1_S1x1_1_0 : ∀ a, (![1, 0] : Fin 2 → Nat) a + S1x1.size a ≤ S64x1.size a
  inb_S64x1_S1x1_2_0 : ∀ a, (![2, 0] : Fin 2 → Nat) a + S1x1.size a ≤ S64x1.size a
  inb_S64x1_S1x1_3_0 : ∀ a, (![3, 0] : Fin 2 → Nat) a + S1x1.size a ≤ S64x1.size a
  inb_S64x1_S1x1_4_0 : ∀ a, (![4, 0] : Fin 2 → Nat) a + S1x1.size a ≤ S64x1.size a
  inb_S64x1_S1x1_5_0 : ∀ a, (![5, 0] : Fin 2 → Nat) a + S1x1.size a ≤ S64x1.size a
  inb_S64x1_S1x1_6_0 : ∀ a, (![6, 0] : Fin 2 → Nat) a + S1x1.size a ≤ S64x1.size a
  inb_S64x1_S1x1_7_0 : ∀ a, (![7, 0] : Fin 2 → Nat) a + S1x1.size a ≤ S64x1.size a
  inb_S64x1_S1x1_8_0 : ∀ a, (![8, 0] : Fin 2 → Nat) a + S1x1.size a ≤ S64x1.size a
  inb_S64x1_S1x1_9_0 : ∀ a, (![9, 0] : Fin 2 → Nat) a + S1x1.size a ≤ S64x1.size a
  inb_S64x1_S1x1_10_0 : ∀ a, (![10, 0] : Fin 2 → Nat) a + S1x1.size a ≤ S64x1.size a
  inb_S64x1_S1x1_11_0 : ∀ a, (![11, 0] : Fin 2 → Nat) a + S1x1.size a ≤ S64x1.size a
  inb_S64x1_S1x1_12_0 : ∀ a, (![12, 0] : Fin 2 → Nat) a + S1x1.size a ≤ S64x1.size a
  inb_S64x1_S1x1_13_0 : ∀ a, (![13, 0] : Fin 2 → Nat) a + S1x1.size a ≤ S64x1.size a
  inb_S64x1_S1x1_14_0 : ∀ a, (![14, 0] : Fin 2 → Nat) a + S1x1.size a ≤ S64x1.size a
  inb_S64x1_S1x1_15_0 : ∀ a, (![15, 0] : Fin 2 → Nat) a + S1x1.size a ≤ S64x1.size a
  inb_S64x1_S1x1_16_0 : ∀ a, (![16, 0] : Fin 2 → Nat) a + S1x1.size a ≤ S64x1.size a
  inb_S64x1_S1x1_17_0 : ∀ a, (![17, 0] : Fin 2 → Nat) a + S1x1.size a ≤ S64x1.size a
  inb_S64x1_S1x1_18_0 : ∀ a, (![18, 0] : Fin 2 → Nat) a + S1x1.size a ≤ S64x1.size a
  inb_S64x1_S1x1_19_0 : ∀ a, (![19, 0] : Fin 2 → Nat) a + S1x1.size a ≤ S64x1.size a
  inb_S64x1_S1x1_20_0 : ∀ a, (![20, 0] : Fin 2 → Nat) a + S1x1.size a ≤ S64x1.size a
  inb_S64x1_S1x1_21_0 : ∀ a, (![21, 0] : Fin 2 → Nat) a + S1x1.size a ≤ S64x1.size a
  inb_S64x1_S1x1_22_0 : ∀ a, (![22, 0] : Fin 2 → Nat) a + S1x1.size a ≤ S64x1.size a
  inb_S64x1_S1x1_23_0 : ∀ a, (![23, 0] : Fin 2 → Nat) a + S1x1.size a ≤ S64x1.size a
  inb_S64x1_S1x1_24_0 : ∀ a, (![24, 0] : Fin 2 → Nat) a + S1x1.size a ≤ S64x1.size a
  inb_S64x1_S1x1_25_0 : ∀ a, (![25, 0] : Fin 2 → Nat) a + S1x1.size a ≤ S64x1.size a
  inb_S64x1_S1x1_26_0 : ∀ a, (![26, 0] : Fin 2 → Nat) a + S1x1.size a ≤ S64x1.size a
  inb_S64x1_S1x1_27_0 : ∀ a, (![27, 0] : Fin 2 → Nat) a + S1x1.size a ≤ S64x1.size a
  inb_S64x1_S1x1_28_0 : ∀ a, (![28, 0] : Fin 2 → Nat) a + S1x1.size a ≤ S64x1.size a
  inb_S64x1_S1x1_29_0 : ∀ a, (![29, 0] : Fin 2 → Nat) a + S1x1.size a ≤ S64x1.size a
  inb_S64x1_S1x1_30_0 : ∀ a, (![30, 0] : Fin 2 → Nat) a + S1x1.size a ≤ S64x1.size a
  inb_S64x1_S1x1_31_0 : ∀ a, (![31, 0] : Fin 2 → Nat) a + S1x1.size a ≤ S64x1.size a
  inb_S64x1_S1x1_32_0 : ∀ a, (![32, 0] : Fin 2 → Nat) a + S1x1.size a ≤ S64x1.size a
  inb_S64x1_S1x1_33_0 : ∀ a, (![33, 0] : Fin 2 → Nat) a + S1x1.size a ≤ S64x1.size a
  inb_S64x1_S1x1_34_0 : ∀ a, (![34, 0] : Fin 2 → Nat) a + S1x1.size a ≤ S64x1.size a
  inb_S64x1_S1x1_35_0 : ∀ a, (![35, 0] : Fin 2 → Nat) a + S1x1.size a ≤ S64x1.size a
  inb_S64x1_S1x1_36_0 : ∀ a, (![36, 0] : Fin 2 → Nat) a + S1x1.size a ≤ S64x1.size a
  inb_S64x1_S1x1_37_0 : ∀ a, (![37, 0] : Fin 2 → Nat) a + S1x1.size a ≤ S64x1.size a
  inb_S64x1_S1x1_38_0 : ∀ a, (![38, 0] : Fin 2 → Nat) a + S1x1.size a ≤ S64x1.size a
  inb_S64x1_S1x1_39_0 : ∀ a, (![39, 0] : Fin 2 → Nat) a + S1x1.size a ≤ S64x1.size a
  inb_S64x1_S1x1_40_0 : ∀ a, (![40, 0] : Fin 2 → Nat) a + S1x1.size a ≤ S64x1.size a
  inb_S64x1_S1x1_41_0 : ∀ a, (![41, 0] : Fin 2 → Nat) a + S1x1.size a ≤ S64x1.size a
  inb_S64x1_S1x1_42_0 : ∀ a, (![42, 0] : Fin 2 → Nat) a + S1x1.size a ≤ S64x1.size a
  inb_S64x1_S1x1_43_0 : ∀ a, (![43, 0] : Fin 2 → Nat) a + S1x1.size a ≤ S64x1.size a
  inb_S64x1_S1x1_44_0 : ∀ a, (![44, 0] : Fin 2 → Nat) a + S1x1.size a ≤ S64x1.size a
  inb_S64x1_S1x1_45_0 : ∀ a, (![45, 0] : Fin 2 → Nat) a + S1x1.size a ≤ S64x1.size a
  inb_S64x1_S1x1_46_0 : ∀ a, (![46, 0] : Fin 2 → Nat) a + S1x1.size a ≤ S64x1.size a
  inb_S64x1_S1x1_47_0 : ∀ a, (![47, 0] : Fin 2 → Nat) a + S1x1.size a ≤ S64x1.size a
  inb_S64x1_S1x1_48_0 : ∀ a, (![48, 0] : Fin 2 → Nat) a + S1x1.size a ≤ S64x1.size a
  inb_S64x1_S1x1_49_0 : ∀ a, (![49, 0] : Fin 2 → Nat) a + S1x1.size a ≤ S64x1.size a
  inb_S64x1_S1x1_50_0 : ∀ a, (![50, 0] : Fin 2 → Nat) a + S1x1.size a ≤ S64x1.size a
  inb_S64x1_S1x1_51_0 : ∀ a, (![51, 0] : Fin 2 → Nat) a + S1x1.size a ≤ S64x1.size a
  inb_S64x1_S1x1_52_0 : ∀ a, (![52, 0] : Fin 2 → Nat) a + S1x1.size a ≤ S64x1.size a
  inb_S64x1_S1x1_53_0 : ∀ a, (![53, 0] : Fin 2 → Nat) a + S1x1.size a ≤ S64x1.size a
  inb_S64x1_S1x1_54_0 : ∀ a, (![54, 0] : Fin 2 → Nat) a + S1x1.size a ≤ S64x1.size a
  inb_S64x1_S1x1_55_0 : ∀ a, (![55, 0] : Fin 2 → Nat) a + S1x1.size a ≤ S64x1.size a
  inb_S64x1_S1x1_56_0 : ∀ a, (![56, 0] : Fin 2 → Nat) a + S1x1.size a ≤ S64x1.size a
  inb_S64x1_S1x1_57_0 : ∀ a, (![57, 0] : Fin 2 → Nat) a + S1x1.size a ≤ S64x1.size a
  inb_S64x1_S1x1_58_0 : ∀ a, (![58, 0] : Fin 2 → Nat) a + S1x1.size a ≤ S64x1.size a
  inb_S64x1_S1x1_59_0 : ∀ a, (![59, 0] : Fin 2 → Nat) a + S1x1.size a ≤ S64x1.size a
  inb_S64x1_S1x1_60_0 : ∀ a, (![60, 0] : Fin 2 → Nat) a + S1x1.size a ≤ S64x1.size a
  inb_S64x1_S1x1_61_0 : ∀ a, (![61, 0] : Fin 2 → Nat) a + S1x1.size a ≤ S64x1.size a
  inb_S64x1_S1x1_62_0 : ∀ a, (![62, 0] : Fin 2 → Nat) a + S1x1.size a ≤ S64x1.size a
  inb_S64x1_S1x1_63_0 : ∀ a, (![63, 0] : Fin 2 → Nat) a + S1x1.size a ≤ S64x1.size a
  shapeCasts_S16384x1_S16384 : S16384x1.ShapeCasts S16384
  hcc0_scratch5 : 3 + S_.numel ≤ 8
  hcc0_scratch6 : 4 + S_.numel ≤ 8
  hcc0_scratch7 : 5 + S_.numel ≤ 8
  hcc0_scratch8 : 6 + S_.numel ≤ 8
  hcc0_scratch9 : 7 + S_.numel ≤ 8
  hrank0 : 0 < grid0.rank
  k0_off1_inb : ∀ i : grid0.Coords, ∀ a, (k0_off1 i) a + S1.size a ≤ S16384.size a
  k0_off7_inb : ∀ i : grid0.Coords, ∀ a, (k0_off7 i) a + S1.size a ≤ S16384.size a
  k0_off13_inb : ∀ i : grid0.Coords, ∀ a, (k0_off13 i) a + S1.size a ≤ S16384.size a
  k0_off19_inb : ∀ i : grid0.Coords, ∀ a, (k0_off19 i) a + S1.size a ≤ S16384.size a
  k0_off25_inb : ∀ i : grid0.Coords, ∀ a, (k0_off25 i) a + S1.size a ≤ S16384.size a
  k0_off31_inb : ∀ i : grid0.Coords, ∀ a, (k0_off31 i) a + S1.size a ≤ S16384.size a
  k0_off37_inb : ∀ i : grid0.Coords, ∀ a, (k0_off37 i) a + S1.size a ≤ S16384.size a
  k0_off43_inb : ∀ i : grid0.Coords, ∀ a, (k0_off43 i) a + S1.size a ≤ S16384.size a
  k0_off49_inb : ∀ i : grid0.Coords, ∀ a, (k0_off49 i) a + S1.size a ≤ S16384.size a
  k0_off55_inb : ∀ i : grid0.Coords, ∀ a, (k0_off55 i) a + S1.size a ≤ S16384.size a
  k0_off61_inb : ∀ i : grid0.Coords, ∀ a, (k0_off61 i) a + S1.size a ≤ S16384.size a
  k0_off67_inb : ∀ i : grid0.Coords, ∀ a, (k0_off67 i) a + S1.size a ≤ S16384.size a
  k0_off73_inb : ∀ i : grid0.Coords, ∀ a, (k0_off73 i) a + S1.size a ≤ S16384.size a
  k0_off79_inb : ∀ i : grid0.Coords, ∀ a, (k0_off79 i) a + S1.size a ≤ S16384.size a
  k0_off85_inb : ∀ i : grid0.Coords, ∀ a, (k0_off85 i) a + S1.size a ≤ S16384.size a
  k0_off91_inb : ∀ i : grid0.Coords, ∀ a, (k0_off91 i) a + S1.size a ≤ S16384.size a
  k0_off97_inb : ∀ i : grid0.Coords, ∀ a, (k0_off97 i) a + S1.size a ≤ S16384.size a
  k0_off103_inb : ∀ i : grid0.Coords, ∀ a, (k0_off103 i) a + S1.size a ≤ S16384.size a
  k0_off109_inb : ∀ i : grid0.Coords, ∀ a, (k0_off109 i) a + S1.size a ≤ S16384.size a
  k0_off115_inb : ∀ i : grid0.Coords, ∀ a, (k0_off115 i) a + S1.size a ≤ S16384.size a
  k0_off121_inb : ∀ i : grid0.Coords, ∀ a, (k0_off121 i) a + S1.size a ≤ S16384.size a
  k0_off127_inb : ∀ i : grid0.Coords, ∀ a, (k0_off127 i) a + S1.size a ≤ S16384.size a
  k0_off133_inb : ∀ i : grid0.Coords, ∀ a, (k0_off133 i) a + S1.size a ≤ S16384.size a
  k0_off139_inb : ∀ i : grid0.Coords, ∀ a, (k0_off139 i) a + S1.size a ≤ S16384.size a
  k0_off145_inb : ∀ i : grid0.Coords, ∀ a, (k0_off145 i) a + S1.size a ≤ S16384.size a
  k0_off151_inb : ∀ i : grid0.Coords, ∀ a, (k0_off151 i) a + S1.size a ≤ S16384.size a
  k0_off157_inb : ∀ i : grid0.Coords, ∀ a, (k0_off157 i) a + S1.size a ≤ S16384.size a
  k0_off163_inb : ∀ i : grid0.Coords, ∀ a, (k0_off163 i) a + S1.size a ≤ S16384.size a
  k0_off169_inb : ∀ i : grid0.Coords, ∀ a, (k0_off169 i) a + S1.size a ≤ S16384.size a
  k0_off175_inb : ∀ i : grid0.Coords, ∀ a, (k0_off175 i) a + S1.size a ≤ S16384.size a
  k0_off181_inb : ∀ i : grid0.Coords, ∀ a, (k0_off181 i) a + S1.size a ≤ S16384.size a
  k0_off187_inb : ∀ i : grid0.Coords, ∀ a, (k0_off187 i) a + S1.size a ≤ S16384.size a
  k0_off193_inb : ∀ i : grid0.Coords, ∀ a, (k0_off193 i) a + S1.size a ≤ S16384.size a
  k0_off199_inb : ∀ i : grid0.Coords, ∀ a, (k0_off199 i) a + S1.size a ≤ S16384.size a
  k0_off205_inb : ∀ i : grid0.Coords, ∀ a, (k0_off205 i) a + S1.size a ≤ S16384.size a
  k0_off211_inb : ∀ i : grid0.Coords, ∀ a, (k0_off211 i) a + S1.size a ≤ S16384.size a
  k0_off217_inb : ∀ i : grid0.Coords, ∀ a, (k0_off217 i) a + S1.size a ≤ S16384.size a
  k0_off223_inb : ∀ i : grid0.Coords, ∀ a, (k0_off223 i) a + S1.size a ≤ S16384.size a
  k0_off229_inb : ∀ i : grid0.Coords, ∀ a, (k0_off229 i) a + S1.size a ≤ S16384.size a
  k0_off235_inb : ∀ i : grid0.Coords, ∀ a, (k0_off235 i) a + S1.size a ≤ S16384.size a
  k0_off241_inb : ∀ i : grid0.Coords, ∀ a, (k0_off241 i) a + S1.size a ≤ S16384.size a
  k0_off247_inb : ∀ i : grid0.Coords, ∀ a, (k0_off247 i) a + S1.size a ≤ S16384.size a
  k0_off253_inb : ∀ i : grid0.Coords, ∀ a, (k0_off253 i) a + S1.size a ≤ S16384.size a
  k0_off259_inb : ∀ i : grid0.Coords, ∀ a, (k0_off259 i) a + S1.size a ≤ S16384.size a
  k0_off265_inb : ∀ i : grid0.Coords, ∀ a, (k0_off265 i) a + S1.size a ≤ S16384.size a
  k0_off271_inb : ∀ i : grid0.Coords, ∀ a, (k0_off271 i) a + S1.size a ≤ S16384.size a
  k0_off277_inb : ∀ i : grid0.Coords, ∀ a, (k0_off277 i) a + S1.size a ≤ S16384.size a
  k0_off283_inb : ∀ i : grid0.Coords, ∀ a, (k0_off283 i) a + S1.size a ≤ S16384.size a
  k0_off289_inb : ∀ i : grid0.Coords, ∀ a, (k0_off289 i) a + S1.size a ≤ S16384.size a
  k0_off295_inb : ∀ i : grid0.Coords, ∀ a, (k0_off295 i) a + S1.size a ≤ S16384.size a
  k0_off301_inb : ∀ i : grid0.Coords, ∀ a, (k0_off301 i) a + S1.size a ≤ S16384.size a
  k0_off307_inb : ∀ i : grid0.Coords, ∀ a, (k0_off307 i) a + S1.size a ≤ S16384.size a
  k0_off313_inb : ∀ i : grid0.Coords, ∀ a, (k0_off313 i) a + S1.size a ≤ S16384.size a
  k0_off319_inb : ∀ i : grid0.Coords, ∀ a, (k0_off319 i) a + S1.size a ≤ S16384.size a
  k0_off325_inb : ∀ i : grid0.Coords, ∀ a, (k0_off325 i) a + S1.size a ≤ S16384.size a
  k0_off331_inb : ∀ i : grid0.Coords, ∀ a, (k0_off331 i) a + S1.size a ≤ S16384.size a
  k0_off337_inb : ∀ i : grid0.Coords, ∀ a, (k0_off337 i) a + S1.size a ≤ S16384.size a
  k0_off343_inb : ∀ i : grid0.Coords, ∀ a, (k0_off343 i) a + S1.size a ≤ S16384.size a
  k0_off349_inb : ∀ i : grid0.Coords, ∀ a, (k0_off349 i) a + S1.size a ≤ S16384.size a
  k0_off355_inb : ∀ i : grid0.Coords, ∀ a, (k0_off355 i) a + S1.size a ≤ S16384.size a
  k0_off361_inb : ∀ i : grid0.Coords, ∀ a, (k0_off361 i) a + S1.size a ≤ S16384.size a
  k0_off367_inb : ∀ i : grid0.Coords, ∀ a, (k0_off367 i) a + S1.size a ≤ S16384.size a
  k0_off373_inb : ∀ i : grid0.Coords, ∀ a, (k0_off373 i) a + S1.size a ≤ S16384.size a
  k0_off379_inb : ∀ i : grid0.Coords, ∀ a, (k0_off379 i) a + S1.size a ≤ S16384.size a
  hstage0_0 : ∀ j, (stage0_0 j).IsWhole
  nbuf0_0 : grid0.bufCount reads0_0 true = 1
  hreads0_0 : ∀ i i' : grid0.Coords, (∀ a, reads0_0 a = true → i a = i' a) → cc0_transform_5 i = cc0_transform_5 i'
  hinb0_0 : ∀ (i : grid0.Coords) a, (cc0_transform_5 i a + 1) * S1x1.size a ≤ S1x1.size a
  hwx0_0 : ∀ i : grid0.Coords, EltTy.bits .f32 = 32 ∨ (Rect.block (s := S1x1) S1x1.size (cc0_transform_5 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_6 i = cc0_transform_6 i'
  hinb0_1 : ∀ (i : grid0.Coords) a, (cc0_transform_6 i a + 1) * S64x1.size a ≤ S16384x1.size a
  hwx0_1 : ∀ i : grid0.Coords, EltTy.bits .f32 = 32 ∨ (Rect.block (s := S16384x1) S64x1.size (cc0_transform_6 i) (hinb0_1 i)).WholeWords (EltTy.packing .f32)

variable [Facts₀]

abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9

abbrev spec0_0 : Pipeline.WinSpec sig grid0.rank :=
  Pipeline.WinSpec.ofSpec (Memref.whole main_v0) S1x1.size reads0_0 false true 1 stage0_0 sem0_0 nbuf0_0 hstage0_0

abbrev spec0_1 : Pipeline.WinSpec sig grid0.rank :=
  Pipeline.WinSpec.ofSpec (Memref.whole main_v1) S64x1.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_5 | 1 => cc0_transform_6 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16384 : Shape := ⟨1, ![16384]⟩
abbrev S1000000x64 : Shape := ⟨2, ![1000000, 64]⟩
abbrev S1000000x1 : Shape := ⟨2, ![1000000, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x2 : Shape := ⟨2, ![16384, 2]⟩

abbrev nBuf : Space → Nat
  | .hbm => 72
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S1000000x1, .f32⟩
  | .hbm, ⟨5, _⟩ => ⟨S1000000x1, .f32⟩
  | .hbm, ⟨6, _⟩ => ⟨S1, .f32⟩
  | .hbm, ⟨7, _⟩ => ⟨S1000000x64, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x64, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x64, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x1, .i32⟩
  | .hbm, ⟨38, _⟩ => ⟨S16384x2, .i32⟩
  | .hbm, ⟨39, _⟩ => ⟨S16384, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x1, .i32⟩
  | .hbm, ⟨52, _⟩ => ⟨S16384x2, .i32⟩
  | .hbm, ⟨53, _⟩ => ⟨S16384, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S16384x64, .f32⟩
  | .hbm, ⟨63, _⟩ => ⟨S16384x64, .f32⟩
  | .hbm, ⟨64, _⟩ => ⟨S16384x64, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x64_S16384_d1 : S16384x64.ReducesTo [1] S16384
  h_S_ : 0 < S_.numel
  shapeCasts_S1_S_ : S1.ShapeCasts S_
  gather_S1000000x64_S16384x1_S16384x64_1_0_n_n_0_1_164_wf : GatherDims.WF S1000000x64 S16384x1 S16384x64 [1] [0] [] [0] [] 1 ![1, 64]
  gather_S1000000x1_S16384x2_S16384_n_01_n_n_01_1_11_wf : GatherDims.WF S1000000x1 S16384x2 S16384 [] [0, 1] [] [0, 1] [] 1 ![1, 1]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x1_S16384x2_S16384_n_01_n_n_01_1_11 : GatherDims S1000000x1 S16384x2 S16384 where
  offsetDims := []
  collapsedSliceDims := [0, 1]
  operandBatchingDims := []
  startIndicesBatchingDims := []
  startIndexMap := [0, 1]
  indexVectorDim := 1
  sliceSizes := ![1, 1]
  wf := gather_S1000000x1_S16384x2_S16384_n_01_n_n_01_1_11_wf

class Facts : Prop extends Facts₀ where

variable [Facts]
-- ==== Proof.PreIds.lean ====
/-
  The index half of the precondition, decoded.  The precondition is one bit: the conjunction (by `and`) of ten
  scalar bits, the last four of which are, over every batch row x,
      0 ≤ uid[x],  uid[x] < 1000000,  0 ≤ iid[x],  iid[x] < 1000000      (signed compares),
  each reduced by `and` over all rows.  When that bit is 1 every conjunct is 1, so every element of each reduced
  mask is 1, so each id word w has 0 ≤ w.toInt < 1000000; a word whose signed reading is non-negative reads the
  same unsigned, hence w.toNat < 1000000.
-/
import proofs.«404469_j412316861026_1_alg».proof.Pre_finite_inputs
import Idealize.ShloMosaic.Lib.ReduceAll

noncomputable section

namespace Cert.Pre_finite_inputs.Hand

open Idealize.ShloMosaic Cert.Pre_finite_inputs

/-- A rank-0 shape has one index. -/
instance subsingleton_scalar_idx : Subsingleton S_.Idx := ⟨fun a b => funext fun d => d.elim0⟩

/-- A 32-bit word that compares (signed) at least 0 and below 1000000 is below 1000000 read unsigned. -/
theorem toNat_lt_of_signed_range (w : BitVec 32) (h0 : IntOp.cmpi .sge w 0#32 = 1#1)
    (h1 : IntOp.cmpi .slt w 1000000#32 = 1#1) : w.toNat < 1000000 := by
  rw [IntOp.cmpi_sge, show (0#32 : BitVec 32).toInt = 0 from by decide] at h0
  rw [IntOp.cmpi_slt, show (1000000#32 : BitVec 32).toInt = 1000000 from by decide] at h1
  have hw := w.isLt
  rw [BitVec.toInt_eq_toNat_cond] at h0 h1
  split at h0 <;> omega

theorem ids_lt {F : FTy → Type} [FloatOps F] [Cert.Pre_finite_inputs.Facts]
    (a0 a1 : IVec Cert.Pre_finite_inputs.S16384 32) (a2 a3 : FVec F Cert.Pre_finite_inputs.S1000000x64 .f32)
    (a4 a5 : FVec F Cert.Pre_finite_inputs.S1000000x1 .f32) (a6 : FVec F Cert.Pre_finite_inputs.S1 .f32)
    (a7 : FVec F Cert.Pre_finite_inputs.S1000000x64 .f32)
    (h : Cert.Pre_finite_inputs.fn (F := F) a0 a1 a2 a3 a4 a5 a6 a7 = fun _ => 1#1) :
    (∀ x : Cert.Pre_finite_inputs.S16384.Idx, BitVec.toNat (a0 x) < 1000000)
      ∧ (∀ x : Cert.Pre_finite_inputs.S16384.Idx, BitVec.toNat (a1 x) < 1000000) := by
  have e := congrFun h (fun d => d.elim0)
  dsimp only [fn, fn_part1, fn_part2] at e
  obtain ⟨e3, h4⟩ := IntOp.andi_eq_one.1 e
  obtain ⟨e2, h3⟩ := IntOp.andi_eq_one.1 e3
  obtain ⟨e1, h2⟩ := IntOp.andi_eq_one.1 e2
  obtain ⟨-, h1⟩ := IntOp.andi_eq_one.1 e1
  have r1 := Host.reduce_andi_all _ _ _ _ _ h1
  have r2 := Host.reduce_andi_all _ _ _ _ _ h2
  have r3 := Host.reduce_andi_all _ _ _ _ _ h3
  have r4 := Host.reduce_andi_all _ _ _ _ _ h4
  exact ⟨fun x => toNat_lt_of_signed_range (a0 x) (r1 x) (r2 x), fun x => toNat_lt_of_signed_range (a1 x) (r3 x) (r4 x)⟩

/-- info: 'Cert.Pre_finite_inputs.Hand.ids_lt' depends on axioms: [propext, Classical.choice, Quot.sound] -/
#guard_msgs (whitespace := lax) in #print axioms ids_lt

end Cert.Pre_finite_inputs.Hand

end
-- ==== Proof.BitsShared.lean ====
/-
  What the frame and value arguments of the row-gather kernel share.  One grid point handles 64 batch rows.  For
  row r it reads two ids from the prefetched id tables (user id u, item id i), copies row u of the user-embedding
  table, row i of the item-embedding table, row u of the implicit table, and the two bias entries into five small
  scratch buffers by five copies of its own, each on its own semaphore and each waited for before any buffer is
  read, and stores  g + ub[u] + ib[i] + Σ_k (ue[u,k] + imp[u,k]) · ie[i,k]  at row r of the output block.
  Here: the contents of the buffers when the region is entered (one host reshape of the global bias runs first),
  the id tables, the scratch, table and HBM buffers as the body receives them, and the region invariant listed
  conjunct by conjunct.
-/
import proofs.«404469_j412316861026_1_alg».proof.Proof.Gen.Kernel.Launch
import proofs.«404469_j412316861026_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the region is entered -/

/-- Core `c`'s buffer contents after the one host operation before the region (the global bias reshaped to 1×1). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the reshape, the region, the reshape of the result. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The id tables -/

/-- The two id tables when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables as admissible contents (no window's index map reads them), and the pipeline at them. -/
abbrev adm : (pcfg0 (F := F)).Adm := ⟨tbl m, trivial⟩
abbrev cfgM : Pipeline.Cfg sig Λ₀ := cfg0 (adm m)

abbrev tbM0 : Memref sig .tc .smem S16384 .i32 := Memref.whole main_arg0
abbrev htbM0 : tbM0.IsWhole := Memref.isWhole_whole _
abbrev tbM1 : Memref sig .tc .smem S16384 .i32 := Memref.whole main_arg1
abbrev htbM1 : tbM1.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S1x1 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S64x1 .f32 := spec0_1.stage ((cfgM m).slots t 1)
abbrev hs1 (t : Fin (cfgM m).N) : (ms1 m t).IsWhole := hstage0_1 (((cfgM m).slots t 1).cast nbuf0_1)
/-- One staging buffer of the output window, through which its contents are stated. -/
abbrev VO1 : View sig .tc .vmem S64x1 .f32 := (Memref.whole cc0_stg1_0 : Memref sig .tc .vmem S64x1 .f32).view

/-- The body at point `t`, on what the pipeline calls it with. -/
abbrev bodyAt (t : Fin (cfgM m).N) : Prog (TpuEff nD τ sig (Elt F) Λ₀ .tc) PUnit :=
  cc0__gather_kernel (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg7) (Memref.isWhole_whole _) (Memref.whole main_arg4) (Memref.isWhole_whole _) (Memref.whole main_arg5) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9

/-! ## Scratch, semaphores and the tables left in HBM -/

abbrev scM0 : Memref sig .tc .vmem S1x64 .f32 := Memref.whole cc0_scratch0
abbrev scM1 : Memref sig .tc .vmem S1x64 .f32 := Memref.whole cc0_scratch1
abbrev scM2 : Memref sig .tc .vmem S1x64 .f32 := Memref.whole cc0_scratch2
abbrev scM3 : Memref sig .tc .vmem S1x1 .f32 := Memref.whole cc0_scratch3
abbrev scM4 : Memref sig .tc .vmem S1x1 .f32 := Memref.whole cc0_scratch4
/-- user embeddings, item embeddings, implicit vectors, user bias, item bias: the body's operands 3–7. -/
abbrev hbM0 : Memref sig .tc .hbm S1000000x64 .f32 := Memref.whole main_arg2
abbrev hbM1 : Memref sig .tc .hbm S1000000x64 .f32 := Memref.whole main_arg3
abbrev hbM2 : Memref sig .tc .hbm S1000000x64 .f32 := Memref.whole main_arg7
abbrev hbM3 : Memref sig .tc .hbm S1000000x1 .f32 := Memref.whole main_arg4
abbrev hbM4 : Memref sig .tc .hbm S1000000x1 .f32 := Memref.whole main_arg5
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The five semaphores of the body's own copies. -/
abbrev osem0 : Fin 5 → SemLoc sig := fun j => (![SemLoc.dma 3, SemLoc.dma 4, SemLoc.dma 5, SemLoc.dma 6, SemLoc.dma 7] : Fin 5 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4] (by decide) (by decide)]; rfl
/-- The five tables the body copies rows of. -/
def H0 : Finset (Ref sig .tc) := {main_arg2, main_arg3, main_arg4, main_arg5, main_arg7}
theorem H0_sub : H0 ⊆ Pipeline.restRefsP sig pre0 spec0 := by decide
theorem hbmPts_eq (c : Dev nD) :
    (bigSep H0 (fun b => ((c : Thread nD τ).loc b) ↦{fullShare} V m c b) : sProp 𝕄)
      = iprop(hbPt c hbM0 (V m c main_arg2) ∗ hbPt c hbM1 (V m c main_arg3) ∗ hbPt c hbM3 (V m c main_arg4) ∗ hbPt c hbM4 (V m c main_arg5) ∗ hbPt c hbM2 (V m c main_arg7)) := by
  rw [BI.bigSep_eq_bigSepL_of_eq [main_arg2, main_arg3, main_arg4, main_arg5, main_arg7] (by decide) (by decide)]; rfl

/-- The region invariant, conjunct by conjunct: the five scratch buffers at some contents, the generator register, the
    five semaphores at zero, the five tables at their contents. -/
theorem PhiD_eq (c : Dev nD) :
    (Pipeline.ΦD osem0 spec0 H0 (V m) c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
          ∗ iprop(hbPt c hbM0 (V m c main_arg2) ∗ hbPt c hbM1 (V m c main_arg3) ∗ hbPt c hbM3 (V m c main_arg4) ∗ hbPt c hbM4 (V m c main_arg5) ∗ hbPt c hbM2 (V m c main_arg7))) := by
  rw [Pipeline.ΦD_eq, scopedRest0_eq, ownSems0_eq, hbmPts_eq]; simp only [scM0, scM1, scM2, scM3, scM4, owns_whole]; try rfl

/-! ## The ids are row numbers -/

/-- From an id below one million, the side condition the body assumes after reading a user id (three row copies) -/
theorem chk_user (v : BitVec 32) (h : v.toNat < 1000000) :
    (∀ a, (![v.toNat, 0] : Fin 2 → ℕ) a + S1x64.size a ≤ S1000000x64.size a) ∧
    (∀ a, (![v.toNat, 0] : Fin 2 → ℕ) a + S1x64.size a ≤ S1000000x64.size a) ∧
    (∀ a, (![v.toNat, 0] : Fin 2 → ℕ) a + S1x1.size a ≤ S1000000x1.size a) := by
  refine ⟨fun a => ?_, fun a => ?_, fun a => ?_⟩ <;> fin_cases a <;> simp [Shape.size] <;> omega
/-- and after reading an item id (two row copies). -/
theorem chk_item (v : BitVec 32) (h : v.toNat < 1000000) :
    (∀ a, (![v.toNat, 0] : Fin 2 → ℕ) a + S1x64.size a ≤ S1000000x64.size a) ∧
    (∀ a, (![v.toNat, 0] : Fin 2 → ℕ) a + S1x1.size a ≤ S1000000x1.size a) := by
  refine ⟨fun a => ?_, fun a => ?_⟩ <;> fin_cases a <;> simp [Shape.size] <;> omega

end Cert.Kernel.Hand

end
-- ==== Proof.BitsRun.lean ====
/-
  One grid point of the row-gather body, run symbolically: from whole staging buffers (the global-bias block at its
  contents, the output block at anything), the five scratch buffers at anything, the five semaphores at zero, the five
  tables at their contents and the two id tables at contents whose every word is below one million, the body runs to its
  end; every copy it starts it also waits for, so semaphores, tables and id tables come back as they were, and the output
  block comes back with the sixty-four row stores written.
-/
import proofs.«404469_j412316861026_1_alg».proof.Proof.BitsShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- What the sixty-four row stores leave in the output block, as pieces (last first), with the proof that the body
    runs to its end from the resources listed and gives them back. -/
noncomputable def kernelRun (c : Dev nD) (i : grid0.Coords)
    (arg8 : Memref sig .tc .vmem S1x1 .f32) (harg8 : arg8.IsWhole) (arg9 : Memref sig .tc .vmem S64x1 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x1 .f32) (harg13 : arg13.IsWhole)
    (arg14 : Memref sig .tc .vmem S1x1 .f32) (harg14 : arg14.IsWhole)
    (x0 : Vec F S1x1 .f32) (xt0 : TbBuf (F := F) c tbM0) (xt1 : TbBuf (F := F) c tbM1)
    (fh0 : HbBuf (F := F) c hbM0) (fh1 : HbBuf (F := F) c hbM1) (fh2 : HbBuf (F := F) c hbM2) (fh3 : HbBuf (F := F) c hbM3) (fh4 : HbBuf (F := F) c hbM4)
    (hU0 : ∀ (off : Fin 1 → ℕ) (inb : ∀ a, off a + S1.size a ≤ S16384.size a) (j : (Rect.unit (s := S16384) off S1.size inb).toLoadRect.shape.Idx), BitVec.toNat (tbM0.view.readAt (Elt F) (Rect.unit (s := S16384) off S1.size inb).toLoadRect xt0 j) < 1000000)
    (hU1 : ∀ (off : Fin 1 → ℕ) (inb : ∀ a, off a + S1.size a ≤ S16384.size a) (j : (Rect.unit (s := S16384) off S1.size inb).toLoadRect.shape.Idx), BitVec.toNat (tbM1.view.readAt (Elt F) (Rect.unit (s := S16384) off S1.size inb).toLoadRect xt1 j) < 1000000) :
    { L1 : List (View.Piece (Elt F) S64x1 .f32) //
      ∀ (W : Waits sig Unit) (K : PUnit → sProp 𝕄),
        iprop(owns (c : Thread nD τ) arg8 fullShare x0 ∗ (∃ d, owns (c : Thread nD τ) arg9 fullShare d)
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
            ∗ hbPt c hbM0 fh0 ∗ hbPt c hbM1 fh1 ∗ hbPt c hbM2 fh2 ∗ hbPt c hbM3 fh3 ∗ hbPt c hbM4 fh4 ∗ tbPt c tbM0 xt0 ∗ tbPt c tbM1 xt1 ∗ owes (c : Thread nD τ) 0 W
            ∗ (iprop(owns (c : Thread nD τ) arg8 fullShare x0 ∗ (∃ f, arg9.view.loc (c : Thread nD τ) ↦[arg9.view.set]{fullShare} arg9.view.writes (Elt F) f L1)
                ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
                ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
                ∗ hbPt c hbM0 fh0 ∗ hbPt c hbM1 fh1 ∗ hbPt c hbM2 fh2 ∗ hbPt c hbM3 fh3 ∗ hbPt c hbM4 fh4 ∗ tbPt c tbM0 xt0 ∗ tbPt c tbM1 xt1 ∗ (∃ W', owes (c : Thread nD τ) 0 W')) -∗ K ⟨⟩))
          ⊢ wp frame (wpE (defs₀ (F := F)) Variants.none c none) Set.univ (cc0__gather_kernel i tbM0 htbM0 tbM1 htbM1 hbM0 (Memref.isWhole_whole _) hbM1 (Memref.isWhole_whole _) hbM2 (Memref.isWhole_whole _) hbM3 (Memref.isWhole_whole _) hbM4 (Memref.isWhole_whole _) arg8 harg8 arg9 harg9 arg10 harg10 arg11 harg11 arg12 harg12 arg13 harg13 arg14 harg14 cc0_scratch5 cc0_scratch6 cc0_scratch7 cc0_scratch8 cc0_scratch9) K } := by
  refine ⟨?_, fun W K => ?run⟩
  case run =>
    simp only [cc0__gather_kernel_eq_skeleton]; unfold cc0__gather_kernel_skel
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, Hh2, Hh3, Hh4, HT0, HT1, HW, Hk⟩
    obtain rfl := harg8.eq_unread hf0
    sl_exec_parts (disch := first | sl_exact (chk_user _ (hU0 _ _ _)) | sl_exact (chk_item _ (hU1 _ _ _)))
    sl_step
    iapply Hk
    isplitl [H0]
    · iexists _; isplitr; · ipureintro; exact harg8.read_unread _
      iexact H0
    isplitl [H1]; · iexists _; iexact H1
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    isplitl [Hh4]; · iexact Hh4
    isplitl [HT0]; · iexact HT0
    isplitl [HT1]; · iexact HT1
    iexists _; iexact HW

end Cert.Kernel.Hand

end
-- ==== Proof.BitsFrame.lean ====
/-
  The frame of the row-gather program at any float instance: the proof data of its one pipeline (the global-bias block
  stays in place, the output block after a point is what that point's run leaves in it, the invariant holds the five
  scratch buffers, the five semaphores at zero, the five tables and the two id tables), the body obligation at every
  point from the run, and the launch: the host reshape before the region, the region, the host reshape after it.
  All of it under the hypothesis that every word of the two id tables is below one million.
-/
import proofs.«404469_j412316861026_1_alg».proof.Proof.BitsRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The hypothesis: the ids are row numbers -/

/-- Every word either id table holds, read through a one-word window at any offset, is below one million. -/
def Hyps : Prop :=
  (∀ (off : Fin 1 → ℕ) (inb : ∀ a, off a + S1.size a ≤ S16384.size a) (j : (Rect.unit (s := S16384) off S1.size inb).toLoadRect.shape.Idx), BitVec.toNat (tbM0.view.readAt (Elt F) (Rect.unit (s := S16384) off S1.size inb).toLoadRect (tbl m 0) j) < 1000000)
  ∧ (∀ (off : Fin 1 → ℕ) (inb : ∀ a, off a + S1.size a ≤ S16384.size a) (j : (Rect.unit (s := S16384) off S1.size inb).toLoadRect.shape.Idx), BitVec.toNat (tbM1.view.readAt (Elt F) (Rect.unit (s := S16384) off S1.size inb).toLoadRect (tbl m 1) j) < 1000000)

/-! ## The lines after the region -/

/-- The reshape after the region touches the output array and its own result only: no id table, none of the five tables. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) ?_ ?_
  · simp only [hostOps1, List.mem_cons, List.mem_nil_iff, or_false] at hop
    subst hop
    intro k
    rw [StableHlo.reshape_bufs]
    fin_cases k <;> simp only [Finset.mem_insert, Finset.mem_singleton, not_or] <;> exact ⟨StableHlo.devRef_ne_of_ne (by decide), StableHlo.devRef_ne_of_ne (by decide)⟩
  · simp only [hostOps1, List.mem_cons, List.mem_nil_iff, or_false] at hop
    subst hop
    intro b hb
    rw [StableHlo.reshape_bufs]
    simp only [H0, Finset.mem_insert, Finset.mem_singleton] at hb
    rcases hb with rfl | rfl | rfl | rfl | rfl <;> simp only [Finset.mem_insert, Finset.mem_singleton, not_or] <;> exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-! ## What the output block holds after a point -/

variable {m} in
/-- The run's sixty-four row stores tile the 64×1 block. -/
theorem cover1 (c : Dev nD) (i : grid0.Coords)
    (arg8 : Memref sig .tc .vmem S1x1 .f32) (harg8 : arg8.IsWhole) (arg9 : Memref sig .tc .vmem S64x1 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x1 .f32) (harg13 : arg13.IsWhole)
    (arg14 : Memref sig .tc .vmem S1x1 .f32) (harg14 : arg14.IsWhole)
    (x0 : Vec F S1x1 .f32) (xt0 : TbBuf (F := F) c tbM0) (xt1 : TbBuf (F := F) c tbM1)
    (fh0 : HbBuf (F := F) c hbM0) (fh1 : HbBuf (F := F) c hbM1) (fh2 : HbBuf (F := F) c hbM2) (fh3 : HbBuf (F := F) c hbM3) (fh4 : HbBuf (F := F) c hbM4)
    (hU0 : ∀ (off : Fin 1 → ℕ) (inb : ∀ a, off a + S1.size a ≤ S16384.size a) (j : (Rect.unit (s := S16384) off S1.size inb).toLoadRect.shape.Idx), BitVec.toNat (tbM0.view.readAt (Elt F) (Rect.unit (s := S16384) off S1.size inb).toLoadRect xt0 j) < 1000000)
    (hU1 : ∀ (off : Fin 1 → ℕ) (inb : ∀ a, off a + S1.size a ≤ S16384.size a) (j : (Rect.unit (s := S16384) off S1.size inb).toLoadRect.shape.Idx), BitVec.toNat (tbM1.view.readAt (Elt F) (Rect.unit (s := S16384) off S1.size inb).toLoadRect xt1 j) < 1000000) (y : S64x1.Idx) :
    ∃ pc ∈ (kernelRun c i arg8 harg8 arg9 harg9 arg10 harg10 arg11 harg11 arg12 harg12 arg13 harg13 arg14 harg14 x0 xt0 xt1 fh0 fh1 fh2 fh3 fh4 hU0 hU1).1, y ∈ pc.1.set :=
  View.cover_of_tiledL (kernelRun c i arg8 harg8 arg9 harg9 arg10 harg10 arg11 harg11 arg12 harg12 arg13 harg13 arg14 harg14 x0 xt0 xt1 fh0 fh1 fh2 fh3 fh4 hU0 hU1).1 S1x1.size (by sl_kernel_rfl) y

/-- What the output block holds after point `t`: the run's stores read back. -/
def outAt (hH : Hyps m) (c : Dev nD) (t : Fin (cfgM m).N) : Vec F S64x1 .f32 :=
  VO1.read (Elt F) (VO1.writes (Elt F) VO1.junk (kernelRun c (grid0.coords t) (ms0 m t) (hs0 m t) (ms1 m t) (hs1 m t) scM0 (Memref.isWhole_whole _) scM1 (Memref.isWhole_whole _) scM2 (Memref.isWhole_whole _) scM3 (Memref.isWhole_whole _) scM4 (Memref.isWhole_whole _) (iblk m c 0 t) (tbl m 0) (tbl m 1) (V m c main_arg2) (V m c main_arg3) (V m c main_arg7) (V m c main_arg4) (V m c main_arg5) hH.1 hH.2).1)

/-! ## The proof data -/

def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m hH c t
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]
theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = outAt m hH c t := by dsimp only [dats]; try rfl

/-- The global-bias block is in its staging buffer at every point (fetched once; its index never moves). -/
theorem before0_0 (hH : Hyps m) (c : Dev nD) (t : Fin (cfgM m).N) (d) : (dats m hH 0 c).before 0 t d = iblk m c 0 t :=
  ((dats m hH 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body obligation -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t))

theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before0_0]
  rw [show (dats m hH 0 c).Φ t.succ = (dats m hH 0 c).Φ t.castSucc from rfl, after0_0, after0_1]
  rw [show (dats m hH 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  unfold outAt
  iintro ⟨⟨⟨⟨HS0, HS1, HS2, HS3, HS4⟩, Hg, ⟨Hq0, Hq1, Hq2, Hq3, Hq4⟩, ⟨Hh0, Hh1, Hh3, Hh4, Hh2⟩⟩, ⟨HT0, HT1⟩⟩, ⟨%W, -, HW⟩, ⟨%d0, H0⟩, ⟨%d1, H1⟩⟩
  iapply ((kernelRun c (grid0.coords t) (ms0 m t) (hs0 m t) (ms1 m t) (hs1 m t) scM0 (Memref.isWhole_whole _) scM1 (Memref.isWhole_whole _) scM2 (Memref.isWhole_whole _) scM3 (Memref.isWhole_whole _) scM4 (Memref.isWhole_whole _) (iblk m c 0 t) (tbl m 0) (tbl m 1) (V m c main_arg2) (V m c main_arg3) (V m c main_arg7) (V m c main_arg4) (V m c main_arg5) hH.1 hH.2).2 W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  isplitl [HT0]; · iexact HT0
  isplitl [HT1]; · iexact HT1
  isplitl [HW]; · iexact HW
  iintro ⟨H0, ⟨%e1, H1⟩, HS0, HS1, HS2, HS3, HS4, Hq0, Hq1, Hq2, Hq3, Hq4, Hh0, Hh1, Hh2, Hh3, Hh4, HT0, HT1, ⟨%W', HW'⟩⟩
  isplitl [HS0 HS1 HS2 HS3 HS4 Hg Hq0 Hq1 Hq2 Hq3 Hq4 Hh0 Hh1 Hh2 Hh3 Hh4 HT0 HT1]
  · isplitl [HS0 HS1 HS2 HS3 HS4 Hg Hq0 Hq1 Hq2 Hq3 Hq4 Hh0 Hh1 Hh2 Hh3 Hh4]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq0 Hq1 Hq2 Hq3 Hq4]
      · isplitl [Hq0]; · iexact Hq0
        isplitl [Hq1]; · iexact Hq1
        isplitl [Hq2]; · iexact Hq2
        isplitl [Hq3]; · iexact Hq3
        iexact Hq4
      isplitl [Hh0]; · iexact Hh0
      isplitl [Hh1]; · iexact Hh1
      isplitl [Hh3]; · iexact Hh3
      isplitl [Hh4]; · iexact Hh4
      iexact Hh2
    · isplitl [HT0]; · iexact HT0
      iexact HT1
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover1 c _ _ _ _ _ _ _ _ _ _ _ _ _ _ _ _ _ _ _ _ _ _ _ _ _)

set_option maxRecDepth 1000000 in
theorem body_obligation (hH : Hyps m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- Every weakly fair execution of @main terminates; at the end the output array holds what the proof data computes,
    every other buffer what the reshape after the region leaves from the region-entry contents. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V_pre m)
    (hin := fun _ => .rfl) (hout := fun c => by
      rw [show (dats m hH 0 c).Φ (Fin.last (Pipeline.pin pcfgs (fun _ => adm m) 0).N) = iprop(Pipeline.ΦD osem0 spec0 H0 (V m) c ∗ Pipeline.ΦT pre0 (tbl m) c) from rfl]
      iintro ⟨H, -⟩; iexact H)

end Cert.Kernel.Hand

end
-- ==== Proof.BitsClaim.lean ====
/-
  The frame claim of the row-gather program at any float instance, from the launch: no host operation writes an argument
  (the reshape before the region writes only the 1×1 global-bias buffer, the reshape after it only the result vector) and
  no argument is a window's array, so every argument ends as it started; and the hypothesis of the launch (every id word
  below one million) from the same fact about the two id arguments.
-/
import proofs.«404469_j412316861026_1_alg».proof.Proof.BitsFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer other than the 1×1 global-bias buffer is, when the region is entered, as launched. -/
theorem entry_of_ne (c : Dev nD) (b : Ref sig .tc) (h : b ≠ main_v0) : V m c b = m ((c : Thread nD τ).loc b) := by
  show StableHlo.after (List.flatten [hostOps0]) (fun b => m (c, b)) (Proc.devRef .tc b) = _
  exact StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact StableHlo.devRef_ne_of_ne h))

/-- A buffer that is neither window's array nor the result vector ends, after the reshape that follows the region, as
    launched. -/
theorem tail_of_ne (hH : Hyps m) (c : Dev nD) (b : Ref sig .tc) (h0 : b ≠ main_v0) (h1 : b ≠ main_v1) (h2 : b ≠ main_v2) :
    Pipeline.afterTail pcfgs (fun _ => adm m) (dats m hH) 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h2)),
    Pipeline.withArrays_of_ne _ c (V0 m c) _ b (by intro w; fin_cases w; exacts [fun e => h0 e.symm, fun e => h1 e.symm])]
  exact entry_of_ne m c b h0

/-- The launch's hypothesis from the id arguments. -/
theorem hyps_of_ids (h0 : ∀ x : S16384.Idx, BitVec.toNat (m (((0 : Dev nD) : Thread nD τ).loc main_arg0) x) < 1000000)
    (h1 : ∀ x : S16384.Idx, BitVec.toNat (m (((0 : Dev nD) : Thread nD τ).loc main_arg1) x) < 1000000) : Hyps m := by
  have e0 : tbl m 0 = m (((0 : Dev nD) : Thread nD τ).loc main_arg0) := entry_of_ne m 0 main_arg0 (by decide)
  have e1 : tbl m 1 = m (((0 : Dev nD) : Thread nD τ).loc main_arg1) := entry_of_ne m 0 main_arg1 (by decide)
  refine ⟨fun off inb j => ?_, fun off inb j => ?_⟩
  · rw [e0]; exact h0 _
  · rw [e1]; exact h1 _

/-- THE FRAME under the launch's hypothesis. -/
theorem frame_of_hyps (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (tail_of_ne m hH c main_arg0 (by decide) (by decide) (by decide)),
      ((h c).2 main_arg1 (by decide : main_arg1 ∈ Pipeline.restRefs sig spec0)).trans (tail_of_ne m hH c main_arg1 (by decide) (by decide) (by decide)),
      ((h c).2 main_arg2 (by decide : main_arg2 ∈ Pipeline.restRefs sig spec0)).trans (tail_of_ne m hH c main_arg2 (by decide) (by decide) (by decide)),
      ((h c).2 main_arg3 (by decide : main_arg3 ∈ Pipeline.restRefs sig spec0)).trans (tail_of_ne m hH c main_arg3 (by decide) (by decide) (by decide)),
      ((h c).2 main_arg4 (by decide : main_arg4 ∈ Pipeline.restRefs sig spec0)).trans (tail_of_ne m hH c main_arg4 (by decide) (by decide) (by decide)),
      ((h c).2 main_arg5 (by decide : main_arg5 ∈ Pipeline.restRefs sig spec0)).trans (tail_of_ne m hH c main_arg5 (by decide) (by decide) (by decide)),
      ((h c).2 main_arg6 (by decide : main_arg6 ∈ Pipeline.restRefs sig spec0)).trans (tail_of_ne m hH c main_arg6 (by decide) (by decide) (by decide)),
      ((h c).2 main_arg7 (by decide : main_arg7 ∈ Pipeline.restRefs sig spec0)).trans (tail_of_ne m hH c main_arg7 (by decide) (by decide) (by decide))⟩) (run_main m ρ hH)

end Cert.Kernel.Hand

end
-- ==== Proof.IdealShared.lean ====
/-
  What the frame and value arguments of the row-gather kernel share.  One grid point handles 64 batch rows.  For
  row r it reads two ids from the prefetched id tables (user id u, item id i), copies row u of the user-embedding
  table, row i of the item-embedding table, row u of the implicit table, and the two bias entries into five small
  scratch buffers by five copies of its own, each on its own semaphore and each waited for before any buffer is
  read, and stores  g + ub[u] + ib[i] + Σ_k (ue[u,k] + imp[u,k]) · ie[i,k]  at row r of the output block.
  Here: the contents of the buffers when the region is entered (one host reshape of the global bias runs first),
  the id tables, the scratch, table and HBM buffers as the body receives them, and the region invariant listed
  conjunct by conjunct.
-/
import proofs.«404469_j412316861026_1_alg».proof.Proof.Gen.KernelIdeal.Launch
import proofs.«404469_j412316861026_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the region is entered -/

/-- Core `c`'s buffer contents after the one host operation before the region (the global bias reshaped to 1×1). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the reshape, the region, the reshape of the result. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The id tables -/

/-- The two id tables when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables as admissible contents (no window's index map reads them), and the pipeline at them. -/
abbrev adm : (pcfg0 (F := F)).Adm := ⟨tbl m, trivial⟩
abbrev cfgM : Pipeline.Cfg sig Λ₀ := cfg0 (adm m)

abbrev tbM0 : Memref sig .tc .smem S16384 .i32 := Memref.whole main_arg0
abbrev htbM0 : tbM0.IsWhole := Memref.isWhole_whole _
abbrev tbM1 : Memref sig .tc .smem S16384 .i32 := Memref.whole main_arg1
abbrev htbM1 : tbM1.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S1x1 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S64x1 .f32 := spec0_1.stage ((cfgM m).slots t 1)
abbrev hs1 (t : Fin (cfgM m).N) : (ms1 m t).IsWhole := hstage0_1 (((cfgM m).slots t 1).cast nbuf0_1)
/-- One staging buffer of the output window, through which its contents are stated. -/
abbrev VO1 : View sig .tc .vmem S64x1 .f32 := (Memref.whole cc0_stg1_0 : Memref sig .tc .vmem S64x1 .f32).view

/-- The body at point `t`, on what the pipeline calls it with. -/
abbrev bodyAt (t : Fin (cfgM m).N) : Prog (TpuEff nD τ sig (Elt F) Λ₀ .tc) PUnit :=
  cc0__gather_kernel (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg7) (Memref.isWhole_whole _) (Memref.whole main_arg4) (Memref.isWhole_whole _) (Memref.whole main_arg5) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9

/-! ## Scratch, semaphores and the tables left in HBM -/

abbrev scM0 : Memref sig .tc .vmem S1x64 .f32 := Memref.whole cc0_scratch0
abbrev scM1 : Memref sig .tc .vmem S1x64 .f32 := Memref.whole cc0_scratch1
abbrev scM2 : Memref sig .tc .vmem S1x64 .f32 := Memref.whole cc0_scratch2
abbrev scM3 : Memref sig .tc .vmem S1x1 .f32 := Memref.whole cc0_scratch3
abbrev scM4 : Memref sig .tc .vmem S1x1 .f32 := Memref.whole cc0_scratch4
/-- user embeddings, item embeddings, implicit vectors, user bias, item bias: the body's operands 3–7. -/
abbrev hbM0 : Memref sig .tc .hbm S1000000x64 .f32 := Memref.whole main_arg2
abbrev hbM1 : Memref sig .tc .hbm S1000000x64 .f32 := Memref.whole main_arg3
abbrev hbM2 : Memref sig .tc .hbm S1000000x64 .f32 := Memref.whole main_arg7
abbrev hbM3 : Memref sig .tc .hbm S1000000x1 .f32 := Memref.whole main_arg4
abbrev hbM4 : Memref sig .tc .hbm S1000000x1 .f32 := Memref.whole main_arg5
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The five semaphores of the body's own copies. -/
abbrev osem0 : Fin 5 → SemLoc sig := fun j => (![SemLoc.dma 3, SemLoc.dma 4, SemLoc.dma 5, SemLoc.dma 6, SemLoc.dma 7] : Fin 5 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4] (by decide) (by decide)]; rfl
/-- The five tables the body copies rows of. -/
def H0 : Finset (Ref sig .tc) := {main_arg2, main_arg3, main_arg4, main_arg5, main_arg7}
theorem H0_sub : H0 ⊆ Pipeline.restRefsP sig pre0 spec0 := by decide
theorem hbmPts_eq (c : Dev nD) :
    (bigSep H0 (fun b => ((c : Thread nD τ).loc b) ↦{fullShare} V m c b) : sProp 𝕄)
      = iprop(hbPt c hbM0 (V m c main_arg2) ∗ hbPt c hbM1 (V m c main_arg3) ∗ hbPt c hbM3 (V m c main_arg4) ∗ hbPt c hbM4 (V m c main_arg5) ∗ hbPt c hbM2 (V m c main_arg7)) := by
  rw [BI.bigSep_eq_bigSepL_of_eq [main_arg2, main_arg3, main_arg4, main_arg5, main_arg7] (by decide) (by decide)]; rfl

/-- The region invariant, conjunct by conjunct: the five scratch buffers at some contents, the generator register, the
    five semaphores at zero, the five tables at their contents. -/
theorem PhiD_eq (c : Dev nD) :
    (Pipeline.ΦD osem0 spec0 H0 (V m) c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
          ∗ iprop(hbPt c hbM0 (V m c main_arg2) ∗ hbPt c hbM1 (V m c main_arg3) ∗ hbPt c hbM3 (V m c main_arg4) ∗ hbPt c hbM4 (V m c main_arg5) ∗ hbPt c hbM2 (V m c main_arg7))) := by
  rw [Pipeline.ΦD_eq, scopedRest0_eq, ownSems0_eq, hbmPts_eq]; simp only [scM0, scM1, scM2, scM3, scM4, owns_whole]; try rfl

/-! ## The ids are row numbers -/

/-- From an id below one million, the side condition the body assumes after reading a user id (three row copies) -/
theorem chk_user (v : BitVec 32) (h : v.toNat < 1000000) :
    (∀ a, (![v.toNat, 0] : Fin 2 → ℕ) a + S1x64.size a ≤ S1000000x64.size a) ∧
    (∀ a, (![v.toNat, 0] : Fin 2 → ℕ) a + S1x64.size a ≤ S1000000x64.size a) ∧
    (∀ a, (![v.toNat, 0] : Fin 2 → ℕ) a + S1x1.size a ≤ S1000000x1.size a) := by
  refine ⟨fun a => ?_, fun a => ?_, fun a => ?_⟩ <;> fin_cases a <;> simp [Shape.size] <;> omega
/-- and after reading an item id (two row copies). -/
theorem chk_item (v : BitVec 32) (h : v.toNat < 1000000) :
    (∀ a, (![v.toNat, 0] : Fin 2 → ℕ) a + S1x64.size a ≤ S1000000x64.size a) ∧
    (∀ a, (![v.toNat, 0] : Fin 2 → ℕ) a + S1x1.size a ≤ S1000000x1.size a) := by
  refine ⟨fun a => ?_, fun a => ?_⟩ <;> fin_cases a <;> simp [Shape.size] <;> omega

end Cert.KernelIdeal.Hand

end
-- ==== Proof.IdealRun.lean ====
/-
  One grid point of the row-gather body, run symbolically: from whole staging buffers (the global-bias block at its
  contents, the output block at anything), the five scratch buffers at anything, the five semaphores at zero, the five
  tables at their contents and the two id tables at contents whose every word is below one million, the body runs to its
  end; every copy it starts it also waits for, so semaphores, tables and id tables come back as they were, and the output
  block comes back with the sixty-four row stores written.
-/
import proofs.«404469_j412316861026_1_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- What the sixty-four row stores leave in the output block, as pieces (last first), with the proof that the body
    runs to its end from the resources listed and gives them back. -/
noncomputable def kernelRun (c : Dev nD) (i : grid0.Coords)
    (arg8 : Memref sig .tc .vmem S1x1 .f32) (harg8 : arg8.IsWhole) (arg9 : Memref sig .tc .vmem S64x1 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x1 .f32) (harg13 : arg13.IsWhole)
    (arg14 : Memref sig .tc .vmem S1x1 .f32) (harg14 : arg14.IsWhole)
    (x0 : Vec F S1x1 .f32) (xt0 : TbBuf (F := F) c tbM0) (xt1 : TbBuf (F := F) c tbM1)
    (fh0 : HbBuf (F := F) c hbM0) (fh1 : HbBuf (F := F) c hbM1) (fh2 : HbBuf (F := F) c hbM2) (fh3 : HbBuf (F := F) c hbM3) (fh4 : HbBuf (F := F) c hbM4)
    (hU0 : ∀ (off : Fin 1 → ℕ) (inb : ∀ a, off a + S1.size a ≤ S16384.size a) (j : (Rect.unit (s := S16384) off S1.size inb).toLoadRect.shape.Idx), BitVec.toNat (tbM0.view.readAt (Elt F) (Rect.unit (s := S16384) off S1.size inb).toLoadRect xt0 j) < 1000000)
    (hU1 : ∀ (off : Fin 1 → ℕ) (inb : ∀ a, off a + S1.size a ≤ S16384.size a) (j : (Rect.unit (s := S16384) off S1.size inb).toLoadRect.shape.Idx), BitVec.toNat (tbM1.view.readAt (Elt F) (Rect.unit (s := S16384) off S1.size inb).toLoadRect xt1 j) < 1000000) :
    { L1 : List (View.Piece (Elt F) S64x1 .f32) //
      ∀ (W : Waits sig Unit) (K : PUnit → sProp 𝕄),
        iprop(owns (c : Thread nD τ) arg8 fullShare x0 ∗ (∃ d, owns (c : Thread nD τ) arg9 fullShare d)
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
            ∗ hbPt c hbM0 fh0 ∗ hbPt c hbM1 fh1 ∗ hbPt c hbM2 fh2 ∗ hbPt c hbM3 fh3 ∗ hbPt c hbM4 fh4 ∗ tbPt c tbM0 xt0 ∗ tbPt c tbM1 xt1 ∗ owes (c : Thread nD τ) 0 W
            ∗ (iprop(owns (c : Thread nD τ) arg8 fullShare x0 ∗ (∃ f, arg9.view.loc (c : Thread nD τ) ↦[arg9.view.set]{fullShare} arg9.view.writes (Elt F) f L1)
                ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
                ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
                ∗ hbPt c hbM0 fh0 ∗ hbPt c hbM1 fh1 ∗ hbPt c hbM2 fh2 ∗ hbPt c hbM3 fh3 ∗ hbPt c hbM4 fh4 ∗ tbPt c tbM0 xt0 ∗ tbPt c tbM1 xt1 ∗ (∃ W', owes (c : Thread nD τ) 0 W')) -∗ K ⟨⟩))
          ⊢ wp frame (wpE (defs₀ (F := F)) Variants.none c none) Set.univ (cc0__gather_kernel i tbM0 htbM0 tbM1 htbM1 hbM0 (Memref.isWhole_whole _) hbM1 (Memref.isWhole_whole _) hbM2 (Memref.isWhole_whole _) hbM3 (Memref.isWhole_whole _) hbM4 (Memref.isWhole_whole _) arg8 harg8 arg9 harg9 arg10 harg10 arg11 harg11 arg12 harg12 arg13 harg13 arg14 harg14 cc0_scratch5 cc0_scratch6 cc0_scratch7 cc0_scratch8 cc0_scratch9) K } := by
  refine ⟨?_, fun W K => ?run⟩
  case run =>
    simp only [cc0__gather_kernel_eq_skeleton]; unfold cc0__gather_kernel_skel
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, Hh2, Hh3, Hh4, HT0, HT1, HW, Hk⟩
    obtain rfl := harg8.eq_unread hf0
    sl_exec_parts (disch := first | sl_exact (chk_user _ (hU0 _ _ _)) | sl_exact (chk_item _ (hU1 _ _ _)))
    sl_step
    iapply Hk
    isplitl [H0]
    · iexists _; isplitr; · ipureintro; exact harg8.read_unread _
      iexact H0
    isplitl [H1]; · iexists _; iexact H1
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    isplitl [Hh4]; · iexact Hh4
    isplitl [HT0]; · iexact HT0
    isplitl [HT1]; · iexact HT1
    iexists _; iexact HW

end Cert.KernelIdeal.Hand

end
-- ==== Proof.IdealFrame.lean ====
/-
  The frame of the row-gather program at any float instance: the proof data of its one pipeline (the global-bias block
  stays in place, the output block after a point is what that point's run leaves in it, the invariant holds the five
  scratch buffers, the five semaphores at zero, the five tables and the two id tables), the body obligation at every
  point from the run, and the launch: the host reshape before the region, the region, the host reshape after it.
  All of it under the hypothesis that every word of the two id tables is below one million.
-/
import proofs.«404469_j412316861026_1_alg».proof.Proof.IdealRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The hypothesis: the ids are row numbers -/

/-- Every word either id table holds, read through a one-word window at any offset, is below one million. -/
def Hyps : Prop :=
  (∀ (off : Fin 1 → ℕ) (inb : ∀ a, off a + S1.size a ≤ S16384.size a) (j : (Rect.unit (s := S16384) off S1.size inb).toLoadRect.shape.Idx), BitVec.toNat (tbM0.view.readAt (Elt F) (Rect.unit (s := S16384) off S1.size inb).toLoadRect (tbl m 0) j) < 1000000)
  ∧ (∀ (off : Fin 1 → ℕ) (inb : ∀ a, off a + S1.size a ≤ S16384.size a) (j : (Rect.unit (s := S16384) off S1.size inb).toLoadRect.shape.Idx), BitVec.toNat (tbM1.view.readAt (Elt F) (Rect.unit (s := S16384) off S1.size inb).toLoadRect (tbl m 1) j) < 1000000)

/-! ## The lines after the region -/

/-- The reshape after the region touches the output array and its own result only: no id table, none of the five tables. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) ?_ ?_
  · simp only [hostOps1, List.mem_cons, List.mem_nil_iff, or_false] at hop
    subst hop
    intro k
    rw [StableHlo.reshape_bufs]
    fin_cases k <;> simp only [Finset.mem_insert, Finset.mem_singleton, not_or] <;> exact ⟨StableHlo.devRef_ne_of_ne (by decide), StableHlo.devRef_ne_of_ne (by decide)⟩
  · simp only [hostOps1, List.mem_cons, List.mem_nil_iff, or_false] at hop
    subst hop
    intro b hb
    rw [StableHlo.reshape_bufs]
    simp only [H0, Finset.mem_insert, Finset.mem_singleton] at hb
    rcases hb with rfl | rfl | rfl | rfl | rfl <;> simp only [Finset.mem_insert, Finset.mem_singleton, not_or] <;> exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-! ## What the output block holds after a point -/

variable {m} in
/-- The run's sixty-four row stores tile the 64×1 block. -/
theorem cover1 (c : Dev nD) (i : grid0.Coords)
    (arg8 : Memref sig .tc .vmem S1x1 .f32) (harg8 : arg8.IsWhole) (arg9 : Memref sig .tc .vmem S64x1 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x1 .f32) (harg13 : arg13.IsWhole)
    (arg14 : Memref sig .tc .vmem S1x1 .f32) (harg14 : arg14.IsWhole)
    (x0 : Vec F S1x1 .f32) (xt0 : TbBuf (F := F) c tbM0) (xt1 : TbBuf (F := F) c tbM1)
    (fh0 : HbBuf (F := F) c hbM0) (fh1 : HbBuf (F := F) c hbM1) (fh2 : HbBuf (F := F) c hbM2) (fh3 : HbBuf (F := F) c hbM3) (fh4 : HbBuf (F := F) c hbM4)
    (hU0 : ∀ (off : Fin 1 → ℕ) (inb : ∀ a, off a + S1.size a ≤ S16384.size a) (j : (Rect.unit (s := S16384) off S1.size inb).toLoadRect.shape.Idx), BitVec.toNat (tbM0.view.readAt (Elt F) (Rect.unit (s := S16384) off S1.size inb).toLoadRect xt0 j) < 1000000)
    (hU1 : ∀ (off : Fin 1 → ℕ) (inb : ∀ a, off a + S1.size a ≤ S16384.size a) (j : (Rect.unit (s := S16384) off S1.size inb).toLoadRect.shape.Idx), BitVec.toNat (tbM1.view.readAt (Elt F) (Rect.unit (s := S16384) off S1.size inb).toLoadRect xt1 j) < 1000000) (y : S64x1.Idx) :
    ∃ pc ∈ (kernelRun c i arg8 harg8 arg9 harg9 arg10 harg10 arg11 harg11 arg12 harg12 arg13 harg13 arg14 harg14 x0 xt0 xt1 fh0 fh1 fh2 fh3 fh4 hU0 hU1).1, y ∈ pc.1.set :=
  View.cover_of_tiledL (kernelRun c i arg8 harg8 arg9 harg9 arg10 harg10 arg11 harg11 arg12 harg12 arg13 harg13 arg14 harg14 x0 xt0 xt1 fh0 fh1 fh2 fh3 fh4 hU0 hU1).1 S1x1.size (by sl_kernel_rfl) y

/-- What the output block holds after point `t`: the run's stores read back. -/
def outAt (hH : Hyps m) (c : Dev nD) (t : Fin (cfgM m).N) : Vec F S64x1 .f32 :=
  VO1.read (Elt F) (VO1.writes (Elt F) VO1.junk (kernelRun c (grid0.coords t) (ms0 m t) (hs0 m t) (ms1 m t) (hs1 m t) scM0 (Memref.isWhole_whole _) scM1 (Memref.isWhole_whole _) scM2 (Memref.isWhole_whole _) scM3 (Memref.isWhole_whole _) scM4 (Memref.isWhole_whole _) (iblk m c 0 t) (tbl m 0) (tbl m 1) (V m c main_arg2) (V m c main_arg3) (V m c main_arg7) (V m c main_arg4) (V m c main_arg5) hH.1 hH.2).1)

/-! ## The proof data -/

def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m hH c t
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]
theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = outAt m hH c t := by dsimp only [dats]; try rfl

/-- The global-bias block is in its staging buffer at every point (fetched once; its index never moves). -/
theorem before0_0 (hH : Hyps m) (c : Dev nD) (t : Fin (cfgM m).N) (d) : (dats m hH 0 c).before 0 t d = iblk m c 0 t :=
  ((dats m hH 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body obligation -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t))

theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before0_0]
  rw [show (dats m hH 0 c).Φ t.succ = (dats m hH 0 c).Φ t.castSucc from rfl, after0_0, after0_1]
  rw [show (dats m hH 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  unfold outAt
  iintro ⟨⟨⟨⟨HS0, HS1, HS2, HS3, HS4⟩, Hg, ⟨Hq0, Hq1, Hq2, Hq3, Hq4⟩, ⟨Hh0, Hh1, Hh3, Hh4, Hh2⟩⟩, ⟨HT0, HT1⟩⟩, ⟨%W, -, HW⟩, ⟨%d0, H0⟩, ⟨%d1, H1⟩⟩
  iapply ((kernelRun c (grid0.coords t) (ms0 m t) (hs0 m t) (ms1 m t) (hs1 m t) scM0 (Memref.isWhole_whole _) scM1 (Memref.isWhole_whole _) scM2 (Memref.isWhole_whole _) scM3 (Memref.isWhole_whole _) scM4 (Memref.isWhole_whole _) (iblk m c 0 t) (tbl m 0) (tbl m 1) (V m c main_arg2) (V m c main_arg3) (V m c main_arg7) (V m c main_arg4) (V m c main_arg5) hH.1 hH.2).2 W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  isplitl [HT0]; · iexact HT0
  isplitl [HT1]; · iexact HT1
  isplitl [HW]; · iexact HW
  iintro ⟨H0, ⟨%e1, H1⟩, HS0, HS1, HS2, HS3, HS4, Hq0, Hq1, Hq2, Hq3, Hq4, Hh0, Hh1, Hh2, Hh3, Hh4, HT0, HT1, ⟨%W', HW'⟩⟩
  isplitl [HS0 HS1 HS2 HS3 HS4 Hg Hq0 Hq1 Hq2 Hq3 Hq4 Hh0 Hh1 Hh2 Hh3 Hh4 HT0 HT1]
  · isplitl [HS0 HS1 HS2 HS3 HS4 Hg Hq0 Hq1 Hq2 Hq3 Hq4 Hh0 Hh1 Hh2 Hh3 Hh4]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq0 Hq1 Hq2 Hq3 Hq4]
      · isplitl [Hq0]; · iexact Hq0
        isplitl [Hq1]; · iexact Hq1
        isplitl [Hq2]; · iexact Hq2
        isplitl [Hq3]; · iexact Hq3
        iexact Hq4
      isplitl [Hh0]; · iexact Hh0
      isplitl [Hh1]; · iexact Hh1
      isplitl [Hh3]; · iexact Hh3
      isplitl [Hh4]; · iexact Hh4
      iexact Hh2
    · isplitl [HT0]; · iexact HT0
      iexact HT1
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover1 c _ _ _ _ _ _ _ _ _ _ _ _ _ _ _ _ _ _ _ _ _ _ _ _ _)

set_option maxRecDepth 1000000 in
theorem body_obligation (hH : Hyps m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- Every weakly fair execution of @main terminates; at the end the output array holds what the proof data computes,
    every other buffer what the reshape after the region leaves from the region-entry contents. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V_pre m)
    (hin := fun _ => .rfl) (hout := fun c => by
      rw [show (dats m hH 0 c).Φ (Fin.last (Pipeline.pin pcfgs (fun _ => adm m) 0).N) = iprop(Pipeline.ΦD osem0 spec0 H0 (V m) c ∗ Pipeline.ΦT pre0 (tbl m) c) from rfl]
      iintro ⟨H, -⟩; iexact H)

end Cert.KernelIdeal.Hand

end
-- ==== Proof.IdealClaim.lean ====
/-
  The frame claim of the row-gather program at any float instance, from the launch: no host operation writes an argument
  (the reshape before the region writes only the 1×1 global-bias buffer, the reshape after it only the result vector) and
  no argument is a window's array, so every argument ends as it started; and the hypothesis of the launch (every id word
  below one million) from the same fact about the two id arguments.
-/
import proofs.«404469_j412316861026_1_alg».proof.Proof.IdealFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer other than the 1×1 global-bias buffer is, when the region is entered, as launched. -/
theorem entry_of_ne (c : Dev nD) (b : Ref sig .tc) (h : b ≠ main_v0) : V m c b = m ((c : Thread nD τ).loc b) := by
  show StableHlo.after (List.flatten [hostOps0]) (fun b => m (c, b)) (Proc.devRef .tc b) = _
  exact StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact StableHlo.devRef_ne_of_ne h))

/-- A buffer that is neither window's array nor the result vector ends, after the reshape that follows the region, as
    launched. -/
theorem tail_of_ne (hH : Hyps m) (c : Dev nD) (b : Ref sig .tc) (h0 : b ≠ main_v0) (h1 : b ≠ main_v1) (h2 : b ≠ main_v2) :
    Pipeline.afterTail pcfgs (fun _ => adm m) (dats m hH) 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h2)),
    Pipeline.withArrays_of_ne _ c (V0 m c) _ b (by intro w; fin_cases w; exacts [fun e => h0 e.symm, fun e => h1 e.symm])]
  exact entry_of_ne m c b h0

/-- The launch's hypothesis from the id arguments. -/
theorem hyps_of_ids (h0 : ∀ x : S16384.Idx, BitVec.toNat (m (((0 : Dev nD) : Thread nD τ).loc main_arg0) x) < 1000000)
    (h1 : ∀ x : S16384.Idx, BitVec.toNat (m (((0 : Dev nD) : Thread nD τ).loc main_arg1) x) < 1000000) : Hyps m := by
  have e0 : tbl m 0 = m (((0 : Dev nD) : Thread nD τ).loc main_arg0) := entry_of_ne m 0 main_arg0 (by decide)
  have e1 : tbl m 1 = m (((0 : Dev nD) : Thread nD τ).loc main_arg1) := entry_of_ne m 0 main_arg1 (by decide)
  refine ⟨fun off inb j => ?_, fun off inb j => ?_⟩
  · rw [e0]; exact h0 _
  · rw [e1]; exact h1 _

/-- THE FRAME under the launch's hypothesis. -/
theorem frame_of_hyps (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (tail_of_ne m hH c main_arg0 (by decide) (by decide) (by decide)),
      ((h c).2 main_arg1 (by decide : main_arg1 ∈ Pipeline.restRefs sig spec0)).trans (tail_of_ne m hH c main_arg1 (by decide) (by decide) (by decide)),
      ((h c).2 main_arg2 (by decide : main_arg2 ∈ Pipeline.restRefs sig spec0)).trans (tail_of_ne m hH c main_arg2 (by decide) (by decide) (by decide)),
      ((h c).2 main_arg3 (by decide : main_arg3 ∈ Pipeline.restRefs sig spec0)).trans (tail_of_ne m hH c main_arg3 (by decide) (by decide) (by decide)),
      ((h c).2 main_arg4 (by decide : main_arg4 ∈ Pipeline.restRefs sig spec0)).trans (tail_of_ne m hH c main_arg4 (by decide) (by decide) (by decide)),
      ((h c).2 main_arg5 (by decide : main_arg5 ∈ Pipeline.restRefs sig spec0)).trans (tail_of_ne m hH c main_arg5 (by decide) (by decide) (by decide)),
      ((h c).2 main_arg6 (by decide : main_arg6 ∈ Pipeline.restRefs sig spec0)).trans (tail_of_ne m hH c main_arg6 (by decide) (by decide) (by decide)),
      ((h c).2 main_arg7 (by decide : main_arg7 ∈ Pipeline.restRefs sig spec0)).trans (tail_of_ne m hH c main_arg7 (by decide) (by decide) (by decide))⟩) (run_main m ρ hH)

end Cert.KernelIdeal.Hand

end
-- ==== Proof.Spec.lean ====
/-
  The score the two programs compute, stated once over literal shapes.  Batch row j has a user id u and an item id i
  (words of the two id tables, read as row numbers of million-row tables); its score is
      g + ub[u] + ib[i] + Σ_k (ue[u,k] + imp[u,k]) · ie[i,k]      (64 features, on the extended reals),
  the additions associated as written: ((g + ub[u]) + ib[i]) + the sum.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Spec

open Idealize.ShloMosaic Idealize.ShloMosaic.ValueIdx

/-- The row of a million-row table an id word names (total: reduced modulo the row count; an id below one million names
    itself). -/
def rowOf (v : BitVec 32) : Fin 1000000 := ⟨v.toNat % 1000000, Nat.mod_lt _ (by norm_num)⟩

theorem rowOf_val_of_lt (v : BitVec 32) (h : v.toNat < 1000000) : (rowOf v).val = v.toNat := Nat.mod_eq_of_lt h

/-- The score of every batch row. -/
def score (uid iid : (⟨1, ![16384]⟩ : Shape).Idx → BitVec 32)
    (ue ie : (⟨2, ![1000000, 64]⟩ : Shape).Idx → EReal) (ub ib : (⟨2, ![1000000, 1]⟩ : Shape).Idx → EReal)
    (gb : (⟨1, ![1]⟩ : Shape).Idx → EReal) (imp : (⟨2, ![1000000, 64]⟩ : Shape).Idx → EReal) :
    (⟨1, ![16384]⟩ : Shape).Idx → EReal := fun j =>
  ((gb (ix1 0) + ub (ix2 (rowOf (uid j)) 0)) + ib (ix2 (rowOf (iid j)) 0))
    + ∑ k : Fin 64, (ue (ix2 (rowOf (uid j)) k) + imp (ix2 (rowOf (uid j)) k)) * ie (ix2 (rowOf (iid j)) k)

end Cert.Spec

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefScore.lean ====
/-
  THE REFERENCE PROGRAM'S RESULT IS THE SCORE. Under "every id word is below one million" the reference's output
  buffer holds, at batch row e,
      ((g + ub[u]) + ib[i]) + Σ_k (ue[u,k] + imp[u,k]) · ie[i,k]        (u, i the two ids of row e; 64 features),
  the arguments unchanged.

  * the point gather (single entries of an [N, 1] table at [E, 2] start words: `pointGather`, `pointGather_apply`):
    result e is the table at (the row word of e read signed and clamped into [0, N − 1], 0);
  * an id word below one million is non-negative read signed, so the normalising select keeps it (`norm_id`) and the
    clamp of a gather keeps it (`clamp_row`): the two gathers of the program read the id's own row (`rowGather_id`,
    `pointGather_id`);
  * the stages of the reference at an index (`v4_at` … `v47_at`): the five normalised id vectors are the id vectors,
    the three row gathers read rows u, i, u, the two point gathers read entries (u, 0), (i, 0) (the index pairs are the
    concatenation of the id column with a zero column, read at its first column), the sum over the features starts from
    the zero constant, the global bias reshaped to a scalar is its one entry;
  * `score_eq`: the composed term is `Cert.Spec.score`; `run_score`: the reference's run with its result so rewritten.
-/
import proofs.«404469_j412316861026_1_alg».proof.Proof.Gen.ReferenceIdeal.Run
import proofs.«404469_j412316861026_1_alg».proof.Proof.Gen.ReferenceIdeal.Read
import proofs.«404469_j412316861026_1_alg».proof.Proof.Spec
import proofs.«404469_j412316861026_1_alg».proof.Proof.LibRowGatherScatter

noncomputable section

open scoped BigOperators

namespace Cert.ReferenceIdeal.RefValue

open Cert.ReferenceIdeal Cert.ReferenceIdeal.Gen Cert.ReferenceIdeal.Read Cert.ReferenceIdeal.Hand
  Idealize.ShloMosaic Idealize.ShloMosaic.TcCoe Idealize.SL.Sem Idealize.ShloMosaic.StableHlo Idealize.ShloMosaic.ValueIdx

/-! ## The point gather -/

section PointGather
variable {α : Type}

/-- The dimension numbers of a gather of single entries of an [N, 1] table at [E, 2] start words (row word, column
    word): both operand axes collapsed and indexed, no offset axis. -/
abbrev pointGather (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The point gather at e: the table at (the clamped signed row word of e, 0); the column axis has one entry. -/
theorem pointGather_apply {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (pointGather N E wf) x idx (ix1 e)
      = x (ix2 ⟨min (idx (ix2 e 0)).toInt.toNat (N - 1), by omega⟩ 0) := by
  unfold Host.gather
  congr 1
  funext a
  refine Fin.ext ?_
  match a with
  | ⟨0, _⟩ =>
    have h0 : (0 : Fin 2) ∈ [(0 : Fin 2), 1] := by decide
    show (pointGather N E wf).start (ix1 e) idx 0 + (pointGather N E wf).batchCoord (ix1 e) 0
      + (pointGather N E wf).offCoord (ix1 e) 0 = _
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 2) ∈ (pointGather N E wf).startIndexMap from h0)]
    have hsi : (pointGather N E wf).siIdx (ix1 e) ⟨List.idxOf (0 : Fin 2) (pointGather N E wf).startIndexMap,
        List.idxOf_lt_length_iff.2 h0⟩ = ix2 e 0 := by
      funext b; refine Fin.ext ?_
      match b with
      | ⟨0, _⟩ => rfl
      | ⟨1, _⟩ => rfl
    rw [hsi]
    rfl
  | ⟨1, _⟩ =>
    have h1 : ((pointGather N E wf).operandIdx (ix1 e) idx (1 : Fin 2)).val < 1 :=
      ((pointGather N E wf).operandIdx (ix1 e) idx (1 : Fin 2)).isLt
    show ((pointGather N E wf).operandIdx (ix1 e) idx (1 : Fin 2)).val = 0
    omega

end PointGather

/-! ## Ids below one million -/

/-- A word below one million, read signed and clamped into the rows, names its own row. -/
theorem clamp_row (s : BitVec 32) (h : s.toNat < 1000000) :
    min s.toInt.toNat (1000000 - 1) = (Cert.Spec.rowOf s).val := by
  have h1 : s.toInt = (s.toNat : ℤ) := BitVec.toInt_eq_toNat_of_lt (by omega)
  rw [Cert.Spec.rowOf_val_of_lt s h, h1]
  omega

/-- A word below one million is not negative, so the normalising select keeps it. -/
theorem norm_id (s n : BitVec 32) (h : s.toNat < 1000000) :
    Scalar.select (IntOp.cmpi .slt s 0#32) (IntOp.addi s n) s = s := by
  have h1 : s.toInt = (s.toNat : ℤ) := BitVec.toInt_eq_toNat_of_lt (by omega)
  rw [wrap_select, if_neg]
  omega

section Gathers
variable {α : Type}

/-- The program's row gather at (e, q) when the start word of e is an id below one million: the id's row, feature q. -/
theorem rowGather_id (x : S1000000x64.Idx → α) (idx : IVec S16384x1 32) (e : Fin 16384) (q : Fin 64) (s : BitVec 32)
    (hs : idx (ix2 e 0) = s) (hlt : s.toNat < 1000000) :
    Host.gather gather_S1000000x64_S16384x1_S16384x64_1_0_n_n_0_1_164 x idx (ix2 e q)
      = x (ix2 (Cert.Spec.rowOf s) q) :=
  (rowGather_apply_of_eq (N := 1000000) (E := 16384) (D := 64) (by norm_num)
      gather_S1000000x64_S16384x1_S16384x64_1_0_n_n_0_1_164_wf x idx e q s hs).trans
    (congrArg (fun r => x (ix2 r q)) (Fin.ext (clamp_row s hlt)))

/-- The program's point gather at e when the row word of e is an id below one million: the id's row, column 0. -/
theorem pointGather_id (x : S1000000x1.Idx → α) (idx : IVec S16384x2 32) (e : Fin 16384) (s : BitVec 32)
    (hs : idx (ix2 e 0) = s) (hlt : s.toNat < 1000000) :
    Host.gather gather_S1000000x1_S16384x2_S16384_n_01_n_n_01_1_11 x idx (ix1 e)
      = x (ix2 (Cert.Spec.rowOf s) 0) := by
  subst hs
  exact (pointGather_apply (N := 1000000) (E := 16384) (by norm_num)
      gather_S1000000x1_S16384x2_S16384_n_01_n_n_01_1_11_wf x idx e).trans
    (congrArg (fun r => x (ix2 r 0)) (Fin.ext (clamp_row _ hlt)))

end Gathers

/-! ## The reference program's stages at an index -/

section Stages

theorem v4_at (x0 : (⟨S16384, .i32⟩ : BufTy).Contents (Elt Ideal)) (e : Fin 16384) (h : BitVec.toNat (x0 (ix1 e)) < 1000000) :
    val_main_v4 (F := Ideal) x0 (ix1 e) = x0 (ix1 e) := by
  rw [val_main_v4_apply, val_main_v1_apply, val_main_v3_apply, val_main_v0_apply, val_main_c_apply]
  exact norm_id _ _ h

theorem v5_at (x0 : (⟨S16384, .i32⟩ : BufTy).Contents (Elt Ideal)) (e : Fin 16384) (h : BitVec.toNat (x0 (ix1 e)) < 1000000) :
    val_main_v5 (F := Ideal) x0 (ix2 e (0 : Fin 1)) = x0 (ix1 e) := by
  have hk : idx_main_v5 (ix2 e (0 : Fin 1)) = ix1 e := by
    funext a; match a with | ⟨0, _⟩ => rfl
  rw [val_main_v5_apply, hk]
  exact v4_at x0 e h

theorem v6_at (x0 : (⟨S16384, .i32⟩ : BufTy).Contents (Elt Ideal)) (x2 : (⟨S1000000x64, .f32⟩ : BufTy).Contents (Elt Ideal)) (e : Fin 16384) (q : Fin 64)
    (h : BitVec.toNat (x0 (ix1 e)) < 1000000) :
    val_main_v6 (F := Ideal) x0 x2 (ix2 e q) = x2 (ix2 (Cert.Spec.rowOf (x0 (ix1 e))) q) :=
  rowGather_id x2 _ e q _ (v5_at x0 e h) h

theorem v11_at (x1 : (⟨S16384, .i32⟩ : BufTy).Contents (Elt Ideal)) (e : Fin 16384) (h : BitVec.toNat (x1 (ix1 e)) < 1000000) :
    val_main_v11 (F := Ideal) x1 (ix1 e) = x1 (ix1 e) := by
  rw [val_main_v11_apply, val_main_v8_apply, val_main_v10_apply, val_main_v7_apply, val_main_c_1_apply]
  exact norm_id _ _ h

theorem v12_at (x1 : (⟨S16384, .i32⟩ : BufTy).Contents (Elt Ideal)) (e : Fin 16384) (h : BitVec.toNat (x1 (ix1 e)) < 1000000) :
    val_main_v12 (F := Ideal) x1 (ix2 e (0 : Fin 1)) = x1 (ix1 e) := by
  have hk : idx_main_v12 (ix2 e (0 : Fin 1)) = ix1 e := by
    funext a; match a with | ⟨0, _⟩ => rfl
  rw [val_main_v12_apply, hk]
  exact v11_at x1 e h

theorem v13_at (x1 : (⟨S16384, .i32⟩ : BufTy).Contents (Elt Ideal)) (x3 : (⟨S1000000x64, .f32⟩ : BufTy).Contents (Elt Ideal)) (e : Fin 16384) (q : Fin 64)
    (h : BitVec.toNat (x1 (ix1 e)) < 1000000) :
    val_main_v13 (F := Ideal) x1 x3 (ix2 e q) = x3 (ix2 (Cert.Spec.rowOf (x1 (ix1 e))) q) :=
  rowGather_id x3 _ e q _ (v12_at x1 e h) h

theorem v18_at (x0 : (⟨S16384, .i32⟩ : BufTy).Contents (Elt Ideal)) (e : Fin 16384) (h : BitVec.toNat (x0 (ix1 e)) < 1000000) :
    val_main_v18 (F := Ideal) x0 (ix1 e) = x0 (ix1 e) := by
  rw [val_main_v18_apply, val_main_v15_apply, val_main_v17_apply, val_main_v14_apply, val_main_c_3_apply]
  exact norm_id _ _ h

theorem v21_at (x0 : (⟨S16384, .i32⟩ : BufTy).Contents (Elt Ideal)) (e : Fin 16384) (h : BitVec.toNat (x0 (ix1 e)) < 1000000) :
    val_main_v21 (F := Ideal) x0 (ix2 e (0 : Fin 1)) = x0 (ix1 e) := by
  have hk : idx_main_v21 (ix2 e (0 : Fin 1)) = ix1 e := by
    funext a; match a with | ⟨0, _⟩ => rfl
  rw [val_main_v21_apply, hk]
  exact v18_at x0 e h

theorem v23_at (x0 : (⟨S16384, .i32⟩ : BufTy).Contents (Elt Ideal)) (e : Fin 16384) (h : BitVec.toNat (x0 (ix1 e)) < 1000000) :
    val_main_v23 (F := Ideal) x0 (ix2 e (0 : Fin 2)) = x0 (ix1 e) := by
  unfold val_main_v23
  refine (concatenate_pair_apply_left (t := S16384x2) (s₁ := S16384x1) (s₂ := S16384x1) _ _ _ _ (ix2 e (0 : Fin 2)) rfl
    (ix2 e (0 : Fin 1))
    (fun b => by match b with | ⟨0, _⟩ => rfl | ⟨1, _⟩ => rfl)).trans ?_
  exact v21_at x0 e h

theorem v24_at (x0 : (⟨S16384, .i32⟩ : BufTy).Contents (Elt Ideal)) (x4 : (⟨S1000000x1, .f32⟩ : BufTy).Contents (Elt Ideal)) (e : Fin 16384) (h : BitVec.toNat (x0 (ix1 e)) < 1000000) :
    val_main_v24 (F := Ideal) x0 x4 (ix1 e) = x4 (ix2 (Cert.Spec.rowOf (x0 (ix1 e))) 0) :=
  pointGather_id x4 _ e _ (v23_at x0 e h) h

theorem v29_at (x1 : (⟨S16384, .i32⟩ : BufTy).Contents (Elt Ideal)) (e : Fin 16384) (h : BitVec.toNat (x1 (ix1 e)) < 1000000) :
    val_main_v29 (F := Ideal) x1 (ix1 e) = x1 (ix1 e) := by
  rw [val_main_v29_apply, val_main_v26_apply, val_main_v28_apply, val_main_v25_apply, val_main_c_6_apply]
  exact norm_id _ _ h

theorem v32_at (x1 : (⟨S16384, .i32⟩ : BufTy).Contents (Elt Ideal)) (e : Fin 16384) (h : BitVec.toNat (x1 (ix1 e)) < 1000000) :
    val_main_v32 (F := Ideal) x1 (ix2 e (0 : Fin 1)) = x1 (ix1 e) := by
  have hk : idx_main_v32 (ix2 e (0 : Fin 1)) = ix1 e := by
    funext a; match a with | ⟨0, _⟩ => rfl
  rw [val_main_v32_apply, hk]
  exact v29_at x1 e h

theorem v34_at (x1 : (⟨S16384, .i32⟩ : BufTy).Contents (Elt Ideal)) (e : Fin 16384) (h : BitVec.toNat (x1 (ix1 e)) < 1000000) :
    val_main_v34 (F := Ideal) x1 (ix2 e (0 : Fin 2)) = x1 (ix1 e) := by
  unfold val_main_v34
  refine (concatenate_pair_apply_left (t := S16384x2) (s₁ := S16384x1) (s₂ := S16384x1) _ _ _ _ (ix2 e (0 : Fin 2)) rfl
    (ix2 e (0 : Fin 1))
    (fun b => by match b with | ⟨0, _⟩ => rfl | ⟨1, _⟩ => rfl)).trans ?_
  exact v32_at x1 e h

theorem v35_at (x1 : (⟨S16384, .i32⟩ : BufTy).Contents (Elt Ideal)) (x5 : (⟨S1000000x1, .f32⟩ : BufTy).Contents (Elt Ideal)) (e : Fin 16384) (h : BitVec.toNat (x1 (ix1 e)) < 1000000) :
    val_main_v35 (F := Ideal) x1 x5 (ix1 e) = x5 (ix2 (Cert.Spec.rowOf (x1 (ix1 e))) 0) :=
  pointGather_id x5 _ e _ (v34_at x1 e h) h

theorem v40_at (x0 : (⟨S16384, .i32⟩ : BufTy).Contents (Elt Ideal)) (e : Fin 16384) (h : BitVec.toNat (x0 (ix1 e)) < 1000000) :
    val_main_v40 (F := Ideal) x0 (ix1 e) = x0 (ix1 e) := by
  rw [val_main_v40_apply, val_main_v37_apply, val_main_v39_apply, val_main_v36_apply, val_main_c_9_apply]
  exact norm_id _ _ h

theorem v41_at (x0 : (⟨S16384, .i32⟩ : BufTy).Contents (Elt Ideal)) (e : Fin 16384) (h : BitVec.toNat (x0 (ix1 e)) < 1000000) :
    val_main_v41 (F := Ideal) x0 (ix2 e (0 : Fin 1)) = x0 (ix1 e) := by
  have hk : idx_main_v41 (ix2 e (0 : Fin 1)) = ix1 e := by
    funext a; match a with | ⟨0, _⟩ => rfl
  rw [val_main_v41_apply, hk]
  exact v40_at x0 e h

theorem v42_at (x0 : (⟨S16384, .i32⟩ : BufTy).Contents (Elt Ideal)) (x7 : (⟨S1000000x64, .f32⟩ : BufTy).Contents (Elt Ideal)) (e : Fin 16384) (q : Fin 64)
    (h : BitVec.toNat (x0 (ix1 e)) < 1000000) :
    val_main_v42 (F := Ideal) x0 x7 (ix2 e q) = x7 (ix2 (Cert.Spec.rowOf (x0 (ix1 e))) q) :=
  rowGather_id x7 _ e q _ (v41_at x0 e h) h

/-- The sum over the 64 features at e. -/
theorem v45_at (x0 x1 : (⟨S16384, .i32⟩ : BufTy).Contents (Elt Ideal)) (x2 x3 x7 : (⟨S1000000x64, .f32⟩ : BufTy).Contents (Elt Ideal)) (e : Fin 16384)
    (hu : BitVec.toNat (x0 (ix1 e)) < 1000000) (hi : BitVec.toNat (x1 (ix1 e)) < 1000000) :
    val_main_v45 (F := Ideal) x0 x1 x2 x3 x7 (ix1 e)
      = ∑ k : Fin 64, (x2 (ix2 (Cert.Spec.rowOf (x0 (ix1 e))) k) + x7 (ix2 (Cert.Spec.rowOf (x0 (ix1 e))) k))
          * x3 (ix2 (Cert.Spec.rowOf (x1 (ix1 e))) k) := by
  rw [val_main_v45_apply, val_main_cst_apply, Ideal.ofBits_def, Ideal.ofBits_zero_f32, zero_add]
  refine Finset.sum_congr rfl fun k _ => ?_
  have hk : idx_main_v45 (ix1 e) k = ix2 e k := by
    funext a; match a with | ⟨0, _⟩ => rfl | ⟨1, _⟩ => rfl
  rw [hk, val_main_v44_apply, val_main_v43_apply, v6_at x0 x2 e k hu, v42_at x0 x7 e k hu, v13_at x1 x3 e k hi]
  rfl

/-- The global bias, reshaped to a scalar and spread over the batch, at e. -/
theorem v47_at (x6 : (⟨S1, .f32⟩ : BufTy).Contents (Elt Ideal)) (e : Fin 16384) : val_main_v47 (F := Ideal) x6 (ix1 e) = x6 (ix1 0) := by
  rw [val_main_v47_apply]
  unfold val_main_v46
  refine shapeCast_apply x6 shapeCasts_S1_S_ _ (ix1 0) ?_
  have h1 : (S1.rowMajor (ix1 0)).val < 1 := (S1.rowMajor (ix1 0)).isLt
  have h2 : (S_.rowMajor (idx_main_v47 (ix1 e))).val < 1 := (S_.rowMajor (idx_main_v47 (ix1 e))).isLt
  exact (Nat.lt_one_iff.mp h1).trans (Nat.lt_one_iff.mp h2).symm

/-- The reference's result is the score. -/
theorem score_eq (x0 x1 : (⟨S16384, .i32⟩ : BufTy).Contents (Elt Ideal)) (x2 x3 : (⟨S1000000x64, .f32⟩ : BufTy).Contents (Elt Ideal)) (x4 x5 : (⟨S1000000x1, .f32⟩ : BufTy).Contents (Elt Ideal)) (x6 : (⟨S1, .f32⟩ : BufTy).Contents (Elt Ideal)) (x7 : (⟨S1000000x64, .f32⟩ : BufTy).Contents (Elt Ideal))
    (hu : ∀ x : S16384.Idx, BitVec.toNat (x0 x) < 1000000) (hi : ∀ x : S16384.Idx, BitVec.toNat (x1 x) < 1000000) :
    val_main_v50 (F := Ideal) x0 x1 x2 x3 x4 x5 x6 x7 = Cert.Spec.score x0 x1 x2 x3 x4 x5 x6 x7 := by
  funext j
  obtain ⟨e, rfl⟩ : ∃ e : Fin 16384, j = ix1 e := ⟨j 0, eq_ix1 j⟩
  rw [val_main_v50_apply, val_main_v49_apply, val_main_v48_apply, v47_at x6 e, v24_at x0 x4 e (hu _),
    v35_at x1 x5 e (hi _), v45_at x0 x1 x2 x3 x7 e (hu _) (hi _)]
  rfl

end Stages

/-! ## The run -/

theorem run_score (m : (ℓ : Loc nD τ sig) → Buf (Elt Ideal) ℓ) (ρ : Dev nD → PrngReg)
    (hu : ∀ (c : Dev nD) (x : S16384.Idx), BitVec.toNat (m ((c.tc : Thread nD τ).loc main_arg0) x) < 1000000)
    (hi : ∀ (c : Dev nD) (x : S16384.Idx), BitVec.toNat (m ((c.tc : Thread nD τ).loc main_arg1) x) < 1000000) :
    θ_run (defs (F := Ideal)) (onTc (τ := τ) (main (F := Ideal))) ⟨m, fun _ => 0, ρ⟩ (fun r => ∀ c : Dev nD,
      r.2.mem ((c.tc : Thread nD τ).loc main_v50) = Cert.Spec.score (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans ((val_main_v50_eq (F := Ideal) _ _ _ _ _ _ _ _).trans
      (score_eq _ _ _ _ _ _ _ _ (hu c) (hi c))), (h c).2⟩) (Cert.ReferenceIdeal.Value.run (F := Ideal) m ρ)

end Cert.ReferenceIdeal.RefValue

end
-- ==== Proof.IdealPoint.lean ====
/-
  The value one grid point of the row-gather kernel leaves in its output block.  Point t handles batch rows 64·t … 64·t + 63.
  For row r it reads the two id words at 64·t + r (user id u, item id i), copies row u of the user-embedding table, row i of
  the item-embedding table, row u of the implicit table and the two bias entries into scratch, and stores
      ((g + ub[u]) + ib[i]) + Σ_k (ue[u,k] + imp[u,k]) · ie[i,k]
  at row r of the 64×1 block.  Here: the payload of one row store at the ideal values; what a load of a scratch buffer
  reads after the copy of a table row an id word names; every one of the sixty-four row stores writes the score of its
  batch row; so the block read back at row r is the score of batch row 64·t + r.
-/
import proofs.«404469_j412316861026_1_alg».proof.Proof.IdealFrame
import proofs.«404469_j412316861026_1_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

namespace Point

/-! ## One row's payload -/

/-- The one index of a 1×1 block. -/
theorem idx11 (x : S1x1.Idx) : x = ix2 0 0 := by
  funext a
  match a with
  | ⟨0, _⟩ => exact Fin.ext (Nat.lt_one_iff.mp (idx2_lt0 x))
  | ⟨1, _⟩ => exact Fin.ext (Nat.lt_one_iff.mp (idx2_lt1 x))

/-- One row's payload at the ideal values: the three biases added in order, then the lane sum. -/
theorem pay_apply (v2 : FVec Ideal S1x1 .f32) (a b c : Vec Ideal S1x64 .f32) (d e : Vec Ideal S1x1 .f32) (x : S1x1.Idx) :
    (addf (addf (addf v2 d) e) (shapeCast S1x1 (multiReduction (F := Ideal) .add [1] S1 (mulf (addf a c) b) 0x00000000#32 reduces_S1x64_S1 (.inl rfl) rfl) shapeCasts_S1_S1x1)) x
      = ((v2 x + d x) + e x) + ∑ k : Fin 64, (a (ix2 0 k) + c (ix2 0 k)) * b (ix2 0 k) := by
  rw [addf_apply, addf_apply, addf_apply]
  congr 1
  rw [shapeCast_apply _ _ x (ix1 0) (by rw [idx11 x]; rfl)]
  refine (Ideal.multiReduction_add_single _ _ reduces_S1x64_S1 (.inl rfl) rfl (ix1 0)).trans ?_
  refine Finset.sum_congr rfl fun k _ => ?_
  rw [mulf_apply, addf_apply]
  have hk : (reduces_S1x64_S1.lift (ix1 0) k) = ix2 0 k := by
    funext a; match a with | ⟨0, _⟩ => rfl | ⟨1, _⟩ => rfl
  rw [hk]
  rfl

/-! ## What the loads read -/

/-- A load of a whole scratch buffer after the copies into it reads the last copy, which covers it. -/
theorem readCov_head {S : Shape} {e : EltTy} {sp : Space} (v : View sig .tc sp S e) (w : S.Idx → Elt Ideal e)
    (L : List (View.Piece (Elt Ideal) S e)) {off : Fin S.rank → ℕ} (h : off = fun _ => 0)
    (inb : ∀ a, off a + S.size a ≤ S.size a) :
    v.readCov (⟨Rect.whole S, w⟩ :: L) (Rect.unit off S.size inb).toLoadRect = w := by
  subst h
  exact View.readCov_cons_toLoadRect v (Rect.whole S) w L

/-- The 64-wide scratch row after a copy of the table row an id word names: entry k is the table at (row, k). -/
theorem val_row64 {v : View sig .tc .vmem S1x64 .f32} {M : Memref sig .tc .hbm S1000000x64 .f32} {f : M.view.ty.Contents (Elt Ideal)}
    (fr : S1000000x64.Idx → EReal) (hfr : M.view.read (Elt Ideal) f = fr)
    {offs : Fin 2 → ℕ} {inbs : ∀ a, offs a + S1x64.size a ≤ S1000000x64.size a} {hsl : ∀ a, (Rect.unit (s := S1000000x64) offs S1x64.size inbs).stride a = 1}
    {L : List (View.Piece (Elt Ideal) S1x64 .f32)}
    {off0 : Fin 2 → ℕ} {inb0 : ∀ a, off0 a + S1x64.size a ≤ S1x64.size a}
    (w : BitVec 32) (hw : w.toNat < 1000000) (hoffs : offs = ![w.toNat, 0]) (hoff0 : off0 = fun _ => 0) (y : S1x64.Idx) :
    v.readCov (⟨Rect.whole S1x64, ReadAs.same.apply (View.read (Elt Ideal) (M.slice (Rect.unit (s := S1000000x64) offs S1x64.size inbs) hsl).view f)⟩ :: L)
        (Rect.unit off0 S1x64.size inb0).toLoadRect y = fr (ix2 (Cert.Spec.rowOf w) (y 1)) := by
  rw [readCov_head _ _ _ hoff0]
  subst hfr hoffs
  show M.view.read (Elt Ideal) f ((Rect.unit (s := S1000000x64) ![w.toNat, 0] S1x64.size inbs).emb y) = _
  congr 1
  funext a
  match a with
  | ⟨0, _⟩ => exact Fin.ext (by have h0 := idx2_lt0 y; show w.toNat + 1 * (y 0).val = (Cert.Spec.rowOf w).val; rw [Cert.Spec.rowOf_val_of_lt w hw]; omega)
  | ⟨1, _⟩ => exact Fin.ext (by show 0 + 1 * (y 1).val = (y 1).val; omega)

/-- The one-entry scratch after a copy of the bias entry an id word names. -/
theorem val_row1 {v : View sig .tc .vmem S1x1 .f32} {M : Memref sig .tc .hbm S1000000x1 .f32} {f : M.view.ty.Contents (Elt Ideal)}
    (fr : S1000000x1.Idx → EReal) (hfr : M.view.read (Elt Ideal) f = fr)
    {offs : Fin 2 → ℕ} {inbs : ∀ a, offs a + S1x1.size a ≤ S1000000x1.size a} {hsl : ∀ a, (Rect.unit (s := S1000000x1) offs S1x1.size inbs).stride a = 1}
    {L : List (View.Piece (Elt Ideal) S1x1 .f32)}
    {off0 : Fin 2 → ℕ} {inb0 : ∀ a, off0 a + S1x1.size a ≤ S1x1.size a}
    (w : BitVec 32) (hw : w.toNat < 1000000) (hoffs : offs = ![w.toNat, 0]) (hoff0 : off0 = fun _ => 0) (y : S1x1.Idx) :
    v.readCov (⟨Rect.whole S1x1, ReadAs.same.apply (View.read (Elt Ideal) (M.slice (Rect.unit (s := S1000000x1) offs S1x1.size inbs) hsl).view f)⟩ :: L)
        (Rect.unit off0 S1x1.size inb0).toLoadRect y = fr (ix2 (Cert.Spec.rowOf w) 0) := by
  rw [readCov_head _ _ _ hoff0]
  subst hfr hoffs
  show M.view.read (Elt Ideal) f ((Rect.unit (s := S1000000x1) ![w.toNat, 0] S1x1.size inbs).emb y) = _
  congr 1
  funext a
  match a with
  | ⟨0, _⟩ => exact Fin.ext (by have h0 := idx2_lt0 y; show w.toNat + 1 * (y 0).val = (Cert.Spec.rowOf w).val; rw [Cert.Spec.rowOf_val_of_lt w hw]; omega)
  | ⟨1, _⟩ => exact Fin.ext (by have h1 := idx2_lt1 y; show 0 + 1 * (y 1).val = 0; omega)

/-- The id word a one-word window of an id table reads, by the window's offset in closed form. -/
theorem val_word {T : Memref sig .tc .smem S16384 .i32} {xt : T.view.ty.Contents (Elt Ideal)}
    (xr : S16384.Idx → BitVec 32) (hxr : T.view.read (Elt Ideal) xt = xr)
    {offw : Fin 1 → ℕ} [co : ClosedOff offw] {inbw : ∀ a, offw a + S1.size a ≤ S16384.size a}
    {j : (Rect.unit (s := S16384) offw S1.size inbw).toLoadRect.shape.Idx}
    (n : ℕ) (hn : n < 16384) (hform : co.form = ![n]) :
    T.view.readAt (Elt Ideal) (Rect.unit (s := S16384) offw S1.size inbw).toLoadRect xt j = xr (ix1 ⟨n, hn⟩) := by
  subst hxr
  rw [View.readAt_apply]
  congr 1
  have e : offw = ![n] := co.eq.trans hform
  funext a
  match a with
  | ⟨0, _⟩ => exact Fin.ext (by have hj : (j 0).val < 1 := (j 0).isLt; have e0 : offw 0 = n := congrFun e 0; show offw 0 + 1 * (j 0).val = n; omega)

/-- The global-bias block as the body loads it: the staging buffer's contents. -/
theorem val_v2 {arg8 : Memref sig .tc .vmem S1x1 .f32} (harg8 : arg8.IsWhole) (x0 : Vec Ideal S1x1 .f32)
    {off : Fin 2 → ℕ} {inb : ∀ a, off a + S1x1.size a ≤ S1x1.size a} (hoff : off = fun _ => 0)
    {hsc : S1x1.ShapeCasts S1x1} (y : S1x1.Idx) :
    shapeCast S1x1 (arg8.view.readAt (Elt Ideal) (Rect.unit off S1x1.size inb).toLoadRect (harg8.unread x0)) hsc y = x0 y := by
  subst hoff
  refine (congrFun (shapeCast_self (s := S1x1) _ hsc) y).trans ?_
  show View.ld (arg8.view.read (Elt Ideal) (harg8.unread x0)) (Rect.unit (fun _ => 0) S1x1.size inb) y = _
  rw [View.ld_unit_zero rfl, harg8.read_unread]

/-! ## One row store -/

/-- The score of batch row 64·i₀ + y₀, as a function of the output block's index y. -/
def G (uid iid : S16384.Idx → BitVec 32) (ue ie : S1000000x64.Idx → EReal) (ub ib : S1000000x1.Idx → EReal)
    (gb : S1.Idx → EReal) (imp : S1000000x64.Idx → EReal) (i0 : ℕ) (hi0 : i0 < 256) : S64x1.Idx → EReal :=
  fun y => Cert.Spec.score uid iid ue ie ub ib gb imp (ix1 ⟨64 * i0 + (y 0).val, by have := idx2_lt0 y; omega⟩)

theorem nlt {i0 rr : ℕ} (hi0 : i0 < 256) (hrr : rr < 64) : 64 * i0 + rr < 16384 := by omega

/-- Row rr of the 64×1 block is inside it. -/
theorem inbRow {rr : ℕ} (hrr : rr < 64) : ∀ a, (![rr, 0] : Fin 2 → ℕ) a + S1x1.size a ≤ S64x1.size a := by
  intro a
  match a with
  | ⟨0, _⟩ => show rr + 1 ≤ 64; omega
  | ⟨1, _⟩ => show 0 + 1 ≤ 1; omega

/-- One row store: if the six loaded vectors are the global bias, the three table rows and the two bias entries the
    row's two id words name, the stored payload is the row's score. -/
theorem piece_ok (uid iid : S16384.Idx → BitVec 32) (ue ie : S1000000x64.Idx → EReal) (ub ib : S1000000x1.Idx → EReal)
    (gb : S1.Idx → EReal) (imp : S1000000x64.Idx → EReal) (i0 : ℕ) (hi0 : i0 < 256)
    {rr : ℕ} (hrr : rr < 64)
    {v2 : FVec Ideal S1x1 .f32} {a b c : Vec Ideal S1x64 .f32} {d e : Vec Ideal S1x1 .f32} {u iw : BitVec 32}
    (hv2 : ∀ y, v2 y = gb (ix1 0))
    (ha : ∀ y, a y = ue (ix2 (Cert.Spec.rowOf u) (y 1))) (hb : ∀ y, b y = ie (ix2 (Cert.Spec.rowOf iw) (y 1)))
    (hc : ∀ y, c y = imp (ix2 (Cert.Spec.rowOf u) (y 1)))
    (hd : ∀ y, d y = ub (ix2 (Cert.Spec.rowOf u) 0)) (he : ∀ y, e y = ib (ix2 (Cert.Spec.rowOf iw) 0))
    (hu : u = uid (ix1 ⟨64 * i0 + rr, nlt hi0 hrr⟩)) (hi : iw = iid (ix1 ⟨64 * i0 + rr, nlt hi0 hrr⟩))
    (x : (Rect.unit (s := S64x1) ![rr, 0] S1x1.size (inbRow hrr)).shape.Idx) :
    (addf (addf (addf v2 d) e) (shapeCast S1x1 (multiReduction (F := Ideal) .add [1] S1 (mulf (addf a c) b) 0x00000000#32 reduces_S1x64_S1 (.inl rfl) rfl) shapeCasts_S1_S1x1)) x
      = G uid iid ue ie ub ib gb imp i0 hi0 ((Rect.unit (s := S64x1) ![rr, 0] S1x1.size (inbRow hrr)).emb x) := by
  subst hu hi
  rw [pay_apply]
  have hx : (((Rect.unit (s := S64x1) ![rr, 0] S1x1.size (inbRow hrr)).emb x) 0).val = rr := by
    have h0 : (x 0).val < 1 := (x 0).isLt
    show rr + 1 * (x 0).val = rr
    omega
  have hidx : (ix1 ⟨64 * i0 + (((Rect.unit (s := S64x1) ![rr, 0] S1x1.size (inbRow hrr)).emb x) 0).val, by rw [hx]; exact nlt hi0 hrr⟩ : S16384.Idx)
      = ix1 ⟨64 * i0 + rr, nlt hi0 hrr⟩ := by
    congr 2; omega
  show _ = Cert.Spec.score uid iid ue ie ub ib gb imp (ix1 ⟨64 * i0 + (((Rect.unit (s := S64x1) ![rr, 0] S1x1.size (inbRow hrr)).emb x) 0).val, _⟩)
  rw [hidx]
  unfold Cert.Spec.score
  simp only [hv2, ha, hb, hc, hd, he]

/-! ## The sixty-four row stores -/

theorem hz2 : (![0, 0] : Fin 2 → ℕ) = fun _ => 0 := by funext a; fin_cases a <;> rfl

/-- A property of every element of a list, one element at a time. -/
theorem forall_cons {α : Type} {P : α → Prop} {a : α} {l L : List α} (hL : L = a :: l) (ha : P a) (hl : ∀ x ∈ l, P x) :
    ∀ x ∈ L, P x := by
  subst hL
  exact List.forall_mem_cons.mpr ⟨ha, hl⟩

set_option maxHeartbeats 4000000 in
/-- Every one of the run's sixty-four row stores writes, at its place in the block, the score of its batch row. -/
theorem run_pieces (c : Dev nD) (i : grid0.Coords)
    (arg8 : Memref sig .tc .vmem S1x1 .f32) (harg8 : arg8.IsWhole) (arg9 : Memref sig .tc .vmem S64x1 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x1 .f32) (harg13 : arg13.IsWhole)
    (arg14 : Memref sig .tc .vmem S1x1 .f32) (harg14 : arg14.IsWhole)
    (x0 : Vec Ideal S1x1 .f32) (xt0 : TbBuf (F := Ideal) c tbM0) (xt1 : TbBuf (F := Ideal) c tbM1)
    (fh0 : HbBuf (F := Ideal) c hbM0) (fh1 : HbBuf (F := Ideal) c hbM1) (fh2 : HbBuf (F := Ideal) c hbM2) (fh3 : HbBuf (F := Ideal) c hbM3) (fh4 : HbBuf (F := Ideal) c hbM4)
    (hU0 : ∀ (off : Fin 1 → ℕ) (inb : ∀ a, off a + S1.size a ≤ S16384.size a) (j : (Rect.unit (s := S16384) off S1.size inb).toLoadRect.shape.Idx), BitVec.toNat (tbM0.view.readAt (Elt Ideal) (Rect.unit (s := S16384) off S1.size inb).toLoadRect xt0 j) < 1000000)
    (hU1 : ∀ (off : Fin 1 → ℕ) (inb : ∀ a, off a + S1.size a ≤ S16384.size a) (j : (Rect.unit (s := S16384) off S1.size inb).toLoadRect.shape.Idx), BitVec.toNat (tbM1.view.readAt (Elt Ideal) (Rect.unit (s := S16384) off S1.size inb).toLoadRect xt1 j) < 1000000)
    (gb : S1.Idx → EReal) (hx0 : ∀ y, x0 y = gb (ix1 0)) :
    ∀ p ∈ (kernelRun c i arg8 harg8 arg9 harg9 arg10 harg10 arg11 harg11 arg12 harg12 arg13 harg13 arg14 harg14 x0 xt0 xt1 fh0 fh1 fh2 fh3 fh4 hU0 hU1).1,
      ∀ x : p.1.shape.Idx, p.2 x = G xt0 xt1 fh0 fh1 fh3 fh4 gb fh2 (i 0).val (i 0).isLt (p.1.emb x) := by
  have hv2 : ∀ y, kernelRun.sl.v2 c arg8 harg8 x0 y = gb (ix1 0) := fun y => (val_v2 harg8 x0 hz2 y).trans (hx0 y)
  repeat
    refine forall_cons rfl (fun x => ?_) ?_
    exact piece_ok xt0 xt1 fh0 fh1 fh3 fh4 gb fh2 (i 0).val (i 0).isLt (by norm_num) hv2 (val_row64 fh0 rfl _ (hU0 _ _ _) rfl hz2) (val_row64 fh1 rfl _ (hU1 _ _ _) rfl hz2) (val_row64 fh2 rfl _ (hU0 _ _ _) rfl hz2) (val_row1 fh3 rfl _ (hU0 _ _ _) rfl hz2) (val_row1 fh4 rfl _ (hU1 _ _ _) rfl hz2) (val_word xt0 rfl _ _ rfl) (val_word xt1 rfl _ _ rfl) x
  exact fun p hp => absurd hp List.not_mem_nil

/-! ## What the region finds in its arrays -/

variable (m : (ℓ : Loc nD τ sig) → Buf (Elt Ideal) ℓ)

/-- A grid point's one coordinate is its number. -/
theorem coords_val (t : Fin (cfgM m).N) : (grid0.coords t 0).val = t.val := by
  have ht : t.val < 256 := t.isLt
  show t.val / grid0.stride 0 % 256 = t.val
  rw [show grid0.stride 0 = 1 from rfl, Nat.div_one, Nat.mod_eq_of_lt ht]

/-- The host reshape before the region writes only the 1×1 global bias: the eight arguments are as given. -/
theorem V_arg2 (c : Dev nD) : V m c main_arg2 = m ((c.tc : Thread nD τ).loc main_arg2) := by
  show StableHlo.after hostOps0 (fun b => m (c, b)) (Proc.devRef .tc main_arg2) = _
  after_results
theorem V_arg3 (c : Dev nD) : V m c main_arg3 = m ((c.tc : Thread nD τ).loc main_arg3) := by
  show StableHlo.after hostOps0 (fun b => m (c, b)) (Proc.devRef .tc main_arg3) = _
  after_results
theorem V_arg4 (c : Dev nD) : V m c main_arg4 = m ((c.tc : Thread nD τ).loc main_arg4) := by
  show StableHlo.after hostOps0 (fun b => m (c, b)) (Proc.devRef .tc main_arg4) = _
  after_results
theorem V_arg5 (c : Dev nD) : V m c main_arg5 = m ((c.tc : Thread nD τ).loc main_arg5) := by
  show StableHlo.after hostOps0 (fun b => m (c, b)) (Proc.devRef .tc main_arg5) = _
  after_results
theorem V_arg7 (c : Dev nD) : V m c main_arg7 = m ((c.tc : Thread nD τ).loc main_arg7) := by
  show StableHlo.after hostOps0 (fun b => m (c, b)) (Proc.devRef .tc main_arg7) = _
  after_results
theorem tbl0 : tbl m 0 = m (((0 : Dev nD).tc : Thread nD τ).loc main_arg0) := by
  show StableHlo.after hostOps0 (fun b => m ((0 : Dev nD), b)) (Proc.devRef .tc main_arg0) = _
  after_results
theorem tbl1 : tbl m 1 = m (((0 : Dev nD).tc : Thread nD τ).loc main_arg1) := by
  show StableHlo.after hostOps0 (fun b => m ((0 : Dev nD), b)) (Proc.devRef .tc main_arg1) = _
  after_results

/-- The reshaped global bias. -/
theorem V_v0 (c : Dev nD) : (V m c main_v0 : S1x1.Idx → EReal)
    = shapeCast S1x1 (m ((c.tc : Thread nD τ).loc main_arg6) : S1.Idx → EReal) shapeCasts_S1_S1x1 := by
  show StableHlo.after hostOps0 (fun b => m (c, b)) (Proc.devRef .tc main_v0) = _
  after_results; rfl

/-- The global-bias block at any point holds the one global-bias entry. -/
theorem iblk0_apply (c : Dev nD) (t : Fin (cfgM m).N) (y : S1x1.Idx) :
    (iblk m c 0 t : Vec Ideal S1x1 .f32) y = m ((c.tc : Thread nD τ).loc main_arg6) (ix1 0) := by
  show V m c main_v0 ((((cfgM m).win 0).blk t).view.emb y) = _
  rw [V_v0]
  exact shapeCast_apply _ _ _ (ix1 0) (by rw [idx11 ((((cfgM m).win 0).blk t).view.emb y)]; rfl)

end Point

/-! ## The block read back -/

/-- What grid point t leaves at row r of the output block: the score of batch row 64·t + r. -/
theorem outAt_apply (m : (ℓ : Loc nD τ sig) → Buf (Elt Ideal) ℓ) (hH : Hyps m) (c : Dev nD) (t : Fin (cfgM m).N) (r : Fin 64)
    (j : Fin 16384) (hj : j.val = 64 * t.val + r.val) :
    outAt m hH c t (ValueIdx.ix2 r 0)
      = Cert.Spec.score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) (ValueIdx.ix1 j) := by
  have hP := Point.run_pieces c (grid0.coords t) (ms0 m t) (hs0 m t) (ms1 m t) (hs1 m t) scM0 (Memref.isWhole_whole _) scM1 (Memref.isWhole_whole _) scM2 (Memref.isWhole_whole _) scM3 (Memref.isWhole_whole _) scM4 (Memref.isWhole_whole _) (iblk m c 0 t) (tbl m 0) (tbl m 1) (V m c main_arg2) (V m c main_arg3) (V m c main_arg7) (V m c main_arg4) (V m c main_arg5) hH.1 hH.2 (m ((c.tc : Thread nD τ).loc main_arg6)) (Point.iblk0_apply m c t)
  have hcov := cover1 c (grid0.coords t) (ms0 m t) (hs0 m t) (ms1 m t) (hs1 m t) scM0 (Memref.isWhole_whole _) scM1 (Memref.isWhole_whole _) scM2 (Memref.isWhole_whole _) scM3 (Memref.isWhole_whole _) scM4 (Memref.isWhole_whole _) (iblk m c 0 t) (tbl m 0) (tbl m 1) (V m c main_arg2) (V m c main_arg3) (V m c main_arg7) (V m c main_arg4) (V m c main_arg5) hH.1 hH.2 (ix2 r 0)
  unfold outAt
  refine (View.read_writes_apply_eq_canon _ _ (ix2 r 0) _ hcov).trans ?_
  refine (View.canon_apply_of_pieces _ _ hP (ix2 r 0) hcov).trans ?_
  obtain rfl : c = 0 := Subsingleton.elim _ _
  unfold Point.G
  rw [Point.tbl0, Point.tbl1, Point.V_arg2, Point.V_arg3, Point.V_arg4, Point.V_arg5, Point.V_arg7]
  congr 2
  exact Fin.ext (by show 64 * (grid0.coords t 0).val + r.val = j.val; rw [Point.coords_val, hj])

end Cert.KernelIdeal.Hand

end
-- ==== Proof.IdealFinal.lean ====
/-
  From the blocks to the program's result.  The region writes the output column block by block: grid point t leaves
  rows 64 t … 64 t + 63, and the 256 blocks tile the 16384 rows, so a function S of the row number that every block
  agrees with is the whole column after the run; the reshape after the region reads that column as a vector, row j
  at position j.  And a buffer that is neither reshape's result nor the output column ends as it was launched: the
  reshape before the region writes only the 1×1 bias, the region's arrays are that bias and the column, and the
  reshape after it writes only the result vector.
-/
import proofs.«404469_j412316861026_1_alg».proof.Proof.IdealFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No host operation writes a buffer other than the two reshapes' results, and the region's arrays are the reshaped
    bias and the output column: any other buffer ends as launched. -/
theorem arg_after (hH : Hyps m) (c : Dev nD) (b : Ref sig .tc) (h0 : b ≠ main_v0) (h1 : b ≠ main_v1) (h2 : b ≠ main_v2) :
    Pipeline.afterTail pcfgs (fun _ => adm m) (dats m hH) 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h2)),
    Pipeline.withArrays_of_ne _ c (V0 m c) _ b (fun w => by
      fin_cases w
      · exact fun e => h0 e.symm
      · exact fun e => h1 e.symm)]
  exact StableHlo.after_of_forall_not_mem (b := Proc.devRef .tc b) _ _ (List.forall_iff_forall_mem.mp (by
      simp only [hostOps0, List.flatten_cons, List.flatten_nil, List.append_nil, List.Forall, StableHlo.reshape_writes, Finset.mem_singleton]
      exact StableHlo.devRef_ne_of_ne h0))

/-- The output window's block index at grid point t is (t, 0). -/
theorem out_index : ∀ t : Fin grid0.N, cc0_transform_6 (grid0.coords t) 0 = t.val ∧ cc0_transform_6 (grid0.coords t) 1 = 0 := by
  decide +kernel

/-- Every point writes its output block back: the block index moves at every step. -/
theorem flush_all (t : Fin (cfgM m).N) : ((cfgM m).win 1).flush t = true := by
  rw [Window.flush_out _ rfl]
  by_cases h : t.val + 1 = (cfgM m).N
  · exact Or.inl h
  · have hlt : t.val + 1 < (cfgM m).N := by have := t.isLt; omega
    refine Or.inr ⟨hlt, fun e => ?_⟩
    have e0 : cc0_transform_6 (grid0.coords ⟨t.val + 1, hlt⟩) 0 = cc0_transform_6 (grid0.coords t) 0 := congrFun e (0 : Fin 2)
    rw [(out_index ⟨t.val + 1, hlt⟩).1, (out_index t).1] at e0
    exact absurd e0 (by show t.val + 1 ≠ t.val; omega)

/-- The output column as a function of the row number alone. -/
abbrev colOf (S : (⟨1, ![16384]⟩ : Shape).Idx → Elt F .f32) : S16384x1.Idx → Elt F .f32 := fun y => S (ValueIdx.ix1 (y 0))

/-- Row r of the block point t leaves is row 64 t + r of the column. -/
theorem block_row (hH : Hyps m) (c : Dev nD) (S : (⟨1, ![16384]⟩ : Shape).Idx → Elt F .f32)
    (hS : ∀ (t : Fin (cfgM m).N) (r : Fin 64) (j : Fin 16384), j.val = 64 * t.val + r.val → outAt m hH c t (ValueIdx.ix2 r 0) = S (ValueIdx.ix1 j))
    (t : Fin (cfgM m).N) (y : S64x1.Idx) (i : S16384x1.Idx) (hi : (i 0).val = 64 * t.val + (y 0).val) :
    outAt m hH c t y = colOf S i := by
  have hyy : y = ValueIdx.ix2 (y 0) 0 := by
    funext a
    match a with
    | ⟨0, _⟩ => rfl
    | ⟨1, _⟩ => apply Fin.ext; show (y 1).val = 0; have h : (y 1).val < 1 := (y 1).isLt; omega
  exact (congrArg (outAt m hH c t) hyy).trans (hS t (y 0) (i 0) hi)

theorem flushed_eq (hH : Hyps m) (c : Dev nD) (S : (⟨1, ![16384]⟩ : Shape).Idx → Elt F .f32)
    (hS : ∀ (t : Fin (cfgM m).N) (r : Fin 64) (j : Fin 16384), j.val = 64 * t.val + r.val → outAt m hH c t (ValueIdx.ix2 r 0) = S (ValueIdx.ix1 j))
    (t : Fin (cfgM m).N) :
    (dats m hH 0 c).flushed 1 t = (((cfgM m).win 1).blk t).view.read (Elt F) (colOf S) := by
  show ((cfgM m).win 1).cut (grid0.coords t) ((dats m hH 0 c).after 1 t) = _
  rw [after0_1]
  obtain ⟨e0, e1⟩ := out_index t
  have key : ∀ y : S64x1.Idx, outAt m hH c t y = colOf S ((((cfgM m).win 1).blk t).view.emb y) := fun y => by
    refine block_row m hH c S hS t y _ ?_
    show cc0_transform_6 (grid0.coords t) 0 * 64 + 1 * (y 0).val = 64 * t.val + (y 0).val
    rw [e0]; omega
  exact funext key

/-- An index that is the image of a block coordinate is in the block. -/
theorem mem_of_emb (t : Fin (cfgM m).N) (y : S64x1.Idx) (i : S16384x1.Idx)
    (h : (((cfgM m).win 1).blk t).view.emb y = i) : i ∈ (((cfgM m).win 1).blk t).view.set :=
  h ▸ View.emb_mem_set _ y

/-- Row i of the column is in the block of point i / 64, at row i mod 64 of it. -/
theorem cover (i : S16384x1.Idx) : ∃ t : Fin (cfgM m).N, ((cfgM m).win 1).flush t = true ∧ i ∈ (((cfgM m).win 1).blk t).view.set := by
  have hi0 : (i 0).val < 16384 := (i 0).isLt
  have hi1 : (i 1).val < 1 := (i 1).isLt
  have hN : (cfgM m).N = 256 := N_0
  have hq : (i 0).val / 64 < (cfgM m).N := by rw [hN]; omega
  obtain ⟨e0, e1⟩ := out_index ⟨(i 0).val / 64, hq⟩
  refine ⟨⟨(i 0).val / 64, hq⟩, flush_all m _, mem_of_emb m _ (ValueIdx.ix2 (⟨(i 0).val % 64, Nat.mod_lt _ (by norm_num)⟩ : Fin 64) (0 : Fin 1)) i ?_⟩
  funext a
  apply Fin.ext
  match a with
  | ⟨0, _⟩ =>
    show cc0_transform_6 (grid0.coords ⟨(i 0).val / 64, hq⟩) 0 * 64 + 1 * ((i 0).val % 64) = (i 0).val
    rw [e0]; show (i 0).val / 64 * 64 + 1 * ((i 0).val % 64) = (i 0).val; omega
  | ⟨1, _⟩ =>
    show cc0_transform_6 (grid0.coords ⟨(i 0).val / 64, hq⟩) 1 * 1 + 1 * 0 = (i 1).val
    rw [e1]; omega

/-- The output column after the run: row j holds S j. -/
theorem final (hH : Hyps m) (c : Dev nD) (S : (⟨1, ![16384]⟩ : Shape).Idx → Elt F .f32)
    (hS : ∀ (t : Fin (cfgM m).N) (r : Fin 64) (j : Fin 16384), j.val = 64 * t.val + r.val → outAt m hH c t (ValueIdx.ix2 r 0) = S (ValueIdx.ix1 j)) :
    (dats m hH 0 c).arrAt 1 (cfgM m).N = colOf S :=
  (dats m hH 0 c).arrAt_eq_of_cover 1 (colOf S) (fun t _ => flushed_eq m hH c S hS t) (cover m)

/-- The program's result: the reshape of the output column to a vector reads S. -/
theorem result_of_blocks (hH : Hyps m) (c : Dev nD) (S : (⟨1, ![16384]⟩ : Shape).Idx → Elt F .f32)
    (hS : ∀ (t : Fin (cfgM m).N) (r : Fin 64) (j : Fin 16384), j.val = 64 * t.val + r.val → outAt m hH c t (ValueIdx.ix2 r 0) = S (ValueIdx.ix1 j)) :
    Pipeline.afterTail pcfgs (fun _ => adm m) (dats m hH) 0 (V0 m) [hostOps1] c main_v2 = S := by
  unfold Pipeline.afterTail
  show StableHlo.after hostOps1 _ (Proc.devRef .tc main_v2) = _
  after_results
  have hA : Pipeline.withArrays (Pipeline.pin pcfgs (fun _ => adm m) 0).spec c (V0 m c)
      (fun w => (dats m hH 0 c).arrAt w (Pipeline.pin pcfgs (fun _ => adm m) 0).N) (Proc.devRef .tc main_v1) = colOf S :=
    (Pipeline.withArrays_arr spec0 winFacts0.arr_inj c _ _ 1).trans (final m hH c S hS)
  rw [hA]
  funext j
  show shapeCast S16384 (colOf S) shapeCasts_S16384x1_S16384 j = S j
  refine (shapeCast_apply (colOf S) shapeCasts_S16384x1_S16384 j (ValueIdx.ix2 (j 0) 0) ?_).trans ?_
  · rw [Shape.rowMajor_val_two, Shape.rowMajor_val_one]
    show (j 0).val * 1 + 0 = (j 0).val
    omega
  · show S (ValueIdx.ix1 (j 0)) = S j
    congr 1
    funext a
    match a with
    | ⟨0, _⟩ => rfl

end Cert.KernelIdeal.Hand

end
-- ==== Proof.lean ====
/-
  The certificate of the row-gather recommender score.  For every batch row j, with user id u and item id i read from
  the two id arguments, both programs compute  ((g + ub[u]) + ib[i]) + Σ_k (ue[u,k] + imp[u,k]) · ie[i,k]  on the
  extended reals (Spec.score): the kernel by copying the five rows into scratch and reducing them on the core, one grid
  point per 64 batch rows; the reference by five host gathers and a host sum.  The precondition bounds the ids to row
  numbers, 0 ≤ id < 1000000; the kernel's copies need it (an id outside names no row to copy), and under it the
  reference's index normalisation and clamping are the identity.  No law of the extended reals beyond reading both sides
  index by index is needed, so finiteness of the float inputs is never used.
  The three frames: the two kernel programs by the launch of their one pipeline (the body run symbolically once per
  program), the reference by its run.  The idealization rewrote no operation, so the preservation claim is empty.
-/
import proofs.«404469_j412316861026_1_alg».proof.Defs
import proofs.«404469_j412316861026_1_alg».proof.Proof.Gen.Kernel
import proofs.«404469_j412316861026_1_alg».proof.Proof.Gen.KernelIdeal
import proofs.«404469_j412316861026_1_alg».proof.Proof.Gen.ReferenceIdeal
import proofs.«404469_j412316861026_1_alg».proof.Proof.Gen.Pre_finite_inputs
import proofs.«404469_j412316861026_1_alg».proof.Proof.PreIds
import proofs.«404469_j412316861026_1_alg».proof.Proof.BitsClaim
import proofs.«404469_j412316861026_1_alg».proof.Proof.IdealClaim
import proofs.«404469_j412316861026_1_alg».proof.Proof.RefScore
import proofs.«404469_j412316861026_1_alg».proof.Proof.IdealPoint
import proofs.«404469_j412316861026_1_alg».proof.Proof.IdealFinal
import Idealize.ShloMosaic.Adequacy
import Idealize.ShloMosaic.Init

noncomputable section

namespace Cert.Proof

open Idealize.ShloMosaic Idealize.ShloMosaic.TcCoe Idealize.SL.Sem

/-- Under the precondition both id arguments hold row numbers (word-level program). -/
theorem ids_bits [Cert.Kernel.Facts] [Cert.Pre_finite_inputs.Facts] (m : (ℓ : Loc Cert.Kernel.nD Cert.Kernel.τ Cert.Kernel.sig) → Buf (Elt Bits) ℓ) (h : Cert.Pre_Kernel m) (c : Dev Cert.Kernel.nD) :
    (∀ x : Cert.Kernel.S16384.Idx, BitVec.toNat (m ((c.tc : Thread Cert.Kernel.nD Cert.Kernel.τ).loc Cert.Kernel.main_arg0) x) < 1000000) ∧ (∀ x : Cert.Kernel.S16384.Idx, BitVec.toNat (m ((c.tc : Thread Cert.Kernel.nD Cert.Kernel.τ).loc Cert.Kernel.main_arg1) x) < 1000000) :=
  Cert.Pre_finite_inputs.Hand.ids_lt _ _ _ _ _ _ _ _ (h c)

/-- The same for the idealized program. -/
theorem ids_ideal [Cert.KernelIdeal.Facts] [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ x : Cert.KernelIdeal.S16384.Idx, BitVec.toNat (m ((c.tc : Thread Cert.KernelIdeal.nD Cert.KernelIdeal.τ).loc Cert.KernelIdeal.main_arg0) x) < 1000000) ∧ (∀ x : Cert.KernelIdeal.S16384.Idx, BitVec.toNat (m ((c.tc : Thread Cert.KernelIdeal.nD Cert.KernelIdeal.τ).loc Cert.KernelIdeal.main_arg1) x) < 1000000) :=
  Cert.Pre_finite_inputs.Hand.ids_lt _ _ _ _ _ _ _ _ (h c)

theorem frame_k [hK : Cert.Kernel.Facts] [hP : Cert.Pre_finite_inputs.Facts] : Cert.frame_Kernel := fun m ρ hpre =>
  Cert.Kernel.Hand.frame_of_hyps m ρ (Cert.Kernel.Hand.hyps_of_ids m (ids_bits m hpre 0).1 (ids_bits m hpre 0).2)

theorem frame_ki [hK : Cert.KernelIdeal.Facts] [hP : Cert.Pre_finite_inputs.Facts] : Cert.frame_KernelIdeal := fun m ρ hpre =>
  Cert.KernelIdeal.Hand.frame_of_hyps m ρ (Cert.KernelIdeal.Hand.hyps_of_ids m (ids_ideal m hpre 0).1 (ids_ideal m hpre 0).2)

theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the score of every batch row. -/
theorem algebraic [hK : Cert.KernelIdeal.Facts] [hR : Cert.ReferenceIdeal.Facts] [hP : Cert.Pre_finite_inputs.Facts] : Cert.algebraic_KernelIdeal_ReferenceIdeal := by
  intro m ρ m' ρ' hpre hagree
  have hH := Cert.KernelIdeal.Hand.hyps_of_ids m (ids_ideal m hpre 0).1 (ids_ideal m hpre 0).2
  refine ⟨fun c => Cert.Spec.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨?_, ((h c).2 Cert.KernelIdeal.main_arg0 (by decide : Cert.KernelIdeal.main_arg0 ∈ Pipeline.restRefs Cert.KernelIdeal.sig Cert.KernelIdeal.spec0)).trans (Cert.KernelIdeal.Hand.tail_of_ne m hH c Cert.KernelIdeal.main_arg0 (by decide) (by decide) (by decide)),
      ((h c).2 Cert.KernelIdeal.main_arg1 (by decide : Cert.KernelIdeal.main_arg1 ∈ Pipeline.restRefs Cert.KernelIdeal.sig Cert.KernelIdeal.spec0)).trans (Cert.KernelIdeal.Hand.tail_of_ne m hH c Cert.KernelIdeal.main_arg1 (by decide) (by decide) (by decide)),
      ((h c).2 Cert.KernelIdeal.main_arg2 (by decide : Cert.KernelIdeal.main_arg2 ∈ Pipeline.restRefs Cert.KernelIdeal.sig Cert.KernelIdeal.spec0)).trans (Cert.KernelIdeal.Hand.tail_of_ne m hH c Cert.KernelIdeal.main_arg2 (by decide) (by decide) (by decide)),
      ((h c).2 Cert.KernelIdeal.main_arg3 (by decide : Cert.KernelIdeal.main_arg3 ∈ Pipeline.restRefs Cert.KernelIdeal.sig Cert.KernelIdeal.spec0)).trans (Cert.KernelIdeal.Hand.tail_of_ne m hH c Cert.KernelIdeal.main_arg3 (by decide) (by decide) (by decide)),
      ((h c).2 Cert.KernelIdeal.main_arg4 (by decide : Cert.KernelIdeal.main_arg4 ∈ Pipeline.restRefs Cert.KernelIdeal.sig Cert.KernelIdeal.spec0)).trans (Cert.KernelIdeal.Hand.tail_of_ne m hH c Cert.KernelIdeal.main_arg4 (by decide) (by decide) (by decide)),
      ((h c).2 Cert.KernelIdeal.main_arg5 (by decide : Cert.KernelIdeal.main_arg5 ∈ Pipeline.restRefs Cert.KernelIdeal.sig Cert.KernelIdeal.spec0)).trans (Cert.KernelIdeal.Hand.tail_of_ne m hH c Cert.KernelIdeal.main_arg5 (by decide) (by decide) (by decide)),
      ((h c).2 Cert.KernelIdeal.main_arg6 (by decide : Cert.KernelIdeal.main_arg6 ∈ Pipeline.restRefs Cert.KernelIdeal.sig Cert.KernelIdeal.spec0)).trans (Cert.KernelIdeal.Hand.tail_of_ne m hH c Cert.KernelIdeal.main_arg6 (by decide) (by decide) (by decide)),
      ((h c).2 Cert.KernelIdeal.main_arg7 (by decide : Cert.KernelIdeal.main_arg7 ∈ Pipeline.restRefs Cert.KernelIdeal.sig Cert.KernelIdeal.spec0)).trans (Cert.KernelIdeal.Hand.tail_of_ne m hH c Cert.KernelIdeal.main_arg7 (by decide) (by decide) (by decide))⟩) (Cert.KernelIdeal.Hand.run_main m ρ hH)
    exact ((h c).2 Cert.KernelIdeal.main_v2 (by decide : Cert.KernelIdeal.main_v2 ∈ Pipeline.restRefs Cert.KernelIdeal.sig Cert.KernelIdeal.spec0)).trans
      (Cert.KernelIdeal.Hand.result_of_blocks m hH c _ (fun t r j hj => Cert.KernelIdeal.Hand.outAt_apply m hH c t r j hj))
  · have hu : ∀ (c : Dev Cert.ReferenceIdeal.nD) (x : Cert.ReferenceIdeal.S16384.Idx), BitVec.toNat (m' ((c.tc : Thread Cert.ReferenceIdeal.nD Cert.ReferenceIdeal.τ).loc Cert.ReferenceIdeal.main_arg0) x) < 1000000 := fun c x => by
      rw [(hagree c).1]; exact (ids_ideal m hpre c).1 x
    have hi : ∀ (c : Dev Cert.ReferenceIdeal.nD) (x : Cert.ReferenceIdeal.S16384.Idx), BitVec.toNat (m' ((c.tc : Thread Cert.ReferenceIdeal.nD Cert.ReferenceIdeal.τ).loc Cert.ReferenceIdeal.main_arg1) x) < 1000000 := fun c x => by
      rw [(hagree c).2.1]; exact (ids_ideal m hpre c).2 x
    refine (θ_run Cert.ReferenceIdeal.defs _ _).mono (fun _ h c => ⟨(h c).1.trans ?_, (h c).2⟩) (Cert.ReferenceIdeal.RefValue.run_score m' ρ' hu hi)
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k (hK := Cert.Kernel.Gen.facts) (hP := Cert.Pre_finite_inputs.Gen.facts), frame_ki (hK := Cert.KernelIdeal.Gen.facts) (hP := Cert.Pre_finite_inputs.Gen.facts),
  frame_ri (hR := Cert.ReferenceIdeal.Gen.facts) (hP := Cert.Pre_finite_inputs.Gen.facts), trivial,
  algebraic (hK := Cert.KernelIdeal.Gen.facts) (hR := Cert.ReferenceIdeal.Gen.facts) (hP := Cert.Pre_finite_inputs.Gen.facts)⟩

end Cert.Proof

end
